-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x32x4 : Shape := ⟨3, ![40000, 32, 4]⟩
abbrev S40000 : Shape := ⟨1, ![40000]⟩
abbrev S40000x2 : Shape := ⟨2, ![40000, 2]⟩
abbrev S64x9 : Shape := ⟨2, ![64, 9]⟩
abbrev S64 : Shape := ⟨1, ![64]⟩
abbrev S_ : Shape := ⟨0, ![]⟩

class Facts : Prop where
  bcast_S_S40000x32x4 : S_.BroadcastsInDim S40000x32x4 (![] : Fin 0 → Fin S40000x32x4.rank)
  reducesTo_S40000x32x4_S_d0_1_2 : S40000x32x4.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S40000x32x4 .f32) (main_arg1 : IVec S40000 32) (main_arg2 : IVec S40000x2 32) (main_arg3 : FVec F S64x9 .f32) (main_arg4 : FVec F S64 .f32) (main_arg5 : FVec F S64 .f32) : IVec S_ 1 :=
  let main_v0 : FVec F S40000x32x4 .f32 := Host.absf main_arg0
  let main_cst : FVec F S_ .f32 := constant S_ .f32 0x7F800000#32
  let main_v1 : FVec F S40000x32x4 .f32 := broadcastInDim S40000x32x4 ![] bcast_S_S40000x32x4 main_cst
  let main_v2 : IVec S40000x32x4 1 := cmpf .olt main_v0 main_v1
  let main_c : IVec S_ 1 := constantI S_ 1 1#1
  let main_v3 : IVec S_ 1 := (fun x v => Host.reduce IntOp.andi x v reducesTo_S40000x32x4_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S40000x32x4 : Shape := ⟨3, ![40000, 32, 4]⟩
abbrev S40000 : Shape := ⟨1, ![40000]⟩
abbrev S40000x2 : Shape := ⟨2, ![40000, 2]⟩
abbrev S64x9 : Shape := ⟨2, ![64, 9]⟩
abbrev S64 : Shape := ⟨1, ![64]⟩
abbrev S40000x1 : Shape := ⟨2, ![40000, 1]⟩
abbrev S1x64 : Shape := ⟨2, ![1, 64]⟩
abbrev S800x32x4 : Shape := ⟨3, ![800, 32, 4]⟩
abbrev S800x2 : Shape := ⟨2, ![800, 2]⟩
abbrev S800x1 : Shape := ⟨2, ![800, 1]⟩
abbrev S800x32x1 : Shape := ⟨3, ![800, 32, 1]⟩
abbrev S800x32 : Shape := ⟨2, ![800, 32]⟩
abbrev S800 : Shape := ⟨1, ![800]⟩
abbrev S800x32x64 : Shape := ⟨3, ![800, 32, 64]⟩
abbrev S64x1 : Shape := ⟨2, ![64, 1]⟩
abbrev S1x1x64 : Shape := ⟨3, ![1, 1, 64]⟩
abbrev S800x64 : Shape := ⟨2, ![800, 64]⟩
abbrev S_ : Shape := ⟨0, ![]⟩
abbrev S40000x64 : Shape := ⟨2, ![40000, 64]⟩

abbrev nBuf : Space → Nat
  | .hbm => 30
  | .vmem => 20
  | .smem => 0
  | _ => 0

abbrev bufTy : (tb : Table) → Fin (tcTables nBuf tb) → BufTy
  | .hbm, ⟨0, _⟩ => ⟨S40000x32x4, .f32⟩
  | .hbm, ⟨1, _⟩ => ⟨S40000, .i32⟩
  | .hbm, ⟨2, _⟩ => ⟨S40000x2, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S40000x1, .i32⟩
  | .hbm, ⟨7, _⟩ => ⟨S1x64, .f32⟩
  | .hbm, ⟨8, _⟩ => ⟨S1x64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S40000x64, .f32⟩
  | .local _ .vmem, ⟨0, _⟩ => ⟨S800x32x4, .f32⟩
  | .local _ .vmem, ⟨1, _⟩ => ⟨S800x32x4, .f32⟩
  | .local _ .vmem, ⟨2, _⟩ => ⟨S800x2, .i32⟩
  | .local _ .vmem, ⟨3, _⟩ => ⟨S800x2, .i32⟩
  | .local _ .vmem, ⟨4, _⟩ => ⟨S800x1, .i32⟩
  | .local _ .vmem, ⟨5, _⟩ => ⟨S800x1, .i32⟩
  | .local _ .vmem, ⟨6, _⟩ => ⟨S64x9, .f32⟩
  | .local _ .vmem, ⟨7, _⟩ => ⟨S1x64, .f32⟩
  | .local _ .vmem, ⟨8, _⟩ => ⟨S1x64, .f32⟩
  | .local _ .vmem, ⟨9, _⟩ => ⟨S800x32x4, .f32⟩
  | .local _ .vmem, ⟨10, _⟩ => ⟨S800x32x4, .f32⟩
  | .local _ .vmem, ⟨11, _⟩ => ⟨S800x2, .i32⟩
  | .local _ .vmem, ⟨12, _⟩ => ⟨S800x2, .i32⟩
  | .local _ .vmem, ⟨13, _⟩ => ⟨S800x1, .i32⟩
  | .local _ .vmem, ⟨14, _⟩ => ⟨S800x1, .i32⟩
  | .local _ .vmem, ⟨15, _⟩ => ⟨S64x9, .f32⟩
  | .local _ .vmem, ⟨16, _⟩ => ⟨S1x64, .f32⟩
  | .local _ .vmem, ⟨17, _⟩ => ⟨S1x64, .f32⟩
  | .local _ .vmem, ⟨18, _⟩ => ⟨S800x64, .f32⟩
  | .local _ .vmem, ⟨19, _⟩ => ⟨S800x64, .f32⟩
  | _, _ => ⟨S40000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x2 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S800x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x9 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S800x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S40000_S40000x1 : S40000.ShapeCasts S40000x1
  inb_S1x64_S1x64_0_0 : ∀ a, (![0, 0] : Fin 2 → Nat) a + S1x64.size a ≤ S1x64.size a
  h_S1x64 : 0 < S1x64.numel
  inb_S800x32x4_S800x32x4_0_0_0 : ∀ a, (![0, 0, 0] : Fin 3 → Nat) a + S800x32x4.size a ≤ S800x32x4.size a
  h_S800x32x4 : 0 < S800x32x4.numel
  inb_S800x2_S800x2_0_0 : ∀ a, (![0, 0] : Fin 2 → Nat) a + S800x2.size a ≤ S800x2.size a
  h_S800x2 : 0 < S800x2.numel
  inb_S800x1_S800x1_0_0 : ∀ a, (![0, 0] : Fin 2 → Nat) a + S800x1.size a ≤ S800x1.size a
  h_S800x1 : 0 < S800x1.numel
  shapeCasts_S800x1_S800x1 : S800x1.ShapeCasts S800x1
  inb_S64x9_S64x9_0_0 : ∀ a, (![0, 0] : Fin 2 → Nat) a + S64x9.size a ≤ S64x9.size a
  h_S64x9 : 0 < S64x9.numel
  slices_S800x32x4_o0_0_0_S800x32x1 : S800x32x4.Slices ![0, 0, 0] S800x32x1
  shapeCasts_S800x32x1_S800x32 : S800x32x1.ShapeCasts S800x32
  slices_S800x32x4_o0_0_1_S800x32x1 : S800x32x4.Slices ![0, 0, 1] S800x32x1
  slices_S800x32x4_o0_0_2_S800x32x1 : S800x32x4.Slices ![0, 0, 2] S800x32x1
  slices_S800x32x4_o0_0_3_S800x32x1 : S800x32x4.Slices ![0, 0, 3] S800x32x1
  reduces_S800x32_S800 : S800x32.Reduces [1] S800
  shapeCasts_S800_S800x1 : S800.ShapeCasts S800x1
  broadcasts_S800x1_S800x32 : S800x1.Broadcasts S800x32
  slices_S800x2_o0_0_S800x1 : S800x2.Slices ![0, 0] S800x1
  slices_S800x2_o0_1_S800x1 : S800x2.Slices ![0, 1] S800x1
  iota_S800x32_d1_w32 : S800x32.Iotas .tc 32 [1]
  natLt_1_32 : 1 < 32
  slices_S64x9_o0_0_S64x1 : S64x9.Slices ![0, 0] S64x1
  shapeCasts_S64x1_S64 : S64x1.ShapeCasts S64
  shapeCasts_S64_S1x1x64 : S64.ShapeCasts S1x1x64
  shapeCasts_S800x32_S800x32x1 : S800x32.ShapeCasts S800x32x1
  broadcasts_S800x32x1_S800x32x64 : S800x32x1.Broadcasts S800x32x64
  broadcasts_S1x1x64_S800x32x64 : S1x1x64.Broadcasts S800x32x64
  slices_S64x9_o0_1_S64x1 : S64x9.Slices ![0, 1] S64x1
  slices_S64x9_o0_2_S64x1 : S64x9.Slices ![0, 2] S64x1
  slices_S64x9_o0_3_S64x1 : S64x9.Slices ![0, 3] S64x1
  slices_S64x9_o0_4_S64x1 : S64x9.Slices ![0, 4] S64x1
  slices_S64x9_o0_5_S64x1 : S64x9.Slices ![0, 5] S64x1
  slices_S64x9_o0_6_S64x1 : S64x9.Slices ![0, 6] S64x1
  slices_S64x9_o0_7_S64x1 : S64x9.Slices ![0, 7] S64x1
  slices_S64x9_o0_8_S64x1 : S64x9.Slices ![0, 8] S64x1
  reduces_S800x32x64_S800x64 : S800x32x64.Reduces [1] S800x64
  reduces_S800x64_S64 : S800x64.Reduces [0] S64
  shapeCasts_S64_S1x64 : S64.ShapeCasts S1x64
  shapeCasts_S1x64_S1x64 : S1x64.ShapeCasts S1x64
  shapeCasts_S1x64_S64 : S1x64.ShapeCasts S64
  bcast_S_S64 : S_.BroadcastsInDim S64 (![] : Fin 0 → Fin S64.rank)
  shapeCasts_S1x64_S1x1x64 : S1x64.ShapeCasts S1x1x64
  inb_S800x64_S800x64_0_0 : ∀ a, (![0, 0] : Fin 2 → Nat) a + S800x64.size a ≤ S800x64.size a
  h_S800x64 : 0 < S800x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32x4.size a ≤ S40000x32x4.size a
  hwx0_0 : ∀ i : grid0.Coords, EltTy.bits .f32 = 32 ∨ (Rect.block (s := S40000x32x4) S800x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x2.size a ≤ S40000x2.size a
  hwx0_1 : ∀ i : grid0.Coords, EltTy.bits .i32 = 32 ∨ (Rect.block (s := S40000x2) S800x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x1.size a ≤ S40000x1.size a
  hwx0_2 : ∀ i : grid0.Coords, EltTy.bits .i32 = 32 ∨ (Rect.block (s := S40000x1) S800x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x9.size a ≤ S64x9.size a
  hwx0_3 : ∀ i : grid0.Coords, EltTy.bits .f32 = 32 ∨ (Rect.block (s := S64x9) S64x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x32x4.size a ≤ S40000x32x4.size a
  hwx1_0 : ∀ i : grid1.Coords, EltTy.bits .f32 = 32 ∨ (Rect.block (s := S40000x32x4) S800x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x2.size a ≤ S40000x2.size a
  hwx1_1 : ∀ i : grid1.Coords, EltTy.bits .i32 = 32 ∨ (Rect.block (s := S40000x2) S800x2.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x1.size a ≤ S40000x1.size a
  hwx1_2 : ∀ i : grid1.Coords, EltTy.bits .i32 = 32 ∨ (Rect.block (s := S40000x1) S800x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x9.size a ≤ S64x9.size a
  hwx1_3 : ∀ i : grid1.Coords, EltTy.bits .f32 = 32 ∨ (Rect.block (s := S64x9) S64x9.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S800x64.size a ≤ S40000x64.size a
  hwx1_6 : ∀ i : grid1.Coords, EltTy.bits .f32 = 32 ∨ (Rect.block (s := S40000x64) S800x64.size (cc1_transform_6 i) (hinb1_6 i)).WholeWords (EltTy.packing .f32)

variable [Facts₀]

abbrev win0_0 : Pipeline.Window sig grid0 :=
  Pipeline.Window.ofSpec (Memref.whole main_arg0) S800x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S800x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S800x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S800x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S800x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S800x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x9.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S800x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x32x4 : Shape := ⟨3, ![40000, 32, 4]⟩
abbrev S40000 : Shape := ⟨1, ![40000]⟩
abbrev S40000x2 : Shape := ⟨2, ![40000, 2]⟩
abbrev S64x9 : Shape := ⟨2, ![64, 9]⟩
abbrev S64 : Shape := ⟨1, ![64]⟩
abbrev S40000x32x3 : Shape := ⟨3, ![40000, 32, 3]⟩
abbrev S_ : Shape := ⟨0, ![]⟩
abbrev S40000x3 : Shape := ⟨2, ![40000, 3]⟩
abbrev S40000x1x3 : Shape := ⟨3, ![40000, 1, 3]⟩
abbrev S40000x1x1 : Shape := ⟨3, ![40000, 1, 1]⟩
abbrev S40000x1 : Shape := ⟨2, ![40000, 1]⟩
abbrev S40000x32x1 : Shape := ⟨3, ![40000, 32, 1]⟩
abbrev S40000x32 : Shape := ⟨2, ![40000, 32]⟩
abbrev S40000x32x2 : Shape := ⟨3, ![40000, 32, 2]⟩
abbrev S40000x32x9 : Shape := ⟨3, ![40000, 32, 9]⟩
abbrev S32 : Shape := ⟨1, ![32]⟩
abbrev S1x32 : Shape := ⟨2, ![1, 32]⟩
abbrev S40000x32x64 : Shape := ⟨3, ![40000, 32, 64]⟩
abbrev S1x1x64 : Shape := ⟨3, ![1, 1, 64]⟩
abbrev S40000x64 : Shape := ⟨2, ![40000, 64]⟩

abbrev nBuf : Space → Nat
  | .hbm => 108
  | .vmem => 0
  | .smem => 0
  | _ => 0

abbrev bufTy : (tb : Table) → Fin (tcTables nBuf tb) → BufTy
  | .hbm, ⟨0, _⟩ => ⟨S40000x32x4, .f32⟩
  | .hbm, ⟨1, _⟩ => ⟨S40000, .i32⟩
  | .hbm, ⟨2, _⟩ => ⟨S40000x2, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S40000, .f32⟩
  | .hbm, ⟨7, _⟩ => ⟨S40000x32x3, .f32⟩
  | .hbm, ⟨8, _⟩ => ⟨S_, .f32⟩
  | .hbm, ⟨9, _⟩ => ⟨S40000x3, .f32⟩
  | .hbm, ⟨10, _⟩ => ⟨S40000x1x3, .f32⟩
  | .hbm, ⟨11, _⟩ => ⟨S40000x1x1, .f32⟩
  | .hbm, ⟨12, _⟩ => ⟨S40000x1x3, .f32⟩
  | .hbm, ⟨13, _⟩ => ⟨S40000x1x3, .f32⟩
  | .hbm, ⟨14, _⟩ => ⟨S40000x32x3, .f32⟩
  | .hbm, ⟨15, _⟩ => ⟨S40000x32x3, .f32⟩
  | .hbm, ⟨16, _⟩ => ⟨S40000x1, .i32⟩
  | .hbm, ⟨17, _⟩ => ⟨S40000, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000x1, .i32⟩
  | .hbm, ⟨26, _⟩ => ⟨S40000, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x32x1, .f32⟩
  | .hbm, ⟨35, _⟩ => ⟨S40000x32, .f32⟩
  | .hbm, ⟨36, _⟩ => ⟨S40000x1, .f32⟩
  | .hbm, ⟨37, _⟩ => ⟨S40000x32, .f32⟩
  | .hbm, ⟨38, _⟩ => ⟨S40000x32, .f32⟩
  | .hbm, ⟨39, _⟩ => ⟨S40000x32x1, .f32⟩
  | .hbm, ⟨40, _⟩ => ⟨S40000x32, .f32⟩
  | .hbm, ⟨41, _⟩ => ⟨S40000x1, .f32⟩
  | .hbm, ⟨42, _⟩ => ⟨S40000x32, .f32⟩
  | .hbm, ⟨43, _⟩ => ⟨S40000x32, .f32⟩
  | .hbm, ⟨44, _⟩ => ⟨S40000x32x1, .f32⟩
  | .hbm, ⟨45, _⟩ => ⟨S40000x32x1, .f32⟩
  | .hbm, ⟨46, _⟩ => ⟨S40000x32x2, .f32⟩
  | .hbm, ⟨47, _⟩ => ⟨S40000x32x9, .f32⟩
  | .hbm, ⟨48, _⟩ => ⟨S32, .i32⟩
  | .hbm, ⟨49, _⟩ => ⟨S1x32, .i32⟩
  | .hbm, ⟨50, _⟩ => ⟨S40000x1, .i32⟩
  | .hbm, ⟨51, _⟩ => ⟨S40000x32, .i32⟩
  | .hbm, ⟨52, _⟩ => ⟨S40000x32, .i32⟩
  | .hbm, ⟨53, _⟩ => ⟨S40000x32, .i1⟩
  | .hbm, ⟨54, _⟩ => ⟨S40000x32, .f32⟩
  | .hbm, ⟨55, _⟩ => ⟨S40000x32x1, .f32⟩
  | .hbm, ⟨56, _⟩ => ⟨S40000x32x9, .f32⟩
  | .hbm, ⟨57, _⟩ => ⟨S40000x32x9, .f32⟩
  | .hbm, ⟨58, _⟩ => ⟨S40000x32x64, .f32⟩
  | .hbm, ⟨59, _⟩ => ⟨S_, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .i32⟩
  | .hbm, ⟨65, _⟩ => ⟨S_, .f32⟩
  | .hbm, ⟨66, _⟩ => ⟨S64, .f32⟩
  | .hbm, ⟨67, _⟩ => ⟨S1x1x64, .f32⟩
  | .hbm, ⟨68, _⟩ => ⟨S_, .f32⟩
  | .hbm, ⟨69, _⟩ => ⟨S1x1x64, .f32⟩
  | .hbm, ⟨70, _⟩ => ⟨S1x1x64, .f32⟩
  | .hbm, ⟨71, _⟩ => ⟨S40000x32x64, .f32⟩
  | .hbm, ⟨72, _⟩ => ⟨S40000x32x64, .f32⟩
  | .hbm, ⟨73, _⟩ => ⟨S40000x32x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S1x1x64, .f32⟩
  | .hbm, ⟨88, _⟩ => ⟨S40000x32x64, .f32⟩
  | .hbm, ⟨89, _⟩ => ⟨S40000x32x64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S1x1x64, .f32⟩
  | .hbm, ⟨95, _⟩ => ⟨S40000x32x64, .f32⟩
  | .hbm, ⟨96, _⟩ => ⟨S40000x32x64, .f32⟩
  | .hbm, ⟨97, _⟩ => ⟨S1x1x64, .f32⟩
  | .hbm, ⟨98, _⟩ => ⟨S40000x32x64, .f32⟩
  | .hbm, ⟨99, _⟩ => ⟨S40000x32x64, .f32⟩
  | .hbm, ⟨100, _⟩ => ⟨S1x1x64, .f32⟩
  | .hbm, ⟨101, _⟩ => ⟨S40000x32x64, .f32⟩
  | .hbm, ⟨102, _⟩ => ⟨S40000x32x64, .f32⟩
  | .hbm, ⟨103, _⟩ => ⟨S_, .f32⟩
  | .hbm, ⟨104, _⟩ => ⟨S40000x32x64, .f32⟩
  | .hbm, ⟨105, _⟩ => ⟨S40000x32x64, .f32⟩
  | .hbm, ⟨106, _⟩ => ⟨S_, .f32⟩
  | .hbm, ⟨107, _⟩ => ⟨S40000x64, .f32⟩
  | _, _ => ⟨S40000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_c : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_cst_3 : Ref sig .tc := ⟨.hbm, 81, rfl⟩
abbrev main_call0_v12 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_6 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call1_cst : Ref sig .tc := ⟨.hbm, 103, rfl⟩
abbrev main_call1_v0 : Ref sig .tc := ⟨.hbm, 104, rfl⟩
abbrev main_v67 : Ref sig .tc := ⟨.hbm, 105, rfl⟩
abbrev main_cst_7 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S40000x32x4_S40000x32x3_0_0_0 : S40000x32x4.Slices ![0, 0, 0] S40000x32x3
  reducesTo_S40000x32x3_S40000x3_d1 : S40000x32x3.ReducesTo [1] S40000x3
  h_S_ : 0 < S_.numel
  bcast_S40000x3_S40000x1x3_0_2 : S40000x3.BroadcastsInDim S40000x1x3 (![0, 2] : Fin 2 → Fin S40000x1x3.rank)
  bcast_S40000_S40000x1x1_0 : S40000.BroadcastsInDim S40000x1x1 (![0] : Fin 1 → Fin S40000x1x1.rank)
  bcast_S40000x1x1_S40000x1x3_0_1_2 : S40000x1x1.BroadcastsInDim S40000x1x3 (![0, 1, 2] : Fin 3 → Fin S40000x1x3.rank)
  bcast_S40000x1x3_S40000x32x3_0_1_2 : S40000x1x3.BroadcastsInDim S40000x32x3 (![0, 1, 2] : Fin 3 → Fin S40000x32x3.rank)
  slices_S40000x2_S40000x1_0_0 : S40000x2.Slices ![0, 0] S40000x1
  shapeCasts_S40000x1_S40000 : S40000x1.ShapeCasts S40000
  bcast_S_S40000 : S_.BroadcastsInDim S40000 (![] : Fin 0 → Fin S40000.rank)
  slices_S40000x2_S40000x1_0_1 : S40000x2.Slices ![0, 1] S40000x1
  slices_S40000x32x4_S40000x32x1_0_0_0 : S40000x32x4.Slices ![0, 0, 0] S40000x32x1
  shapeCasts_S40000x32x1_S40000x32 : S40000x32x1.ShapeCasts S40000x32
  bcast_S40000_S40000x1_0 : S40000.BroadcastsInDim S40000x1 (![0] : Fin 1 → Fin S40000x1.rank)
  bcast_S40000x1_S40000x32_0_1 : S40000x1.BroadcastsInDim S40000x32 (![0, 1] : Fin 2 → Fin S40000x32.rank)
  slices_S40000x32x4_S40000x32x1_0_0_1 : S40000x32x4.Slices ![0, 0, 1] S40000x32x1
  bcast_S40000x32_S40000x32x1_0_1 : S40000x32.BroadcastsInDim S40000x32x1 (![0, 1] : Fin 2 → Fin S40000x32x1.rank)
  concatenates_S40000x32x1_S40000x32x1_S40000x32x2_d2 : Shape.Concatenates [S40000x32x1, S40000x32x1] S40000x32x2 2
  concatenates_S40000x32x4_S40000x32x3_S40000x32x2_S40000x32x9_d2 : Shape.Concatenates [S40000x32x4, S40000x32x3, S40000x32x2] S40000x32x9 2
  bcast_S32_S1x32_1 : S32.BroadcastsInDim S1x32 (![1] : Fin 1 → Fin S1x32.rank)
  bcast_S1x32_S40000x32_0_1 : S1x32.BroadcastsInDim S40000x32 (![0, 1] : Fin 2 → Fin S40000x32.rank)
  bcast_S40000x32x1_S40000x32x9_0_1_2 : S40000x32x1.BroadcastsInDim S40000x32x9 (![0, 1, 2] : Fin 3 → Fin S40000x32x9.rank)
  reducesTo_S40000x32x64_S64_d0_1 : S40000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S40000x32x64_0_1_2 : S1x1x64.BroadcastsInDim S40000x32x64 (![0, 1, 2] : Fin 3 → Fin S40000x32x64.rank)
  bcast_S_S40000x32x64 : S_.BroadcastsInDim S40000x32x64 (![] : Fin 0 → Fin S40000x32x64.rank)
  reducesTo_S40000x32x64_S40000x64_d1 : S40000x32x64.ReducesTo [1] S40000x64
  dot_S40000x32x9_S64x9_S40000x32x64_2_1_01_0_n_n_wf : DotDims.WF S40000x32x9 S64x9 S40000x32x64 [2] [1] [0, 1] [0] [] []

variable [Facts₀]

def dot_S40000x32x9_S64x9_S40000x32x64_2_1_01_0_n_n : DotDims S40000x32x9 S64x9 S40000x32x64 where
  lhsContracting := [2]
  rhsContracting := [1]
  lhsNonContracting := [0, 1]
  rhsNonContracting := [0]
  lhsBatch := []
  rhsBatch := []
  wf := dot_S40000x32x9_S64x9_S40000x32x64_2_1_01_0_n_n_wf

class Facts : Prop extends Facts₀ where

variable [Facts]
-- ==== Proof.Spec.lean ====
/-
  The mathematics both programs compute, stated once over plain index functions on the extended reals.

  A pillar `v` holds 32 points of 4 channels (x, y, z, intensity), a point count `npt v` and a grid cell `coo v`.
  Each point gets nine features: its four channels, its offsets in x, y, z from the pillar's mean
  (the sum of ALL 32 rows divided by the count), and its offsets in x, y from the cell's centre.  A point whose
  row number is not below the count is masked to zero.  A 9-to-64 linear map gives `X v p o`.  Batch
  normalisation over all (pillar, point) pairs per output channel, an affine map, a clamp at zero and a
  maximum over the 32 points follow.

  Two arrangements of the normalisation are written out: the one that accumulates the sum and the sum of
  squares and folds mean and deviation into a scale and a shift (`outK`), and the one that centres first
  and divides the centred sum of squares (`outR`).
-/
import Idealize.ShloMosaic.PureOps.Ideal
import Idealize.ShloMosaic.Lib.ValueIdx

noncomputable section

namespace Cert.Pillar

open Idealize.ShloMosaic

/-- The cell size 0.16, the two centre offsets 0.08 and -39.6, the number of points 1 280 000 and the
    normalisation's epsilon 1e-5, each as the f32 word both programs spell. -/
abbrev cVX : EReal := Ideal.ofBits .f32 0x3E23D70A#32
abbrev cXoff : EReal := Ideal.ofBits .f32 0x3DA3D70A#32
abbrev cYoff : EReal := Ideal.ofBits .f32 0xC21E6666#32
abbrev cN : EReal := Ideal.ofBits .f32 0x499C4000#32
abbrev cEps : EReal := Ideal.ofBits .f32 0x3727C5AC#32

/-- An extended real that is a real number. -/
def Fin' (x : EReal) : Prop := x ≠ ⊤ ∧ x ≠ ⊥

/-! ### Arrays of the programs' shapes read as plain index functions -/

open Idealize.ShloMosaic.ValueIdx in
abbrev vox3 {n : Nat} (x : (⟨3, ![n, 32, 4]⟩ : Shape).Idx → EReal) : Fin n → Fin 32 → Fin 4 → EReal := fun v p k => x (ix3 v p k)
open Idealize.ShloMosaic.ValueIdx in
abbrev npt1 {n : Nat} (x : (⟨1, ![n]⟩ : Shape).Idx → BitVec 32) : Fin n → BitVec 32 := fun v => x (ix1 v)
open Idealize.ShloMosaic.ValueIdx in
abbrev npt2 {n : Nat} (x : (⟨2, ![n, 1]⟩ : Shape).Idx → BitVec 32) : Fin n → BitVec 32 := fun v => x (ix2 v 0)
open Idealize.ShloMosaic.ValueIdx in
abbrev coo2 {n : Nat} (x : (⟨2, ![n, 2]⟩ : Shape).Idx → BitVec 32) : Fin n → Fin 2 → BitVec 32 := fun v a => x (ix2 v a)
open Idealize.ShloMosaic.ValueIdx in
abbrev wgt2 (x : (⟨2, ![64, 9]⟩ : Shape).Idx → EReal) : Fin 64 → Fin 9 → EReal := fun o c => x (ix2 o c)
open Idealize.ShloMosaic.ValueIdx in
abbrev ch1 (x : (⟨1, ![64]⟩ : Shape).Idx → EReal) : Fin 64 → EReal := fun o => x (ix1 o)
open Idealize.ShloMosaic.ValueIdx in
abbrev ch2 (x : (⟨2, ![1, 64]⟩ : Shape).Idx → EReal) : Fin 64 → EReal := fun o => x (ix2 0 o)

section Features

variable {n : Nat} (vox : Fin n → Fin 32 → Fin 4 → EReal) (npt : Fin n → BitVec 32) (coo : Fin n → Fin 2 → BitVec 32)
  (wgt : Fin 64 → Fin 9 → EReal)

/-- The point count as a real. -/
def cnt (v : Fin n) : EReal := (((npt v).toInt : ℝ) : EReal)

/-- One where the point's row number is below the (signed) count, else zero. -/
def msk (v : Fin n) (p : Fin 32) : EReal :=
  (((IntOp.cmpi .sgt (npt v) (BitVec.ofNat 32 p.val)).toNat : ℝ) : EReal)

/-- A cell coordinate as a real. -/
def cell (v : Fin n) (a : Fin 2) : EReal := (((coo v a).toInt : ℝ) : EReal)

/-- The sum of channel `k` over all 32 rows of the pillar. -/
def rowSum (v : Fin n) (k : Fin 4) : EReal := ∑ p : Fin 32, vox v p k

/-- The nine features of a point, before masking. -/
def feat (v : Fin n) (p : Fin 32) : Fin 9 → EReal :=
  ![vox v p 0, vox v p 1, vox v p 2, vox v p 3,
    vox v p 0 - Ideal.div (rowSum vox v 0) (cnt npt v),
    vox v p 1 - Ideal.div (rowSum vox v 1) (cnt npt v),
    vox v p 2 - Ideal.div (rowSum vox v 2) (cnt npt v),
    vox v p 0 - (cell coo v 0 * cVX + cXoff),
    vox v p 1 - (cell coo v 1 * cVX + cYoff)]

/-- The linear layer's output at pillar `v`, point `p`, channel `o`. -/
def X (v : Fin n) (p : Fin 32) (o : Fin 64) : EReal :=
  ∑ c : Fin 9, (feat vox npt coo v p c * msk npt v p) * wgt o c

/-- The sum and the sum of squares of `X` over the pillars' points, per channel. -/
def S1 (o : Fin 64) : EReal := ∑ v : Fin n, ∑ p : Fin 32, X vox npt coo wgt v p o
def S2 (o : Fin 64) : EReal := ∑ v : Fin n, ∑ p : Fin 32, X vox npt coo wgt v p o * X vox npt coo wgt v p o

end Features

/-- The maximum over a pillar's 32 points, from -∞. -/
def rowMax (f : Fin 32 → EReal) : EReal := Finset.univ.fold max ⊥ f

section Whole

variable (vox : Fin 40000 → Fin 32 → Fin 4 → EReal) (npt : Fin 40000 → BitVec 32) (coo : Fin 40000 → Fin 2 → BitVec 32)
  (wgt : Fin 64 → Fin 9 → EReal) (gam bet : Fin 64 → EReal)

/-- The mean per channel (shared by the two arrangements). -/
def mean (o : Fin 64) : EReal := Ideal.div (S1 vox npt coo wgt o) cN

/-! ### The arrangement with sums of squares and a folded scale and shift -/

def varK (o : Fin 64) : EReal := Ideal.div (S2 vox npt coo wgt o) cN - mean vox npt coo wgt o * mean vox npt coo wgt o
def invK (o : Fin 64) : EReal := Ideal.rsqrt (varK vox npt coo wgt o + cEps)
def scaleK (o : Fin 64) : EReal := invK vox npt coo wgt o * gam o
def shiftK (o : Fin 64) : EReal := bet o - mean vox npt coo wgt o * invK vox npt coo wgt o * gam o

/-- What a scale row `sc` and a shift row `sh` make of the pillars. -/
def affMax (sc sh : Fin 64 → EReal) (v : Fin 40000) (o : Fin 64) : EReal :=
  rowMax fun p => max (X vox npt coo wgt v p o * sc o + sh o) 0

def outK (v : Fin 40000) (o : Fin 64) : EReal :=
  affMax vox npt coo wgt (scaleK vox npt coo wgt gam) (shiftK vox npt coo wgt gam bet) v o

/-! ### The arrangement that centres first -/

def varR (o : Fin 64) : EReal :=
  Ideal.div (∑ v : Fin 40000, ∑ p : Fin 32,
      (X vox npt coo wgt v p o - mean vox npt coo wgt o) * (X vox npt coo wgt v p o - mean vox npt coo wgt o))
    (cN - (((0#32 : BitVec 32).toInt : ℝ) : EReal))

def outR (v : Fin 40000) (o : Fin 64) : EReal :=
  rowMax fun p => max ((X vox npt coo wgt v p o - mean vox npt coo wgt o)
    * Ideal.rsqrt (varR vox npt coo wgt o + cEps) * gam o + bet o) 0

end Whole

end Cert.Pillar

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.KCasesPay.lean ====
/-
  The statistics kernel's arithmetic read entry by entry: each intermediate array of the body, at an explicit
  (pillar, point, channel) index, is the corresponding quantity of the shared specification.
-/
import proofs.«172518_j14388140441772_1_alg».proof.Proof.Gen.KernelIdeal.Skeleton
import proofs.«172518_j14388140441772_1_alg».proof.Proof.Spec
import proofs.«172518_j14388140441772_1_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KCasesPay

open Idealize.ShloMosaic Idealize.ShloMosaic.ValueIdx Idealize.ShloMosaic.LibLayoutCols
open Cert.KernelIdeal Cert.KernelIdeal.Gen Cert.Pillar

/-! ## Layout operations at an index: the forms with a trailing unit axis -/

section Layout
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b, 1]` array broadcast to `[a, b, c]` reads, at `(r, u, j)`, the operand at `(r, u, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (u : Fin b) (j : Fin c) :
    broadcastTo ⟨3, ![a, b, c]⟩ v h (ix3 r u j) = v (ix3 r u (0 : Fin 1)) := by
  refine broadcastTo_apply v h (ix3 r u j) (ix3 r u (0 : Fin 1)) fun ax => ?_
  match ax with
  | ⟨0, _⟩ =>
    show r.val = if a = 1 then 0 else r.val
    split
    · have := r.isLt; omega
    · rfl
  | ⟨1, _⟩ =>
    show u.val = if b = 1 then 0 else u.val
    split
    · have := u.isLt; omega
    · rfl
  | ⟨2, _⟩ => rfl

end Layout

/-! ## A sum over one axis at an index -/

/-- The sum over the second axis of a matrix, at row `r`. -/
theorem sum_axis1_ab {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  match ax with
  | ⟨0, _⟩ => rfl
  | ⟨1, _⟩ => rfl

/-- The sum over the middle axis of a rank-3 array, at `(r, o)`. -/
theorem sum_axis1_abc {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (o : Fin c) :
    multiReduction .add [1] ⟨2, ![a, c]⟩ src acc h hφ hacc (ix2 r o) = ∑ k : Fin b, src (ix3 r k o) := by
  refine (Ideal.multiReduction_add_single src acc h hφ hacc (ix2 r o)).trans ?_
  refine Finset.sum_congr rfl fun k _ => congrArg src ?_
  funext ax
  match ax with
  | ⟨0, _⟩ => rfl
  | ⟨1, _⟩ => rfl
  | ⟨2, _⟩ => rfl

/-- The sum over the first axis of a matrix, at column `o`. -/
theorem sum_axis0_ab {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (o : Fin b) :
    multiReduction .add [0] ⟨1, ![b]⟩ src acc h hφ hacc (ix1 o) = ∑ k : Fin a, src (ix2 k o) := by
  refine (Ideal.multiReduction_add_single src acc h hφ hacc (ix1 o)).trans ?_
  refine Finset.sum_congr rfl fun k _ => congrArg src ?_
  funext ax
  match ax with
  | ⟨0, _⟩ => rfl
  | ⟨1, _⟩ => rfl

/-! ## Small facts about words -/

/-- A one-bit word widened and read as a signed integer is the bit. -/
theorem bit_toInt (b : BitVec 1) : (((b.setWidth 32).toInt : ℝ) : EReal) = ((b.toNat : ℝ) : EReal) := by
  rcases BitVec.eq_zero_or_eq_one b with h | h <;> subst h
  · have h1 : ((0#1).setWidth 32).toInt = 0 := by decide
    have h2 : (0#1).toNat = 0 := by decide
    rw [h1, h2]; norm_num
  · have h1 : ((1#1).setWidth 32).toInt = 1 := by decide
    have h2 : (1#1).toNat = 1 := by decide
    rw [h1, h2]; norm_num

/-- A sum over nine terms written out, first to last. -/
theorem sum_univ_nine {M : Type*} [AddCommMonoid M] (f : Fin 9 → M) :
    ∑ c : Fin 9, f c = f 0 + f 1 + f 2 + f 3 + f 4 + f 5 + f 6 + f 7 + f 8 := by
  rw [Fin.sum_univ_castSucc, Fin.sum_univ_eight]
  rfl

/-! ## The body's arrays at an index -/

/-- The counts pass through a cast to their own shape. -/
theorem pay4_eq (x2 : Vec Ideal S800x1 .i32) : k0_pay4 (F := Ideal) x2 = x2 := by
  unfold k0_pay4
  exact shapeCast_self _ _

/-- The count of pillar `r` as a real. -/
theorem pay5_apply (x2 : Vec Ideal S800x1 .i32) (r : Fin 800) :
    k0_pay5 (F := Ideal) x2 (ix2 r 0) = cnt (npt2 x2) r := by
  unfold k0_pay5
  rw [pay4_eq]
  rfl

/-- Channel 0 of the block as a matrix over (pillar, point). -/
theorem pay6_apply (x0 : Vec Ideal S800x32x4 .f32) (r : Fin 800) (p : Fin 32) :
    k0_pay6 (F := Ideal) x0 (ix2 r p) = vox3 x0 r p 0 := by
  unfold k0_pay6
  exact (shapeCast_ab1_ab_apply _ _ r p).trans (slice3_axis2_apply 0 x0 _ r p 0 0 rfl)

/-- Channel 1. -/
theorem pay7_apply (x0 : Vec Ideal S800x32x4 .f32) (r : Fin 800) (p : Fin 32) :
    k0_pay7 (F := Ideal) x0 (ix2 r p) = vox3 x0 r p 1 := by
  unfold k0_pay7
  exact (shapeCast_ab1_ab_apply _ _ r p).trans (slice3_axis2_apply 1 x0 _ r p 0 1 rfl)

/-- Channel 2. -/
theorem pay8_apply (x0 : Vec Ideal S800x32x4 .f32) (r : Fin 800) (p : Fin 32) :
    k0_pay8 (F := Ideal) x0 (ix2 r p) = vox3 x0 r p 2 := by
  unfold k0_pay8
  exact (shapeCast_ab1_ab_apply _ _ r p).trans (slice3_axis2_apply 2 x0 _ r p 0 2 rfl)

/-- Channel 3. -/
theorem pay9_apply (x0 : Vec Ideal S800x32x4 .f32) (r : Fin 800) (p : Fin 32) :
    k0_pay9 (F := Ideal) x0 (ix2 r p) = vox3 x0 r p 3 := by
  unfold k0_pay9
  exact (shapeCast_ab1_ab_apply _ _ r p).trans (slice3_axis2_apply 3 x0 _ r p 0 3 rfl)

/-- A matrix minus, in each row, the row's sum divided by a per-row divisor: the sum made a column, divided, and
    copied across the row. -/
theorem centred_apply (f : FVec Ideal S800x32 .f32) (d : FVec Ideal S800x1 .f32)
    (hr : S800x32.Reduces [1] S800) (hφ : FKind.Formats .f32) (hacc : (0x00000000#32 : BitVec 32) = FKind.add.neutral .f32 hφ)
    (hc : S800.ShapeCasts S800x1) (hb : S800x1.Broadcasts S800x32) (r : Fin 800) (p : Fin 32) :
    subf f (broadcastTo S800x32 (divf (shapeCast S800x1 (multiReduction .add [1] S800 f 0x00000000#32 hr hφ hacc) hc) d) hb) (ix2 r p)
      = f (ix2 r p) - Ideal.div (∑ k : Fin 32, f (ix2 r k)) (d (ix2 r 0)) := by
  refine (subf_apply _ _ _).trans (congrArg (f (ix2 r p) - ·) ?_)
  refine (broadcastTo_a1_ab_apply _ hb r p).trans ?_
  refine (divf_apply _ _ _).trans (congrArg (Ideal.div · (d (ix2 r 0))) ?_)
  exact (shapeCast_a_a1_apply _ hc r 0).trans (sum_axis1_ab f _ hr hφ hacc r)

/-- The x offset from the pillar's mean. -/
theorem pay10_apply (x0 : Vec Ideal S800x32x4 .f32) (x2 : Vec Ideal S800x1 .i32) (r : Fin 800) (p : Fin 32) :
    k0_pay10 (F := Ideal) x0 x2 (ix2 r p) = vox3 x0 r p 0 - Ideal.div (rowSum (vox3 x0) r 0) (cnt (npt2 x2) r) := by
  unfold k0_pay10
  refine (centred_apply (k0_pay6 x0) (k0_pay5 x2) _ _ _ _ _ r p).trans ?_
  rw [pay6_apply x0 r p, pay5_apply x2 r]
  unfold rowSum
  simp only [pay6_apply]

/-- The y offset from the pillar's mean. -/
theorem pay11_apply (x0 : Vec Ideal S800x32x4 .f32) (x2 : Vec Ideal S800x1 .i32) (r : Fin 800) (p : Fin 32) :
    k0_pay11 (F := Ideal) x0 x2 (ix2 r p) = vox3 x0 r p 1 - Ideal.div (rowSum (vox3 x0) r 1) (cnt (npt2 x2) r) := by
  unfold k0_pay11
  refine (centred_apply (k0_pay7 x0) (k0_pay5 x2) _ _ _ _ _ r p).trans ?_
  rw [pay7_apply x0 r p, pay5_apply x2 r]
  unfold rowSum
  simp only [pay7_apply]

/-- The z offset from the pillar's mean. -/
theorem pay12_apply (x0 : Vec Ideal S800x32x4 .f32) (x2 : Vec Ideal S800x1 .i32) (r : Fin 800) (p : Fin 32) :
    k0_pay12 (F := Ideal) x0 x2 (ix2 r p) = vox3 x0 r p 2 - Ideal.div (rowSum (vox3 x0) r 2) (cnt (npt2 x2) r) := by
  unfold k0_pay12
  refine (centred_apply (k0_pay8 x0) (k0_pay5 x2) _ _ _ _ _ r p).trans ?_
  rw [pay8_apply x0 r p, pay5_apply x2 r]
  unfold rowSum
  simp only [pay8_apply]

/-- The x centre of pillar `r`'s cell. -/
theorem pay13_apply (x1 : Vec Ideal S800x2 .i32) (r : Fin 800) :
    k0_pay13 (F := Ideal) x1 (ix2 r 0) = cell (coo2 x1) r 0 * cVX + cXoff := by
  unfold k0_pay13
  have e : extractStridedSlice S800x1 ![0, 0] x1 slices_S800x2_o0_0_S800x1 (ix2 r 0) = x1 (ix2 r 0) :=
    slice2_axis1_apply 0 x1 _ r 0 0 rfl
  show (((extractStridedSlice S800x1 ![0, 0] x1 slices_S800x2_o0_0_S800x1 (ix2 r 0)).toInt : ℝ) : EReal) * cVX + cXoff = _
  rw [e]
  rfl

/-- The y cell coordinate of pillar `r` as a real. -/
theorem pay14_apply (x1 : Vec Ideal S800x2 .i32) (r : Fin 800) :
    k0_pay14 (F := Ideal) x1 (ix2 r 0) = cell (coo2 x1) r 1 := by
  unfold k0_pay14
  have e : extractStridedSlice S800x1 ![0, 1] x1 slices_S800x2_o0_1_S800x1 (ix2 r 0) = x1 (ix2 r 1) :=
    slice2_axis1_apply 1 x1 _ r 0 1 rfl
  show (((extractStridedSlice S800x1 ![0, 1] x1 slices_S800x2_o0_1_S800x1 (ix2 r 0)).toInt : ℝ) : EReal) = _
  rw [e]
  rfl

/-- A matrix minus a column copied across its rows. -/
theorem pay16_apply (v10 : FVec Ideal S800x32 .f32) (v37 : FVec Ideal S800x1 .f32) (r : Fin 800) (p : Fin 32) :
    k0_pay16 (F := Ideal) v10 v37 (ix2 r p) = v10 (ix2 r p) - v37 (ix2 r 0) := by
  unfold k0_pay16
  exact (subf_apply _ _ _).trans (congrArg (v10 (ix2 r p) - ·) (broadcastTo_a1_ab_apply _ _ r p))

/-- A matrix minus the column `v39 · v40 + (the y offset)` copied across its rows. -/
theorem pay17_apply (v12 : FVec Ideal S800x32 .f32) (v39 v40 : FVec Ideal S800x1 .f32) (r : Fin 800) (p : Fin 32) :
    k0_pay17 (F := Ideal) v12 v39 v40 (ix2 r p) = v12 (ix2 r p) - (v39 (ix2 r 0) * v40 (ix2 r 0) + cYoff) := by
  unfold k0_pay17
  exact (subf_apply _ _ _).trans (congrArg (v12 (ix2 r p) - ·) (broadcastTo_a1_ab_apply _ _ r p))

/-- The column index of a matrix as a 32-bit word. -/
theorem iota_col_apply (h : S800x32.Iotas .tc 32 [1]) (r : Fin 800) (p : Fin 32) :
    iota .tc S800x32 32 [1] h (ix2 r p) = BitVec.ofNat 32 p.val := by
  unfold iota
  show BitVec.ofNat 32 (0 * 32 + p.val) = _
  rw [Nat.zero_mul, Nat.zero_add]

/-- The mask: one where the pillar's count exceeds the point's row number. -/
theorem pay18_apply (v6 : IVec S800x1 32) (r : Fin 800) (p : Fin 32) :
    k0_pay18 (F := Ideal) v6 (ix2 r p)
      = (((IntOp.cmpi .sgt (v6 (ix2 r 0)) (BitVec.ofNat 32 p.val)).toNat : ℝ) : EReal) := by
  unfold k0_pay18
  show ((((IntOp.cmpi .sgt (broadcastTo S800x32 v6 broadcasts_S800x1_S800x32 (ix2 r p))
      (iota .tc S800x32 32 [1] iota_S800x32_d1_w32 (ix2 r p))).setWidth 32).toInt : ℝ) : EReal) = _
  rw [broadcastTo_a1_ab_apply v6 _ r p, iota_col_apply _ r p]
  exact bit_toInt _

/-! ## The linear layer: nine products added in order -/

/-- One product of the layer at `(r, p, o)`: a masked feature, copied over the channels, times column `c` of the
    weights, copied over the pillars and points. -/
theorem term_apply (f m : FVec Ideal S800x32 .f32) (w : Vec Ideal S64x9 .f32) (c : Nat) (hcs : S64x9.Slices ![0, c] S64x1)
    (h1 : S64x1.ShapeCasts S64) (h2 : S64.ShapeCasts S1x1x64) (h3 : S800x32.ShapeCasts S800x32x1)
    (h4 : S800x32x1.Broadcasts S800x32x64) (h5 : S1x1x64.Broadcasts S800x32x64) (cc : Fin 9) (hcc : cc.val = c)
    (r : Fin 800) (p : Fin 32) (o : Fin 64) :
    mulf (broadcastTo S800x32x64 (shapeCast S800x32x1 (mulf f m) h3) h4)
        (broadcastTo S800x32x64 (shapeCast S1x1x64 (shapeCast S64 (extractStridedSlice S64x1 ![0, c] w hcs) h1) h2) h5) (ix3 r p o)
      = f (ix2 r p) * m (ix2 r p) * wgt2 w o cc := by
  refine (mulf_apply _ _ _).trans (congrArg₂ (· * ·) ?_ ?_)
  · exact ((broadcastTo_ab1_abc_apply _ h4 r p o).trans (shapeCast_ab_ab1_apply _ h3 r p 0)).trans (mulf_apply f m _)
  · exact ((broadcastTo_11c_abc_apply _ h5 r p o).trans (shapeCast_c_11c_apply _ h2 0 0 o)).trans
      ((shapeCast_a1_a_apply _ h1 o).trans (slice2_axis1_apply c w hcs o 0 cc (hcc.trans (Nat.add_zero c).symm)))

/-- The first five products, added in order to a zero array. -/
theorem pay19_apply (v6 : IVec S800x1 32) (v7 : Vec Ideal S64x9 .f32) (v10 v12 v14 v16 v27 : FVec Ideal S800x32 .f32)
    (r : Fin 800) (p : Fin 32) (o : Fin 64) :
    k0_pay19 (F := Ideal) v6 v7 v10 v12 v14 v16 v27 (ix3 r p o)
      = 0 + v10 (ix2 r p) * k0_pay18 (F := Ideal) v6 (ix2 r p) * wgt2 v7 o 0
          + v12 (ix2 r p) * k0_pay18 (F := Ideal) v6 (ix2 r p) * wgt2 v7 o 1
          + v14 (ix2 r p) * k0_pay18 (F := Ideal) v6 (ix2 r p) * wgt2 v7 o 2
          + v16 (ix2 r p) * k0_pay18 (F := Ideal) v6 (ix2 r p) * wgt2 v7 o 3
          + v27 (ix2 r p) * k0_pay18 (F := Ideal) v6 (ix2 r p) * wgt2 v7 o 4 := by
  unfold k0_pay19
  refine (addf_apply _ _ _).trans (congrArg₂ (· + ·) ?_ (term_apply _ _ v7 4 _ _ _ _ _ _ 4 rfl r p o))
  refine (addf_apply _ _ _).trans (congrArg₂ (· + ·) ?_ (term_apply _ _ v7 3 _ _ _ _ _ _ 3 rfl r p o))
  refine (addf_apply _ _ _).trans (congrArg₂ (· + ·) ?_ (term_apply _ _ v7 2 _ _ _ _ _ _ 2 rfl r p o))
  refine (addf_apply _ _ _).trans (congrArg₂ (· + ·) ?_ (term_apply _ _ v7 1 _ _ _ _ _ _ 1 rfl r p o))
  refine (addf_apply _ _ _).trans (congrArg₂ (· + ·) ?_ (term_apply _ _ v7 0 _ _ _ _ _ _ 0 rfl r p o))
  exact Ideal.ofBits_zero_f32

/-- The last four products, added in order to the first five. -/
theorem pay20_apply (v7 : Vec Ideal S64x9 .f32) (v29 v31 v45 v47 v52 : FVec Ideal S800x32 .f32) (v98 : FVec Ideal S800x32x64 .f32)
    (r : Fin 800) (p : Fin 32) (o : Fin 64) :
    k0_pay20 (F := Ideal) v7 v29 v31 v45 v47 v52 v98 (ix3 r p o)
      = v98 (ix3 r p o) + v29 (ix2 r p) * v52 (ix2 r p) * wgt2 v7 o 5
          + v31 (ix2 r p) * v52 (ix2 r p) * wgt2 v7 o 6
          + v45 (ix2 r p) * v52 (ix2 r p) * wgt2 v7 o 7
          + v47 (ix2 r p) * v52 (ix2 r p) * wgt2 v7 o 8 := by
  unfold k0_pay20
  refine (addf_apply _ _ _).trans (congrArg₂ (· + ·) ?_ (term_apply _ _ v7 8 _ _ _ _ _ _ 8 rfl r p o))
  refine (addf_apply _ _ _).trans (congrArg₂ (· + ·) ?_ (term_apply _ _ v7 7 _ _ _ _ _ _ 7 rfl r p o))
  refine (addf_apply _ _ _).trans (congrArg₂ (· + ·) ?_ (term_apply _ _ v7 6 _ _ _ _ _ _ 6 rfl r p o))
  exact (addf_apply _ _ _).trans (congrArg₂ (· + ·) rfl (term_apply _ _ v7 5 _ _ _ _ _ _ 5 rfl r p o))

/-- The layer's output array of a block, as the body computes it from the four input blocks. -/
def layer (x0 : Vec Ideal S800x32x4 .f32) (x1 : Vec Ideal S800x2 .i32) (x2 : Vec Ideal S800x1 .i32) (x3 : Vec Ideal S64x9 .f32) :
    FVec Ideal S800x32x64 .f32 :=
  k0_pay20 (F := Ideal) x3 (k0_pay11 x0 x2) (k0_pay12 x0 x2) (k0_pay16 (k0_pay6 x0) (k0_pay13 x1))
    (k0_pay17 (k0_pay7 x0) (k0_pay14 x1) (k0_pay15 (F := Ideal))) (k0_pay18 (F := Ideal) (k0_pay4 x2))
    (k0_pay19 (F := Ideal) (k0_pay4 x2) x3 (k0_pay6 x0) (k0_pay7 x0) (k0_pay8 x0) (k0_pay9 x0) (k0_pay10 x0 x2))

/-- Entry by entry it is the specification's linear layer on the blocks read as plain functions. -/
theorem layer_apply (x0 : Vec Ideal S800x32x4 .f32) (x1 : Vec Ideal S800x2 .i32) (x2 : Vec Ideal S800x1 .i32) (x3 : Vec Ideal S64x9 .f32)
    (r : Fin 800) (p : Fin 32) (o : Fin 64) :
    layer x0 x1 x2 x3 (ix3 r p o) = X (n := 800) (vox3 x0) (npt2 x2) (coo2 x1) (wgt2 x3) r p o := by
  unfold layer
  rw [pay20_apply, pay19_apply, pay18_apply, pay4_eq, pay6_apply, pay7_apply, pay8_apply, pay9_apply, pay10_apply,
    pay11_apply, pay12_apply, pay16_apply, pay17_apply, pay6_apply, pay7_apply, pay13_apply, pay14_apply]
  unfold X
  rw [sum_univ_nine, zero_add]
  rfl

/-! ## The block's sums -/

/-- The stored sum: the accumulator read plus the layer's outputs summed over the points, then over the pillars. -/
theorem pay22_apply (v7 : Vec Ideal S64x9 .f32) (v29 v31 v45 v47 v52 : FVec Ideal S800x32 .f32) (v98 : FVec Ideal S800x32x64 .f32)
    (v142 : Vec Ideal S1x64 .f32) (u : Fin 1) (o : Fin 64) :
    k0_pay22 (F := Ideal) v7 v29 v31 v45 v47 v52 v98 v142 (ix2 u o)
      = v142 (ix2 u o) + ∑ r : Fin 800, ∑ p : Fin 32, k0_pay20 (F := Ideal) v7 v29 v31 v45 v47 v52 v98 (ix3 r p o) := by
  unfold k0_pay22
  refine (addf_apply _ _ _).trans (congrArg₂ (· + ·) (congrFun (shapeCast_self _ _) _) ?_)
  refine (shapeCast_a_1a_apply _ _ u o).trans ?_
  refine (sum_axis0_ab _ _ _ _ _ o).trans ?_
  exact Finset.sum_congr rfl fun r _ => sum_axis1_abc _ _ _ _ _ r o

/-- The block's sum of squares: the squared outputs summed over the points, then over the pillars. -/
theorem pay21_apply (v7 : Vec Ideal S64x9 .f32) (v29 v31 v45 v47 v52 : FVec Ideal S800x32 .f32) (v98 : FVec Ideal S800x32x64 .f32)
    (u : Fin 1) (o : Fin 64) :
    k0_pay21 (F := Ideal) v7 v29 v31 v45 v47 v52 v98 (ix2 u o)
      = ∑ r : Fin 800, ∑ p : Fin 32, k0_pay20 (F := Ideal) v7 v29 v31 v45 v47 v52 v98 (ix3 r p o)
          * k0_pay20 (F := Ideal) v7 v29 v31 v45 v47 v52 v98 (ix3 r p o) := by
  unfold k0_pay21
  refine (shapeCast_a_1a_apply _ _ u o).trans ?_
  refine (sum_axis0_ab _ _ _ _ _ o).trans ?_
  refine Finset.sum_congr rfl fun r _ => ?_
  refine (sum_axis1_abc _ _ _ _ _ r o).trans ?_
  exact Finset.sum_congr rfl fun p _ => mulf_apply _ _ _

/-- The stored sum of squares is the accumulator read plus the block's. -/
theorem pay1_apply (v141 v147 : FVec Ideal S1x64 .f32) (j : S1x64.Idx) :
    k0_pay1 (F := Ideal) v141 v147 j = v147 j + v141 j := by
  unfold k0_pay1
  exact addf_apply _ _ _

/-- The accumulator read passes through a cast to its own shape. -/
theorem pay23_eq (v146 : Vec Ideal S1x64 .f32) : k0_pay23 (F := Ideal) v146 = v146 := by
  unfold k0_pay23
  exact shapeCast_self _ _

/-- The reset's zero array. -/
theorem pay2_apply (j : S1x64.Idx) : k0_pay2 (F := Ideal) j = 0 := by
  unfold k0_pay2
  exact Ideal.ofBits_zero_f32

theorem pay3_apply (j : S1x64.Idx) : k0_pay3 (F := Ideal) j = 0 := by
  unfold k0_pay3
  exact Ideal.ofBits_zero_f32

/-! ## What a point stores, on the input blocks -/

/-- The sum a point stores over running contents `acc`: `acc` plus the block's sum of the layer's outputs. -/
theorem stored_sum (x0 : Vec Ideal S800x32x4 .f32) (x1 : Vec Ideal S800x2 .i32) (x2 : Vec Ideal S800x1 .i32) (x3 : Vec Ideal S64x9 .f32)
    (acc : Vec Ideal S1x64 .f32) (j : S1x64.Idx) :
    k0_pay22 (F := Ideal) x3 (k0_pay11 x0 x2) (k0_pay12 x0 x2) (k0_pay16 (k0_pay6 x0) (k0_pay13 x1))
        (k0_pay17 (k0_pay7 x0) (k0_pay14 x1) (k0_pay15 (F := Ideal))) (k0_pay18 (F := Ideal) (k0_pay4 x2))
        (k0_pay19 (F := Ideal) (k0_pay4 x2) x3 (k0_pay6 x0) (k0_pay7 x0) (k0_pay8 x0) (k0_pay9 x0) (k0_pay10 x0 x2)) acc j
      = acc j + S1 (n := 800) (vox3 x0) (npt2 x2) (coo2 x1) (wgt2 x3) (j 1) := by
  rw [eq_ix2 j]
  refine (pay22_apply _ _ _ _ _ _ _ acc (j 0) (j 1)).trans ?_
  unfold S1
  refine congrArg (acc (ix2 (j 0) (j 1)) + ·) ?_
  exact Finset.sum_congr rfl fun r _ => Finset.sum_congr rfl fun p _ => layer_apply x0 x1 x2 x3 r p (j 1)

/-- The block's sum of squares a point computes. -/
theorem block_squares (x0 : Vec Ideal S800x32x4 .f32) (x1 : Vec Ideal S800x2 .i32) (x2 : Vec Ideal S800x1 .i32) (x3 : Vec Ideal S64x9 .f32)
    (j : S1x64.Idx) :
    k0_pay21 (F := Ideal) x3 (k0_pay11 x0 x2) (k0_pay12 x0 x2) (k0_pay16 (k0_pay6 x0) (k0_pay13 x1))
        (k0_pay17 (k0_pay7 x0) (k0_pay14 x1) (k0_pay15 (F := Ideal))) (k0_pay18 (F := Ideal) (k0_pay4 x2))
        (k0_pay19 (F := Ideal) (k0_pay4 x2) x3 (k0_pay6 x0) (k0_pay7 x0) (k0_pay8 x0) (k0_pay9 x0) (k0_pay10 x0 x2)) j
      = S2 (n := 800) (vox3 x0) (npt2 x2) (coo2 x1) (wgt2 x3) (j 1) := by
  rw [eq_ix2 j]
  refine (pay21_apply _ _ _ _ _ _ _ (j 0) (j 1)).trans ?_
  unfold S2
  exact Finset.sum_congr rfl fun r _ => Finset.sum_congr rfl fun p _ =>
    congrArg₂ (· * ·) (layer_apply x0 x1 x2 x3 r p (j 1)) (layer_apply x0 x1 x2 x3 r p (j 1))

end Cert.KernelIdeal.KCasesPay

end
-- ==== Proof.KCases.lean ====
/-
  What one grid point of the statistics kernel leaves in its two accumulators, as functions of the point's input
  blocks: the block's sum of the linear layer's outputs and the block's sum of their squares, per channel, stored
  at the first point and added to the running contents at every later one.
-/
import proofs.«172518_j14388140441772_1_alg».proof.Proof.Gen.KernelIdeal.Frame
import proofs.«172518_j14388140441772_1_alg».proof.Proof.Spec
import proofs.«172518_j14388140441772_1_alg».proof.Proof.KCasesPay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KValue

open Idealize.ShloMosaic Idealize.ShloMosaic.TcCoe Idealize.SL.Sem
open Cert.KernelIdeal Cert.KernelIdeal.Gen Cert.Pillar Cert.KernelIdeal.KCasesPay

/-- A block's sum of the layer's outputs, per channel. -/
abbrev blkS1 (x0 : Vec Ideal S800x32x4 .f32) (x1 : Vec Ideal S800x2 .i32) (x2 : Vec Ideal S800x1 .i32) (x3 : Vec Ideal S64x9 .f32) (o : Fin 64) : EReal := S1 (n := 800) (vox3 x0) (npt2 x2) (coo2 x1) (wgt2 x3) o
/-- A block's sum of the squared outputs, per channel. -/
abbrev blkS2 (x0 : Vec Ideal S800x32x4 .f32) (x1 : Vec Ideal S800x2 .i32) (x2 : Vec Ideal S800x1 .i32) (x3 : Vec Ideal S64x9 .f32) (o : Fin 64) : EReal := S2 (n := 800) (vox3 x0) (npt2 x2) (coo2 x1) (wgt2 x3) o

/-- The zero offsets of a whole-block access, as constant functions. -/
private theorem hz : (![0, 0] : Fin 2 → Nat) = fun _ => 0 := funext fun a => by fin_cases a <;> rfl
private theorem hz3 : (![0, 0, 0] : Fin 3 → Nat) = fun _ => 0 := funext fun a => by fin_cases a <;> rfl

theorem out_A_4 (c : Dev nD) (i : grid0.Coords) (a1 : Memref sig .tc .vmem S800x32x4 .f32) (h1 : a1.IsWhole) (a2 : Memref sig .tc .vmem S800x2 .i32) (h2 : a2.IsWhole) (a3 : Memref sig .tc .vmem S800x1 .i32) (h3 : a3.IsWhole) (a4 : Memref sig .tc .vmem S64x9 .f32) (h4 : a4.IsWhole) (a5 : Memref sig .tc .vmem S1x64 .f32) (h5 : a5.IsWhole) (a6 : Memref sig .tc .vmem S1x64 .f32) (h6 : a6.IsWhole) (hc : cond0_0 i) (x0 : Vec Ideal S800x32x4 .f32) (x1 : Vec Ideal S800x2 .i32) (x2 : Vec Ideal S800x1 .i32) (x3 : Vec Ideal S64x9 .f32) :
    out0_A_4 (F := Ideal) c i a1 h1 a2 h2 a3 h3 a4 h4 a5 h5 a6 h6 hc x0 x1 x2 x3 = fun j => blkS1 x0 x1 x2 x3 (j 1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread,
    View.ld_unit_zero (S := S800x32x4) hz3, View.ld_unit_zero (S := S800x2) hz, View.ld_unit_zero (S := S800x1) hz,
    View.ld_unit_zero (S := S64x9) hz, View.ld_unit_zero (S := S1x64) hz]
  funext j
  refine (stored_sum x0 x1 x2 x3 (k0_pay2 (F := Ideal)) j).trans ?_
  rw [pay2_apply, zero_add]

theorem out_A_5 (c : Dev nD) (i : grid0.Coords) (a1 : Memref sig .tc .vmem S800x32x4 .f32) (h1 : a1.IsWhole) (a2 : Memref sig .tc .vmem S800x2 .i32) (h2 : a2.IsWhole) (a3 : Memref sig .tc .vmem S800x1 .i32) (h3 : a3.IsWhole) (a4 : Memref sig .tc .vmem S64x9 .f32) (h4 : a4.IsWhole) (a5 : Memref sig .tc .vmem S1x64 .f32) (h5 : a5.IsWhole) (a6 : Memref sig .tc .vmem S1x64 .f32) (h6 : a6.IsWhole) (hc : cond0_0 i) (x0 : Vec Ideal S800x32x4 .f32) (x1 : Vec Ideal S800x2 .i32) (x2 : Vec Ideal S800x1 .i32) (x3 : Vec Ideal S64x9 .f32) :
    out0_A_5 (F := Ideal) c i a1 h1 a2 h2 a3 h3 a4 h4 a5 h5 a6 h6 hc x0 x1 x2 x3 = fun j => blkS2 x0 x1 x2 x3 (j 1) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread,
    View.ld_unit_zero (S := S800x32x4) hz3, View.ld_unit_zero (S := S800x2) hz, View.ld_unit_zero (S := S800x1) hz,
    View.ld_unit_zero (S := S64x9) hz, View.ld_unit_zero (S := S1x64) hz]
  funext j
  rw [pay1_apply, pay23_eq, pay3_apply, zero_add]
  exact block_squares x0 x1 x2 x3 j

theorem out_B_4 (c : Dev nD) (i : grid0.Coords) (a1 : Memref sig .tc .vmem S800x32x4 .f32) (h1 : a1.IsWhole) (a2 : Memref sig .tc .vmem S800x2 .i32) (h2 : a2.IsWhole) (a3 : Memref sig .tc .vmem S800x1 .i32) (h3 : a3.IsWhole) (a4 : Memref sig .tc .vmem S64x9 .f32) (h4 : a4.IsWhole) (a5 : Memref sig .tc .vmem S1x64 .f32) (h5 : a5.IsWhole) (a6 : Memref sig .tc .vmem S1x64 .f32) (h6 : a6.IsWhole) (hc : ¬cond0_0 i) (x0 : Vec Ideal S800x32x4 .f32) (x1 : Vec Ideal S800x2 .i32) (x2 : Vec Ideal S800x1 .i32) (x3 : Vec Ideal S64x9 .f32) (xo4 xo5 : Vec Ideal S1x64 .f32) :
    out0_B_4 (F := Ideal) c i a1 h1 a2 h2 a3 h3 a4 h4 a5 h5 a6 h6 hc x0 x1 x2 x3 xo4 xo5 = fun j => xo4 j + blkS1 x0 x1 x2 x3 (j 1) := by
  unfold out0_B_4
  rw [View.read_writes_eq_canon _ _ _ (cover0_B_4 c i a1 h1 a2 h2 a3 h3 a4 h4 a5 h5 a6 h6 hc x0 x1 x2 x3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S800x32x4) hz3, View.ld_unit_zero (S := S800x2) hz, View.ld_unit_zero (S := S800x1) hz,
    View.ld_unit_zero (S := S64x9) hz, View.ld_unit_zero (S := S1x64) hz]
  funext j
  exact stored_sum x0 x1 x2 x3 xo4 j

theorem out_B_5 (c : Dev nD) (i : grid0.Coords) (a1 : Memref sig .tc .vmem S800x32x4 .f32) (h1 : a1.IsWhole) (a2 : Memref sig .tc .vmem S800x2 .i32) (h2 : a2.IsWhole) (a3 : Memref sig .tc .vmem S800x1 .i32) (h3 : a3.IsWhole) (a4 : Memref sig .tc .vmem S64x9 .f32) (h4 : a4.IsWhole) (a5 : Memref sig .tc .vmem S1x64 .f32) (h5 : a5.IsWhole) (a6 : Memref sig .tc .vmem S1x64 .f32) (h6 : a6.IsWhole) (hc : ¬cond0_0 i) (x0 : Vec Ideal S800x32x4 .f32) (x1 : Vec Ideal S800x2 .i32) (x2 : Vec Ideal S800x1 .i32) (x3 : Vec Ideal S64x9 .f32) (xo4 xo5 : Vec Ideal S1x64 .f32) :
    out0_B_5 (F := Ideal) c i a1 h1 a2 h2 a3 h3 a4 h4 a5 h5 a6 h6 hc x0 x1 x2 x3 xo4 xo5 = fun j => xo5 j + blkS2 x0 x1 x2 x3 (j 1) := by
  unfold out0_B_5
  rw [View.read_writes_eq_canon _ _ _ (cover0_B_5 c i a1 h1 a2 h2 a3 h3 a4 h4 a5 h5 a6 h6 hc x0 x1 x2 x3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S800x32x4) hz3, View.ld_unit_zero (S := S800x2) hz, View.ld_unit_zero (S := S800x1) hz,
    View.ld_unit_zero (S := S64x9) hz, View.ld_unit_zero (S := S1x64) hz]
  funext j
  rw [pay1_apply, pay23_eq]
  exact congrArg (xo5 j + ·) (block_squares x0 x1 x2 x3 j)

end Cert.KernelIdeal.KValue

end
-- ==== Proof.KRegion0.lean ====
/-
  The statistics region's two result arrays after its fifty points: the sum over all pillars' points of the linear
  layer's outputs, and of their squares, per channel.
-/
import proofs.«172518_j14388140441772_1_alg».proof.Proof.KCases
import Idealize.ShloMosaic.Lib.Pipeline.Value
import Idealize.ShloMosaic.Lib.ValueIdx
import Mathlib.Algebra.BigOperators.Fin
import Mathlib.Data.Fintype.BigOperators
import Mathlib.Logic.Equiv.Fin.Basic

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.Pillar

variable (V : (c : Dev nD) → (b : Ref sig .tc) → Buf (Elt Ideal) ((c : Thread nD τ).loc b))

/-! ## The accumulators after each point: the running sums of the points' block sums -/

/-- The four input blocks at a point: voxels, cells, counts, weights. -/
abbrev xb0 (c : Dev nD) (t : Fin cfg0.N) : Vec Ideal S800x32x4 .f32 := iblk0 (F := Ideal) V c 0 t
abbrev xb1 (c : Dev nD) (t : Fin cfg0.N) : Vec Ideal S800x2 .i32 := iblk0 (F := Ideal) V c 1 t
abbrev xb2 (c : Dev nD) (t : Fin cfg0.N) : Vec Ideal S800x1 .i32 := iblk0 (F := Ideal) V c 2 t
abbrev xb3 (c : Dev nD) (t : Fin cfg0.N) : Vec Ideal S64x9 .f32 := iblk0 (F := Ideal) V c 3 t

/-- A point's block sums: of the layer's outputs, and of their squares. -/
abbrev bS1 (c : Dev nD) (t : Fin cfg0.N) (o : Fin 64) : EReal := blkS1 (xb0 V c t) (xb1 V c t) (xb2 V c t) (xb3 V c t) o
abbrev bS2 (c : Dev nD) (t : Fin cfg0.N) (o : Fin 64) : EReal := blkS2 (xb0 V c t) (xb1 V c t) (xb2 V c t) (xb3 V c t) o

/-- After point `n` the two accumulators hold the sums of the block sums of points `0 … n`: the first point stores
    its block sums, every later one adds its own to what the point before left. -/
theorem outs_inv (c : Dev nD) : ∀ (n : ℕ) (hn : n < cfg0.N),
    (outsAt0 (F := Ideal) V c n hn).1 = (fun j => ∑ s : Fin (n + 1), bS1 V c ⟨s.val, lt_of_lt_of_le s.isLt hn⟩ (j 1))
    ∧ (outsAt0 (F := Ideal) V c n hn).2 = (fun j => ∑ s : Fin (n + 1), bS2 V c ⟨s.val, lt_of_lt_of_le s.isLt hn⟩ (j 1))
  | 0, hn => by
    rw [outsAt0_A V c ⟨0, hn⟩ rfl]
    dsimp only
    refine ⟨?_, ?_⟩
    · refine (out_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr rfl) (xb0 V c ⟨0, hn⟩) (xb1 V c ⟨0, hn⟩) (xb2 V c ⟨0, hn⟩) (xb3 V c ⟨0, hn⟩)).trans ?_
      funext j
      rw [Fin.sum_univ_one]
      rfl
    · refine (out_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr rfl) (xb0 V c ⟨0, hn⟩) (xb1 V c ⟨0, hn⟩) (xb2 V c ⟨0, hn⟩) (xb3 V c ⟨0, hn⟩)).trans ?_
      funext j
      rw [Fin.sum_univ_one]
      rfl
  | n + 1, hn => by
    have hN : cfg0.N = 50 := N_0
    have hB : ¬(⟨n + 1, hn⟩ : Fin cfg0.N).val % 50 = 0 := by dsimp only; omega
    obtain ⟨ih1, ih2⟩ := outs_inv c n (Nat.lt_of_succ_lt hn)
    rw [outsAt0_B V c ⟨n + 1, hn⟩ hB]
    dsimp only
    refine ⟨?_, ?_⟩
    · refine (out_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => hB ((hcond0_0 ⟨n + 1, hn⟩).mp h)) (xb0 V c ⟨n + 1, hn⟩) (xb1 V c ⟨n + 1, hn⟩) (xb2 V c ⟨n + 1, hn⟩) (xb3 V c ⟨n + 1, hn⟩)
        (outsAt0 (F := Ideal) V c n (Nat.lt_of_succ_lt hn)).1 (outsAt0 (F := Ideal) V c n (Nat.lt_of_succ_lt hn)).2).trans ?_
      funext j
      rw [ih1, Fin.sum_univ_castSucc]
      rfl
    · refine (out_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => hB ((hcond0_0 ⟨n + 1, hn⟩).mp h)) (xb0 V c ⟨n + 1, hn⟩) (xb1 V c ⟨n + 1, hn⟩) (xb2 V c ⟨n + 1, hn⟩) (xb3 V c ⟨n + 1, hn⟩)
        (outsAt0 (F := Ideal) V c n (Nat.lt_of_succ_lt hn)).1 (outsAt0 (F := Ideal) V c n (Nat.lt_of_succ_lt hn)).2).trans ?_
      funext j
      rw [ih2, Fin.sum_univ_castSucc]
      rfl

/-! ## The one write-back, at the last point, is the whole array -/

/-- Both accumulator windows sit at block (0, 0) at every one of the fifty points. -/
theorem idx0_45 : ∀ t : Fin cfg0.N, (win0_4.index t 0 = 0 ∧ win0_4.index t 1 = 0) ∧ (win0_5.index t 0 = 0 ∧ win0_5.index t 1 = 0) :=
  (by decide +kernel : ∀ t : Fin grid0.N, (win0_4.index t 0 = 0 ∧ win0_4.index t 1 = 0) ∧ (win0_5.index t 0 = 0 ∧ win0_5.index t 1 = 0))

/-- The one write-back of accumulator 4, at the last point, writes what that point left: block (0, 0) of the
    [1,64] array read through zero offsets is the array. -/
theorem flushed4 (c : Dev nD) (G : Vec Ideal S1x64 .f32) (hG : ∀ h : 49 < cfg0.N, (outsAt0 (F := Ideal) V c 49 h).1 = G)
    (t : Fin cfg0.N) (hf : (cfg0.win 4).flush t = true) :
    (dat0 (F := Ideal) V c).flushed 4 t = ((cfg0.win 4).blk t).view.read (Elt Ideal) G := by
  have hN : cfg0.N = 50 := N_0
  have h49 : t.val = 49 := by have := (flush0_4 t).mp hf; have := t.isLt; omega
  show (cfg0.win 4).cut (grid0.coords t) ((dat0 (F := Ideal) V c).after 4 t) = _
  rw [after0_4]
  have e : (outsAt0 (F := Ideal) V c t.val t.isLt).1 = G := by
    obtain ⟨n, hn⟩ := t
    dsimp only at h49
    subst h49
    exact hG hn
  rw [e]
  have hz' : (fun a => win0_4.index t a * main_v1_0.ty.shape.size a) = fun _ => 0 := funext fun a => by
    fin_cases a
    · show win0_4.index t 0 * _ = 0
      rw [(idx0_45 t).1.1, Nat.zero_mul]
    · show win0_4.index t 1 * _ = 0
      rw [(idx0_45 t).1.2, Nat.zero_mul]
  exact (Memref.read_access_unit_zero (Elt Ideal) main_v1_0 hz' (fun a => by rw [congrFun hz' a]; simp) G).symm

/-- The last point's block of accumulator 4 is the whole array. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h49 : 49 < cfg0.N := by rw [show cfg0.N = 50 from N_0]; decide
  refine ⟨⟨49, h49⟩, (flush0_4 _).mpr rfl, ?_⟩
  show i ∈ ((View.whole main_v1_0).slice (win0_4.rect ⟨49, h49⟩)).set
  rw [View.set_slice_whole, Rect.mem_set_unit]
  intro a
  have h0 : (i 0 : Nat) < 1 := (i 0).isLt
  have h1 : (i 1 : Nat) < 64 := (i 1).isLt
  match a with
  | ⟨0, _⟩ =>
    show win0_4.index ⟨49, h49⟩ 0 * 1 ≤ (i 0 : Nat) ∧ (i 0 : Nat) < win0_4.index ⟨49, h49⟩ 0 * 1 + 1
    rw [(idx0_45 _).1.1]; omega
  | ⟨1, _⟩ =>
    show win0_4.index ⟨49, h49⟩ 1 * 64 ≤ (i 1 : Nat) ∧ (i 1 : Nat) < win0_4.index ⟨49, h49⟩ 1 * 64 + 64
    rw [(idx0_45 _).1.2]; omega

/-- The one write-back of accumulator 5, at the last point, writes what that point left: block (0, 0) of the
    [1,64] array read through zero offsets is the array. -/
theorem flushed5 (c : Dev nD) (G : Vec Ideal S1x64 .f32) (hG : ∀ h : 49 < cfg0.N, (outsAt0 (F := Ideal) V c 49 h).2 = G)
    (t : Fin cfg0.N) (hf : (cfg0.win 5).flush t = true) :
    (dat0 (F := Ideal) V c).flushed 5 t = ((cfg0.win 5).blk t).view.read (Elt Ideal) G := by
  have hN : cfg0.N = 50 := N_0
  have h49 : t.val = 49 := by have := (flush0_5 t).mp hf; have := t.isLt; omega
  show (cfg0.win 5).cut (grid0.coords t) ((dat0 (F := Ideal) V c).after 5 t) = _
  rw [after0_5]
  have e : (outsAt0 (F := Ideal) V c t.val t.isLt).2 = G := by
    obtain ⟨n, hn⟩ := t
    dsimp only at h49
    subst h49
    exact hG hn
  rw [e]
  have hz' : (fun a => win0_5.index t a * main_v1_1.ty.shape.size a) = fun _ => 0 := funext fun a => by
    fin_cases a
    · show win0_5.index t 0 * _ = 0
      rw [(idx0_45 t).2.1, Nat.zero_mul]
    · show win0_5.index t 1 * _ = 0
      rw [(idx0_45 t).2.2, Nat.zero_mul]
  exact (Memref.read_access_unit_zero (Elt Ideal) main_v1_1 hz' (fun a => by rw [congrFun hz' a]; simp) G).symm

/-- The last point's block of accumulator 5 is the whole array. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h49 : 49 < cfg0.N := by rw [show cfg0.N = 50 from N_0]; decide
  refine ⟨⟨49, h49⟩, (flush0_5 _).mpr rfl, ?_⟩
  show i ∈ ((View.whole main_v1_1).slice (win0_5.rect ⟨49, h49⟩)).set
  rw [View.set_slice_whole, Rect.mem_set_unit]
  intro a
  have h0 : (i 0 : Nat) < 1 := (i 0).isLt
  have h1 : (i 1 : Nat) < 64 := (i 1).isLt
  match a with
  | ⟨0, _⟩ =>
    show win0_5.index ⟨49, h49⟩ 0 * 1 ≤ (i 0 : Nat) ∧ (i 0 : Nat) < win0_5.index ⟨49, h49⟩ 0 * 1 + 1
    rw [(idx0_45 _).2.1]; omega
  | ⟨1, _⟩ =>
    show win0_5.index ⟨49, h49⟩ 1 * 64 ≤ (i 1 : Nat) ∧ (i 1 : Nat) < win0_5.index ⟨49, h49⟩ 1 * 64 + 64
    rw [(idx0_45 _).2.2]; omega

/-! ## A point's blocks are the arrays' rows 800 t … 800 t + 799 -/

/-- Where the input windows sit at a point: the three tiled ones at block `t` along the pillars, the weights' at
    block (0, 0), at every one of the fifty points. -/
theorem idx0_in : ∀ t : Fin cfg0.N,
    (win0_0.index t 0 = t.val ∧ win0_0.index t 1 = 0 ∧ win0_0.index t 2 = 0)
    ∧ (win0_1.index t 0 = t.val ∧ win0_1.index t 1 = 0)
    ∧ (win0_2.index t 0 = t.val ∧ win0_2.index t 1 = 0)
    ∧ (win0_3.index t 0 = 0 ∧ win0_3.index t 1 = 0) :=
  (by decide +kernel : ∀ t : Fin grid0.N,
    (win0_0.index t 0 = t.val ∧ win0_0.index t 1 = 0 ∧ win0_0.index t 2 = 0)
    ∧ (win0_1.index t 0 = t.val ∧ win0_1.index t 1 = 0)
    ∧ (win0_2.index t 0 = t.val ∧ win0_2.index t 1 = 0)
    ∧ (win0_3.index t 0 = 0 ∧ win0_3.index t 1 = 0))

/-- Pillar `r` of the block at point `t` is pillar `800 t + r` of the arrays. -/
def prow (t : Fin cfg0.N) (r : Fin 800) : Fin 40000 :=
  ⟨800 * t.val + r.val, by have := t.isLt; have : cfg0.N = 50 := N_0; have := r.isLt; omega⟩

open Idealize.ShloMosaic.ValueIdx in
/-- The voxel block at a point is the array's rows `800 t … 800 t + 799`. -/
theorem vox_blk (c : Dev nD) (t : Fin cfg0.N) (r : Fin 800) (p : Fin 32) (k : Fin 4) :
    vox3 (xb0 V c t) r p k = vox3 (n := 40000) (V c main_arg0) (prow t r) p k := by
  have hi := (idx0_in t).1
  show iblk0 (F := Ideal) V c 0 t (ix3 r p k) = V c main_arg0 (ix3 (prow t r) p k)
  unfold iblk0
  rw [View.read_apply]
  show V c main_arg0 _ = V c main_arg0 _
  congr 1
  funext a
  apply Fin.ext
  match a with
  | ⟨0, _⟩ => show win0_0.index t 0 * 800 + 1 * r.val = 800 * t.val + r.val; rw [hi.1]; omega
  | ⟨1, _⟩ => show win0_0.index t 1 * 32 + 1 * p.val = p.val; rw [hi.2.1]; omega
  | ⟨2, _⟩ => show win0_0.index t 2 * 4 + 1 * k.val = k.val; rw [hi.2.2]; omega

open Idealize.ShloMosaic.ValueIdx in
/-- The count block at a point is the array's rows `800 t … 800 t + 799`. -/
theorem npt_blk (c : Dev nD) (t : Fin cfg0.N) (r : Fin 800) :
    npt2 (xb2 V c t) r = npt2 (n := 40000) (V c main_v0) (prow t r) := by
  have hi := (idx0_in t).2.2.1
  show iblk0 (F := Ideal) V c 2 t (ix2 r 0) = V c main_v0 (ix2 (prow t r) 0)
  unfold iblk0
  rw [View.read_apply]
  show V c main_v0 _ = V c main_v0 _
  congr 1
  funext a
  apply Fin.ext
  match a with
  | ⟨0, _⟩ => show win0_2.index t 0 * 800 + 1 * r.val = 800 * t.val + r.val; rw [hi.1]; omega
  | ⟨1, _⟩ => show win0_2.index t 1 * 1 + 1 * 0 = 0; rw [hi.2]

open Idealize.ShloMosaic.ValueIdx in
/-- The cell block at a point is the array's rows `800 t … 800 t + 799`. -/
theorem coo_blk (c : Dev nD) (t : Fin cfg0.N) (r : Fin 800) (a : Fin 2) :
    coo2 (xb1 V c t) r a = coo2 (n := 40000) (V c main_arg2) (prow t r) a := by
  have hi := (idx0_in t).2.1
  show iblk0 (F := Ideal) V c 1 t (ix2 r a) = V c main_arg2 (ix2 (prow t r) a)
  unfold iblk0
  rw [View.read_apply]
  show V c main_arg2 _ = V c main_arg2 _
  congr 1
  funext b
  apply Fin.ext
  match b with
  | ⟨0, _⟩ => show win0_1.index t 0 * 800 + 1 * r.val = 800 * t.val + r.val; rw [hi.1]; omega
  | ⟨1, _⟩ => show win0_1.index t 1 * 2 + 1 * a.val = a.val; rw [hi.2]; omega

open Idealize.ShloMosaic.ValueIdx in
/-- The weights' block at every point is the whole array. -/
theorem wgt_blk (c : Dev nD) (t : Fin cfg0.N) (o : Fin 64) (k : Fin 9) :
    wgt2 (xb3 V c t) o k = wgt2 (V c main_arg3) o k := by
  have hi := (idx0_in t).2.2.2
  show iblk0 (F := Ideal) V c 3 t (ix2 o k) = V c main_arg3 (ix2 o k)
  unfold iblk0
  rw [View.read_apply]
  show V c main_arg3 _ = V c main_arg3 _
  congr 1
  funext b
  apply Fin.ext
  match b with
  | ⟨0, _⟩ => show win0_3.index t 0 * 64 + 1 * o.val = o.val; rw [hi.1]; omega
  | ⟨1, _⟩ => show win0_3.index t 1 * 9 + 1 * k.val = k.val; rw [hi.2]; omega

/-! ## Fifty block sums are the whole sum -/

/-- The layer's output at a pillar's point reads that pillar's rows only: two arrangements that agree on a pillar (and on
    the weights) give the same output there. -/
theorem X_congr {n m : Nat} (vox : Fin n → Fin 32 → Fin 4 → EReal) (npt : Fin n → BitVec 32) (coo : Fin n → Fin 2 → BitVec 32)
    (wgt : Fin 64 → Fin 9 → EReal) (vox' : Fin m → Fin 32 → Fin 4 → EReal) (npt' : Fin m → BitVec 32)
    (coo' : Fin m → Fin 2 → BitVec 32) (wgt' : Fin 64 → Fin 9 → EReal) (v : Fin n) (v' : Fin m)
    (hv : ∀ p k, vox v p k = vox' v' p k) (hn : npt v = npt' v') (hc : ∀ a, coo v a = coo' v' a)
    (hw : ∀ o k, wgt o k = wgt' o k) (p : Fin 32) (o : Fin 64) :
    X vox npt coo wgt v p o = X vox' npt' coo' wgt' v' p o := by
  unfold X feat msk cnt cell rowSum
  simp only [hv, hn, hc, hw]

/-- A point's block sum of the outputs, over the arrays' own rows. -/
theorem bS1_eq (c : Dev nD) (t : Fin cfg0.N) (o : Fin 64) :
    bS1 V c t o = ∑ r : Fin 800, ∑ p : Fin 32,
      X (vox3 (n := 40000) (V c main_arg0)) (npt2 (V c main_v0)) (coo2 (V c main_arg2)) (wgt2 (V c main_arg3)) (prow t r) p o := by
  show S1 (n := 800) (vox3 (xb0 V c t)) (npt2 (xb2 V c t)) (coo2 (xb1 V c t)) (wgt2 (xb3 V c t)) o = _
  unfold S1
  refine Finset.sum_congr rfl fun r _ => Finset.sum_congr rfl fun p _ => ?_
  exact X_congr _ _ _ _ _ _ _ _ r (prow t r) (fun p k => vox_blk V c t r p k) (npt_blk V c t r)
    (fun a => coo_blk V c t r a) (fun o k => wgt_blk V c t o k) p o

/-- A point's block sum of the squared outputs, over the arrays' own rows. -/
theorem bS2_eq (c : Dev nD) (t : Fin cfg0.N) (o : Fin 64) :
    bS2 V c t o = ∑ r : Fin 800, ∑ p : Fin 32,
      X (vox3 (n := 40000) (V c main_arg0)) (npt2 (V c main_v0)) (coo2 (V c main_arg2)) (wgt2 (V c main_arg3)) (prow t r) p o
      * X (vox3 (n := 40000) (V c main_arg0)) (npt2 (V c main_v0)) (coo2 (V c main_arg2)) (wgt2 (V c main_arg3)) (prow t r) p o := by
  show S2 (n := 800) (vox3 (xb0 V c t)) (npt2 (xb2 V c t)) (coo2 (xb1 V c t)) (wgt2 (xb3 V c t)) o = _
  unfold S2
  refine Finset.sum_congr rfl fun r _ => Finset.sum_congr rfl fun p _ => ?_
  rw [X_congr _ _ _ _ _ _ _ _ r (prow t r) (fun p k => vox_blk V c t r p k) (npt_blk V c t r)
    (fun a => coo_blk V c t r a) (fun o k => wgt_blk V c t o k) p o]

/-- Fifty blocks of 800 pillars are the 40000 pillars: the sum over the points of the sums over a block's rows is the
    sum over all rows (the pairs (point, row) are the rows, row `r` of point `s` being `800 s + r`). -/
theorem sum_points (f : Fin 40000 → EReal) (g : Fin cfg0.N → EReal) (hg : ∀ t, g t = ∑ r : Fin 800, f (prow t r))
    (h49 : 49 < cfg0.N) :
    ∑ s : Fin (49 + 1), g ⟨s.val, lt_of_lt_of_le s.isLt h49⟩ = ∑ v : Fin 40000, f v := by
  simp only [hg]
  have e : ∑ v : Fin (50 * 800), f v = ∑ x : Fin 50 × Fin 800, f (finProdFinEquiv x) :=
    (Equiv.sum_comp (finProdFinEquiv (m := 50) (n := 800)) f).symm
  rw [Fintype.sum_prod_type] at e
  refine Eq.trans ?_ e.symm
  refine Finset.sum_congr rfl fun s _ => Finset.sum_congr rfl fun r _ => congrArg f (Fin.ext ?_)
  show 800 * s.val + r.val = r.val + 800 * s.val
  omega

/-- What the last point leaves in the two accumulators: the sums of all fifty points' block sums. -/
abbrev acc1 (c : Dev nD) (h49 : 49 < cfg0.N) : Vec Ideal S1x64 .f32 :=
  fun j => ∑ s : Fin (49 + 1), bS1 V c ⟨s.val, lt_of_lt_of_le s.isLt h49⟩ (j 1)
abbrev acc2 (c : Dev nD) (h49 : 49 < cfg0.N) : Vec Ideal S1x64 .f32 :=
  fun j => ∑ s : Fin (49 + 1), bS2 V c ⟨s.val, lt_of_lt_of_le s.isLt h49⟩ (j 1)

theorem final0_4 (c : Dev nD) :
    (dat0 (F := Ideal) V c).arrAt 4 cfg0.N
      = fun j => S1 (vox3 (V c main_arg0)) (npt2 (V c main_v0)) (coo2 (V c main_arg2)) (wgt2 (V c main_arg3)) (j 1) := by
  have h49 : 49 < cfg0.N := by rw [show cfg0.N = 50 from N_0]; decide
  refine ((dat0 (F := Ideal) V c).arrAt_eq_of_cover 4 (acc1 V c h49)
    (flushed4 V c (acc1 V c h49) fun h => (outs_inv V c 49 h).1) (cover4 c)).trans ?_
  funext j
  exact sum_points _ (fun t => bS1 V c t (j 1)) (fun t => bS1_eq V c t (j 1)) h49

theorem final0_5 (c : Dev nD) :
    (dat0 (F := Ideal) V c).arrAt 5 cfg0.N
      = fun j => S2 (vox3 (V c main_arg0)) (npt2 (V c main_v0)) (coo2 (V c main_arg2)) (wgt2 (V c main_arg3)) (j 1) := by
  have h49 : 49 < cfg0.N := by rw [show cfg0.N = 50 from N_0]; decide
  refine ((dat0 (F := Ideal) V c).arrAt_eq_of_cover 5 (acc2 V c h49)
    (flushed5 V c (acc2 V c h49) fun h => (outs_inv V c 49 h).2) (cover5 c)).trans ?_
  funext j
  exact sum_points _ (fun t => bS2 V c t (j 1)) (fun t => bS2_eq V c t (j 1)) h49

end Cert.KernelIdeal.KValue

end
-- ==== Proof.KRegion1Pay.lean ====
/-
  The output kernel's stored value read at one pillar and one channel: the maximum over the pillar's 32 points of the
  linear layer's output times the scale plus the shift, clamped at zero.
-/
import proofs.«172518_j14388140441772_1_alg».proof.Proof.Gen.KernelIdeal.Frame
import proofs.«172518_j14388140441772_1_alg».proof.Proof.Spec
import proofs.«172518_j14388140441772_1_alg».proof.Proof.LibLayoutCols
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KRegion1Pay

open Idealize.ShloMosaic Idealize.ShloMosaic.TcCoe Idealize.SL.Sem
open Idealize.ShloMosaic.ValueIdx Idealize.ShloMosaic.LibLayoutCols
open Cert.KernelIdeal Cert.KernelIdeal.Gen Cert.Pillar

/-! ## Layout operations read at an index: the forms with a trailing unit axis -/

section Layout
variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[c, 1]` column cast to the vector `[c]` reads, at `j`, the operand at `(j, 0)`. -/
theorem shapeCast_c1_c_apply {c : ℕ} (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- An `[a, b, 1]` array broadcast to `[a, b, c]` reads, at `(r, u, j)`, the operand at `(r, u, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (u : Fin b) (j : Fin c) :
    broadcastTo ⟨3, ![a, b, c]⟩ v h (ix3 r u j) = v (ix3 r u (0 : Fin 1)) := by
  refine broadcastTo_apply v h (ix3 r u j) (ix3 r u (0 : Fin 1)) fun ax => ?_
  match ax with
  | ⟨0, _⟩ =>
    show r.val = if a = 1 then 0 else r.val
    split
    · have := r.isLt; omega
    · rfl
  | ⟨1, _⟩ =>
    show u.val = if b = 1 then 0 else u.val
    split
    · have := u.isLt; omega
    · rfl
  | ⟨2, _⟩ => rfl

/-- A rank-3 array cut along its last axis from `o` reads, at `(a, b, j)`, the source at `(a, b, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Layout

/-! ## One-axis reductions of the middle or last axis, read at an index -/

/-- A sum over the last axis of a matrix, read at row `r`: the sum of the row's entries. -/
theorem reduceAdd_lastAxis_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

/-- The f32 word of minus infinity is the bottom of the extended reals. -/
theorem ofBits_negInf_f32 : Ideal.ofBits .f32 0xFF800000#32 = ⊥ := by simp [Ideal.ofBits, Ideal.ieee]

/-- A maximum over the middle axis of a rank-3 array from minus infinity, read at `(r, o)`: the fold of `max` from the
    bottom over the middle coordinate. -/
theorem reduceMax_midAxis_apply {a b c : ℕ} (src : FVec Ideal ⟨3, ![a, b, c]⟩ .f32)
    (h : (⟨3, ![a, b, c]⟩ : Shape).Reduces [1] ⟨2, ![a, c]⟩) (hφ : FKind.Formats .f32)
    (hacc : (0xFF800000#32 : BitVec 32) = FKind.maximumf.neutral .f32 hφ) (r : Fin a) (o : Fin c) :
    multiReduction .maximumf [1] ⟨2, ![a, c]⟩ src 0xFF800000#32 h hφ hacc (ix2 r o)
      = (Finset.univ : Finset (Fin b)).fold max ⊥ fun p => src (ix3 r p o) := by
  refine (Ideal.multiReduction_maximumf_single src _ h hφ hacc (ix2 r o)).trans ?_
  show (Finset.univ : Finset (Fin b)).fold max (Ideal.ofBits .f32 0xFF800000#32) _ = _
  rw [ofBits_negInf_f32]
  refine congrArg (fun f => Finset.fold max ⊥ f (Finset.univ : Finset (Fin b))) (funext fun p => congrArg src (funext fun d => Fin.ext ?_))
  match d with
  | ⟨0, _⟩ => rfl
  | ⟨1, _⟩ => rfl
  | ⟨2, _⟩ => rfl

/-! ## Words: a one-bit condition widened and converted -/

/-- A one-bit word zero-extended to 32 bits and read as a signed integer is the bit. -/
theorem toInt_setWidth_bit (x : BitVec 1) : (x.setWidth 32).toInt = (x.toNat : Int) := by
  rcases BitVec.eq_zero_or_eq_one x with h | h <;> subst h <;> decide

/-! ## The kernel's values read at an index -/

section Payloads

variable (x0 : Vec Ideal S800x32x4 .f32) (x1 : Vec Ideal S800x2 .i32) (x2 : Vec Ideal S800x1 .i32)
  (x3 : Vec Ideal S64x9 .f32) (x4 x5 : Vec Ideal S1x64 .f32)

/-- The four channels of a point. -/
theorem chan0_apply (r : Fin 800) (p : Fin 32) : k1_pay4 (F := Ideal) x0 (ix2 r p) = vox3 x0 r p 0 := by
  unfold k1_pay4
  exact (shapeCast_ab1_ab_apply _ _ r p).trans (slice3_axis2_apply 0 x0 _ r p 0 0 rfl)
theorem chan1_apply (r : Fin 800) (p : Fin 32) : k1_pay5 (F := Ideal) x0 (ix2 r p) = vox3 x0 r p 1 := by
  unfold k1_pay5
  exact (shapeCast_ab1_ab_apply _ _ r p).trans (slice3_axis2_apply 1 x0 _ r p 0 1 rfl)
theorem chan2_apply (r : Fin 800) (p : Fin 32) : k1_pay6 (F := Ideal) x0 (ix2 r p) = vox3 x0 r p 2 := by
  unfold k1_pay6
  exact (shapeCast_ab1_ab_apply _ _ r p).trans (slice3_axis2_apply 2 x0 _ r p 0 2 rfl)
theorem chan3_apply (r : Fin 800) (p : Fin 32) : k1_pay7 (F := Ideal) x0 (ix2 r p) = vox3 x0 r p 3 := by
  unfold k1_pay7
  exact (shapeCast_ab1_ab_apply _ _ r p).trans (slice3_axis2_apply 3 x0 _ r p 0 3 rfl)

/-- The counts' column is the loaded block. -/
theorem count_eq : k1_pay2 (F := Ideal) x2 = x2 := by
  unfold k1_pay2
  exact shapeCast_self _ _

/-- The count as a real. -/
theorem cnt_apply (r : Fin 800) (u : Fin 1) : k1_pay3 (F := Ideal) x2 (ix2 r u) = cnt (npt2 x2) r := by
  unfold k1_pay3
  rw [count_eq]
  obtain rfl : u = 0 := Subsingleton.elim _ _
  rfl

/-- The mask: one where the count is above the row number. -/
theorem mask_apply (r : Fin 800) (p : Fin 32) :
    k1_pay14 (F := Ideal) (k1_pay2 (F := Ideal) x2) (ix2 r p) = msk (npt2 x2) r p := by
  unfold k1_pay14
  rw [count_eq]
  show ((((IntOp.cmpi .sgt (broadcastTo S800x32 x2 _ (ix2 r p)) (iota .tc S800x32 32 [1] _ (ix2 r p))).setWidth 32).toInt : ℝ) : EReal) = _
  rw [broadcastTo_a1_ab_apply x2 _ r p, iota_single_apply, toInt_setWidth_bit, Int.cast_natCast]
  rfl

/-- A point's value on one channel minus the pillar's mean of that channel: a column of row sums divided by a column,
    copied across the row and subtracted. -/
theorem centred_apply (f : FVec Ideal S800x32 .f32) (d : FVec Ideal S800x1 .f32)
    (h1 : S800x32.Reduces [1] S800) (hφ : FKind.Formats .f32) (hacc : (0x00000000#32 : BitVec 32) = FKind.add.neutral .f32 hφ)
    (h2 : S800.ShapeCasts S800x1) (h3 : S800x1.Broadcasts S800x32) (r : Fin 800) (p : Fin 32) :
    subf f (broadcastTo S800x32 (divf (shapeCast S800x1 (multiReduction .add [1] S800 f 0x00000000#32 h1 hφ hacc) h2) d) h3) (ix2 r p)
      = f (ix2 r p) - Ideal.div (∑ k : Fin 32, f (ix2 r k)) (d (ix2 r 0)) :=
  congrArg (f (ix2 r p) - ·) ((broadcastTo_a1_ab_apply _ h3 r p).trans
    (congrArg (Ideal.div · (d (ix2 r 0))) ((shapeCast_a_a1_apply _ h2 r 0).trans (reduceAdd_lastAxis_apply f h1 hφ hacc r))))

/-- The offsets from the pillar's mean in x, y, z. -/
theorem mean0_apply (r : Fin 800) (p : Fin 32) :
    k1_pay8 (F := Ideal) x0 x2 (ix2 r p) = vox3 x0 r p 0 - Ideal.div (rowSum (vox3 x0) r 0) (cnt (npt2 x2) r) := by
  unfold k1_pay8
  refine (centred_apply _ _ _ _ _ _ _ r p).trans ?_
  rw [cnt_apply]
  simp only [chan0_apply]
  rfl
theorem mean1_apply (r : Fin 800) (p : Fin 32) :
    k1_pay9 (F := Ideal) x0 x2 (ix2 r p) = vox3 x0 r p 1 - Ideal.div (rowSum (vox3 x0) r 1) (cnt (npt2 x2) r) := by
  unfold k1_pay9
  refine (centred_apply _ _ _ _ _ _ _ r p).trans ?_
  rw [cnt_apply]
  simp only [chan1_apply]
  rfl
theorem mean2_apply (r : Fin 800) (p : Fin 32) :
    k1_pay10 (F := Ideal) x0 x2 (ix2 r p) = vox3 x0 r p 2 - Ideal.div (rowSum (vox3 x0) r 2) (cnt (npt2 x2) r) := by
  unfold k1_pay10
  refine (centred_apply _ _ _ _ _ _ _ r p).trans ?_
  rw [cnt_apply]
  simp only [chan2_apply]
  rfl

/-- A cell coordinate times the cell size plus an offset, as a column. -/
theorem centre_apply (k : ℕ) (a : Fin 2) (hk : a.val = k) (hs : S800x2.Slices ![0, k] S800x1) (w : BitVec 32) (r : Fin 800) :
    addf (mulf (sitofp (F := Ideal) .f32 (extractStridedSlice S800x1 ![0, k] x1 hs)) (broadcast S800x1 (Scalar.ofBits .f32 0x3E23D70A#32)))
        (broadcast S800x1 (Scalar.ofBits .f32 w)) (ix2 r 0)
      = cell (coo2 x1) r a * cVX + Ideal.ofBits .f32 w := by
  show (((extractStridedSlice S800x1 ![0, k] x1 hs (ix2 r 0)).toInt : ℝ) : EReal) * _ + _ = _
  rw [slice2_axis1_apply k x1 hs r 0 a (by rw [hk]; rfl)]
  rfl

/-- The offsets from the cell's centre in x and y. -/
theorem centre0_apply (r : Fin 800) (p : Fin 32) :
    k1_pay12 (F := Ideal) x0 x1 (ix2 r p) = vox3 x0 r p 0 - (cell (coo2 x1) r 0 * cVX + cXoff) := by
  unfold k1_pay12
  exact congrArg₂ (· - ·) (chan0_apply x0 r p) ((broadcastTo_a1_ab_apply _ _ r p).trans (centre_apply x1 0 0 rfl _ _ r))
theorem centre1_apply (r : Fin 800) (p : Fin 32) :
    k1_pay13 (F := Ideal) (k1_pay5 (F := Ideal) x0) (k1_pay11 (F := Ideal) x1) (ix2 r p)
      = vox3 x0 r p 1 - (cell (coo2 x1) r 1 * cVX + cYoff) := by
  unfold k1_pay13 k1_pay11
  exact congrArg₂ (· - ·) (chan1_apply x0 r p) ((broadcastTo_a1_ab_apply _ _ r p).trans (centre_apply x1 1 1 rfl _ _ r))

/-- A column of the weights, made a vector over the channels and copied over pillars and points. -/
theorem wcol_apply (c : Fin 9) (k : ℕ) (hk : c.val = k) (hs : S64x9.Slices ![0, k] S64x1) (h1 : S64x1.ShapeCasts S64)
    (h2 : S64.ShapeCasts S1x1x64) (h3 : S1x1x64.Broadcasts S800x32x64) (r : Fin 800) (p : Fin 32) (o : Fin 64) :
    broadcastTo S800x32x64 (shapeCast S1x1x64 (shapeCast S64 (extractStridedSlice S64x1 ![0, k] x3 hs) h1) h2) h3 (ix3 r p o)
      = wgt2 x3 o c :=
  (broadcastTo_11c_abc_apply _ h3 r p o).trans ((shapeCast_c_11c_apply _ h2 0 0 o).trans
    ((shapeCast_c1_c_apply _ h1 o).trans (slice2_axis1_apply k x3 hs o 0 c (by rw [hk]; rfl))))

/-- The same column before it is copied, read at its one row. -/
theorem wvec_apply (c : Fin 9) (k : ℕ) (hk : c.val = k) (hs : S64x9.Slices ![0, k] S64x1) (h1 : S64x1.ShapeCasts S64)
    (h2 : S64.ShapeCasts S1x1x64) (o : Fin 64) :
    shapeCast S1x1x64 (shapeCast S64 (extractStridedSlice S64x1 ![0, k] x3 hs) h1) h2 (ix3 0 0 o) = wgt2 x3 o c :=
  (shapeCast_c_11c_apply _ h2 0 0 o).trans
    ((shapeCast_c1_c_apply _ h1 o).trans (slice2_axis1_apply k x3 hs o 0 c (by rw [hk]; rfl)))

/-- A per-point value copied over the channels. -/
theorem fcol_apply (f : FVec Ideal S800x32 .f32) (h1 : S800x32.ShapeCasts S800x32x1) (h2 : S800x32x1.Broadcasts S800x32x64)
    (r : Fin 800) (p : Fin 32) (o : Fin 64) :
    broadcastTo S800x32x64 (shapeCast S800x32x1 f h1) h2 (ix3 r p o) = f (ix2 r p) :=
  (broadcastTo_ab1_abc_apply _ h2 r p o).trans (shapeCast_ab_ab1_apply f h1 r p 0)

/-- A row over the channels (the scale or the shift) copied over pillars and points. -/
theorem row_apply (x : Vec Ideal S1x64 .f32) (h0 : S1x64.ShapeCasts S1x64) (h1 : S1x64.ShapeCasts S1x1x64)
    (h2 : S1x1x64.Broadcasts S800x32x64) (r : Fin 800) (p : Fin 32) (o : Fin 64) :
    broadcastTo S800x32x64 (shapeCast S1x1x64 (shapeCast S1x64 x h0) h1) h2 (ix3 r p o) = ch2 x o :=
  (broadcastTo_11c_abc_apply _ h2 r p o).trans ((shapeCast_ab_1ab_apply _ h1 0 0 o).trans (by rw [shapeCast_self]))

/-- One term of the linear layer: a masked feature times its column of the weights. -/
theorem term_apply (f m : FVec Ideal S800x32 .f32) (c : Fin 9) (k : ℕ) (hk : c.val = k) (hs : S64x9.Slices ![0, k] S64x1)
    (h1 : S64x1.ShapeCasts S64) (h2 : S64.ShapeCasts S1x1x64) (h3 : S1x1x64.Broadcasts S800x32x64)
    (h4 : S800x32.ShapeCasts S800x32x1) (h5 : S800x32x1.Broadcasts S800x32x64) (r : Fin 800) (p : Fin 32) (o : Fin 64) :
    mulf (broadcastTo S800x32x64 (shapeCast S800x32x1 (mulf f m) h4) h5)
        (broadcastTo S800x32x64 (shapeCast S1x1x64 (shapeCast S64 (extractStridedSlice S64x1 ![0, k] x3 hs) h1) h2) h3) (ix3 r p o)
      = f (ix2 r p) * m (ix2 r p) * wgt2 x3 o c :=
  congrArg₂ (· * ·) (fcol_apply (mulf f m) h4 h5 r p o) (wcol_apply x3 c k hk hs h1 h2 h3 r p o)

/-- The first five terms of the layer, added to zero in order. -/
theorem first5_apply (v3 : IVec S800x1 32) (f0 f1 f2 f3 f4 : FVec Ideal S800x32 .f32) (r : Fin 800) (p : Fin 32) (o : Fin 64) :
    k1_pay15 (F := Ideal) v3 x3 f0 f1 f2 f3 f4 (ix3 r p o)
      = 0 + f0 (ix2 r p) * k1_pay14 (F := Ideal) v3 (ix2 r p) * wgt2 x3 o 0
          + f1 (ix2 r p) * k1_pay14 (F := Ideal) v3 (ix2 r p) * wgt2 x3 o 1
          + f2 (ix2 r p) * k1_pay14 (F := Ideal) v3 (ix2 r p) * wgt2 x3 o 2
          + f3 (ix2 r p) * k1_pay14 (F := Ideal) v3 (ix2 r p) * wgt2 x3 o 3
          + f4 (ix2 r p) * k1_pay14 (F := Ideal) v3 (ix2 r p) * wgt2 x3 o 4 := by
  unfold k1_pay15
  exact congrArg₂ (· + ·) (congrArg₂ (· + ·) (congrArg₂ (· + ·) (congrArg₂ (· + ·) (congrArg₂ (· + ·)
    Ideal.ofBits_zero_f32
    (term_apply x3 f0 _ 0 0 rfl _ _ _ _ _ _ r p o))
    (term_apply x3 f1 _ 1 1 rfl _ _ _ _ _ _ r p o))
    (term_apply x3 f2 _ 2 2 rfl _ _ _ _ _ _ r p o))
    (term_apply x3 f3 _ 3 3 rfl _ _ _ _ _ _ r p o))
    (term_apply x3 f4 _ 4 4 rfl _ _ _ _ _ _ r p o)

/-- The sixth column of the weights as the kernel keeps it. -/
theorem w5_apply (o : Fin 64) : k1_pay16 (F := Ideal) x3 (ix3 0 0 o) = wgt2 x3 o 5 := by
  unfold k1_pay16
  exact wvec_apply x3 5 5 rfl _ _ _ o

/-- The sixth masked feature copied over the channels. -/
theorem f5_apply (v3 : IVec S800x1 32) (f5 : FVec Ideal S800x32 .f32) (r : Fin 800) (p : Fin 32) (o : Fin 64) :
    k1_pay17 (F := Ideal) v3 f5 (ix3 r p o) = f5 (ix2 r p) * k1_pay14 (F := Ideal) v3 (ix2 r p) := by
  unfold k1_pay17
  exact fcol_apply _ _ _ r p o

/-- The stored value at a pillar and a channel, over the values the kernel computed before it. -/
theorem stored_apply (v28 v42 v44 v49 : FVec Ideal S800x32 .f32) (v95 : FVec Ideal S800x32x64 .f32) (v99 : FVec Ideal S1x1x64 .f32)
    (v101 : FVec Ideal S800x32x64 .f32) (r : Fin 800) (o : Fin 64) :
    k1_pay1 (F := Ideal) x3 v28 v42 v44 v49 v95 v99 v101 x4 x5 (ix2 r o)
      = rowMax fun p => max ((v95 (ix3 r p o) + v101 (ix3 r p o) * v99 (ix3 0 0 o)
          + v28 (ix2 r p) * v49 (ix2 r p) * wgt2 x3 o 6
          + v42 (ix2 r p) * v49 (ix2 r p) * wgt2 x3 o 7
          + v44 (ix2 r p) * v49 (ix2 r p) * wgt2 x3 o 8) * ch2 x4 o + ch2 x5 o) 0 := by
  unfold k1_pay1
  refine (reduceMax_midAxis_apply _ _ _ _ r o).trans ?_
  unfold rowMax
  refine congrArg (fun f => Finset.fold max ⊥ f (Finset.univ : Finset (Fin 32))) (funext fun p => ?_)
  exact congrArg₂ max (congrArg₂ (· + ·) (congrArg₂ (· * ·) (congrArg₂ (· + ·) (congrArg₂ (· + ·) (congrArg₂ (· + ·)
    (congrArg₂ (· + ·) rfl (congrArg₂ (· * ·) rfl (broadcastTo_11c_abc_apply v99 _ r p o)))
    (term_apply x3 v28 v49 6 6 rfl _ _ _ _ _ _ r p o))
    (term_apply x3 v42 v49 7 7 rfl _ _ _ _ _ _ r p o))
    (term_apply x3 v44 v49 8 8 rfl _ _ _ _ _ _ r p o))
    (row_apply x4 _ _ _ r p o))
    (row_apply x5 _ _ _ r p o))
    Ideal.ofBits_zero_f32

end Payloads

/-! ## The layer's nine terms, written out -/

/-- A sum over nine indices, added to zero in order. -/
theorem sum_nine (g : Fin 9 → EReal) : ∑ c, g c = 0 + g 0 + g 1 + g 2 + g 3 + g 4 + g 5 + g 6 + g 7 + g 8 := by
  simp only [Fin.sum_univ_castSucc, Fin.sum_univ_zero]
  rfl

/-- The linear layer's output with its nine masked features written out. -/
theorem X_terms {n : ℕ} (vox : Fin n → Fin 32 → Fin 4 → EReal) (npt : Fin n → BitVec 32) (coo : Fin n → Fin 2 → BitVec 32)
    (wgt : Fin 64 → Fin 9 → EReal) (v : Fin n) (p : Fin 32) (o : Fin 64) :
    X vox npt coo wgt v p o
      = 0 + vox v p 0 * msk npt v p * wgt o 0
          + vox v p 1 * msk npt v p * wgt o 1
          + vox v p 2 * msk npt v p * wgt o 2
          + vox v p 3 * msk npt v p * wgt o 3
          + (vox v p 0 - Ideal.div (rowSum vox v 0) (cnt npt v)) * msk npt v p * wgt o 4
          + (vox v p 1 - Ideal.div (rowSum vox v 1) (cnt npt v)) * msk npt v p * wgt o 5
          + (vox v p 2 - Ideal.div (rowSum vox v 2) (cnt npt v)) * msk npt v p * wgt o 6
          + (vox v p 0 - (cell coo v 0 * cVX + cXoff)) * msk npt v p * wgt o 7
          + (vox v p 1 - (cell coo v 1 * cVX + cYoff)) * msk npt v p * wgt o 8 := by
  unfold X
  rw [sum_nine]
  rfl

/-! ## The stored block at a pillar and a channel -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- What the kernel's one store leaves at pillar `r` and channel `o` of its block, over the blocks it loaded: the maximum
    over the pillar's points of the layer's output times the scale plus the shift, clamped at zero. -/
theorem out1_6_apply (x0 : Vec Ideal S800x32x4 .f32) (x1 : Vec Ideal S800x2 .i32) (x2 : Vec Ideal S800x1 .i32)
    (x3 : Vec Ideal S64x9 .f32) (x4 x5 : Vec Ideal S1x64 .f32) (r : Fin 800) (o : Fin 64) :
    out1_6 (F := Ideal) x0 x1 x2 x3 x4 x5 (ix2 r o)
      = rowMax fun p => max (X (n := 800) (vox3 x0) (npt2 x2) (coo2 x1) (wgt2 x3) r p o * ch2 x4 o + ch2 x5 o) 0 := by
  unfold out1_6
  rw [View.canon_unit_zero zeros2]
  simp only [View.ld_unit_zero (S := S800x32x4) zeros3, View.ld_unit_zero (S := S800x2) zeros2,
    View.ld_unit_zero (S := S800x1) zeros2, View.ld_unit_zero (S := S64x9) zeros2, View.ld_unit_zero (S := S1x64) zeros2]
  rw [stored_apply]
  refine congrArg rowMax (funext fun p => ?_)
  rw [first5_apply, f5_apply, w5_apply, mask_apply, chan0_apply, chan1_apply, chan2_apply, chan3_apply, mean0_apply,
    mean1_apply, mean2_apply, centre0_apply, centre1_apply, X_terms]

end Cert.KernelIdeal.KRegion1Pay

end
-- ==== Proof.KRegion1.lean ====
/-
  The output region's result array after its fifty points: per pillar and channel, the maximum over the pillar's
  points of the layer's output times the scale row plus the shift row, clamped at zero.
-/
import proofs.«172518_j14388140441772_1_alg».proof.Proof.Gen.KernelIdeal.Frame
import proofs.«172518_j14388140441772_1_alg».proof.Proof.Spec
import proofs.«172518_j14388140441772_1_alg».proof.Proof.KRegion1Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.Pillar

namespace Region1

open Idealize.ShloMosaic.ValueIdx Cert.KernelIdeal.KRegion1Pay

/-! ## The layer's output reads one pillar's rows -/

/-- The layer's output at a pillar depends on that pillar's points, count and cell only: two families of arrays that agree
    on a pillar of each give the same output there. -/
theorem X_congr {n n' : ℕ} (vox : Fin n → Fin 32 → Fin 4 → EReal) (npt : Fin n → BitVec 32) (coo : Fin n → Fin 2 → BitVec 32)
    (wgt : Fin 64 → Fin 9 → EReal) (vox' : Fin n' → Fin 32 → Fin 4 → EReal) (npt' : Fin n' → BitVec 32)
    (coo' : Fin n' → Fin 2 → BitVec 32) (v : Fin n) (v' : Fin n') (hv : ∀ p k, vox v p k = vox' v' p k)
    (hn : npt v = npt' v') (hc : ∀ a, coo v a = coo' v' a) (p : Fin 32) (o : Fin 64) :
    X vox npt coo wgt v p o = X vox' npt' coo' wgt v' p o := by
  rw [X_terms, X_terms]
  unfold msk rowSum cnt cell
  simp only [hv, hn, hc]

/-- The stored block at row `r` and channel `o`, when row `r` of the loaded blocks is row `R` of three arrays: the
    clamped maximum at pillar `R` of those arrays. -/
theorem block_apply (x0 : Vec Ideal S800x32x4 .f32) (x1 : Vec Ideal S800x2 .i32) (x2 : Vec Ideal S800x1 .i32)
    (x3 : Vec Ideal S64x9 .f32) (x4 x5 : Vec Ideal S1x64 .f32) (A0 : S40000x32x4.Idx → EReal) (A1 : S40000x2.Idx → BitVec 32)
    (A2 : S40000x1.Idx → BitVec 32) (r : Fin 800) (R : Fin 40000) (o : Fin 64)
    (h0 : ∀ p k, x0 (ix3 r p k) = A0 (ix3 R p k)) (h1 : ∀ a, x1 (ix2 r a) = A1 (ix2 R a)) (h2 : x2 (ix2 r 0) = A2 (ix2 R 0)) :
    out1_6 (F := Ideal) x0 x1 x2 x3 x4 x5 (ix2 r o)
      = affMax (vox3 A0) (npt2 A2) (coo2 A1) (wgt2 x3) (ch2 x4) (ch2 x5) R o := by
  rw [out1_6_apply]
  unfold affMax
  refine congrArg rowMax (funext fun p => ?_)
  rw [X_congr (vox3 x0) (npt2 x2) (coo2 x1) (wgt2 x3) (vox3 A0) (npt2 A2) (coo2 A1) r R h0 h2 h1 p o]

variable (V : (c : Dev nD) → (b : Ref sig .tc) → Buf (Elt Ideal) ((c : Thread nD τ).loc b))

/-! ## The windows' blocks as rows of their arrays -/

/-- The printed index maps over the grid: the pillars' windows and the output's move one block of 800 rows per point,
    the weights', scale's and shift's windows stay. -/
theorem index_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of the points' block at point `t` is row `800 t + r` of the points' array. -/
theorem points_blk_apply (c : Dev nD) (t : Fin cfg1.N) (r : Fin 800) (p : Fin 32) (k : Fin 4) (R : Fin 40000)
    (hR : R.val = 800 * t.val + r.val) :
    (iblk1 V c 0 t : Vec Ideal S800x32x4 .f32) (ix3 r p k) = (V c main_arg0 : S40000x32x4.Idx → EReal) (ix3 R p k) := by
  obtain ⟨e0, e1, e2, -⟩ := index_facts t
  unfold iblk1
  rw [View.read_apply]
  show V c main_arg0 _ = V c main_arg0 _
  congr 1
  funext a
  apply Fin.ext
  match a with
  | ⟨0, _⟩ => show win1_0.index t (0 : Fin 3) * 800 + 1 * r.val = R.val; rw [e0, hR]; omega
  | ⟨1, _⟩ => show win1_0.index t (1 : Fin 3) * 32 + 1 * p.val = p.val; rw [e1]; omega
  | ⟨2, _⟩ => show win1_0.index t (2 : Fin 3) * 4 + 1 * k.val = k.val; rw [e2]; omega

/-- Row `r` of the cells' block at point `t` is row `800 t + r` of the cells' array. -/
theorem cells_blk_apply (c : Dev nD) (t : Fin cfg1.N) (r : Fin 800) (a : Fin 2) (R : Fin 40000)
    (hR : R.val = 800 * t.val + r.val) :
    (iblk1 V c 1 t : Vec Ideal S800x2 .i32) (ix2 r a) = (V c main_arg2 : S40000x2.Idx → BitVec 32) (ix2 R a) := by
  obtain ⟨-, -, -, e0, e1, -⟩ := index_facts t
  unfold iblk1
  rw [View.read_apply]
  show V c main_arg2 _ = V c main_arg2 _
  congr 1
  funext b
  apply Fin.ext
  match b with
  | ⟨0, _⟩ => show win1_1.index t (0 : Fin 2) * 800 + 1 * r.val = R.val; rw [e0, hR]; omega
  | ⟨1, _⟩ => show win1_1.index t (1 : Fin 2) * 2 + 1 * a.val = a.val; rw [e1]; omega

/-- Row `r` of the counts' block at point `t` is row `800 t + r` of the counts' column. -/
theorem counts_blk_apply (c : Dev nD) (t : Fin cfg1.N) (r : Fin 800) (u : Fin 1) (R : Fin 40000)
    (hR : R.val = 800 * t.val + r.val) :
    (iblk1 V c 2 t : Vec Ideal S800x1 .i32) (ix2 r u) = (V c main_v0 : S40000x1.Idx → BitVec 32) (ix2 R u) := by
  obtain ⟨-, -, -, -, -, e0, e1, -⟩ := index_facts t
  unfold iblk1
  rw [View.read_apply]
  show V c main_v0 _ = V c main_v0 _
  congr 1
  funext b
  apply Fin.ext
  match b with
  | ⟨0, _⟩ => show win1_2.index t (0 : Fin 2) * 800 + 1 * r.val = R.val; rw [e0, hR]; omega
  | ⟨1, _⟩ => show win1_2.index t (1 : Fin 2) * 1 + 1 * u.val = u.val; rw [e1]; omega

/-- The weights' block is the weights' array at every point. -/
theorem weights_blk_eq (c : Dev nD) (t : Fin cfg1.N) :
    (iblk1 V c 3 t : Vec Ideal S64x9 .f32) = (V c main_arg3 : S64x9.Idx → EReal) := by
  obtain ⟨-, -, -, -, -, -, -, e0, e1, -⟩ := index_facts t
  unfold iblk1
  funext y
  rw [View.read_apply]
  show V c main_arg3 _ = V c main_arg3 y
  congr 1
  funext b
  apply Fin.ext
  match b with
  | ⟨0, _⟩ => show win1_3.index t (0 : Fin 2) * 64 + 1 * (y 0).val = (y 0).val; rw [e0]; omega
  | ⟨1, _⟩ => show win1_3.index t (1 : Fin 2) * 9 + 1 * (y 1).val = (y 1).val; rw [e1]; omega

/-- The scale's block is the scale row at every point. -/
theorem scale_blk_eq (c : Dev nD) (t : Fin cfg1.N) :
    (iblk1 V c 4 t : Vec Ideal S1x64 .f32) = (V c main_v14 : S1x64.Idx → EReal) := by
  obtain ⟨-, -, -, -, -, -, -, -, -, e0, e1, -⟩ := index_facts t
  unfold iblk1
  funext y
  rw [View.read_apply]
  show V c main_v14 _ = V c main_v14 y
  congr 1
  funext b
  apply Fin.ext
  match b with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- The shift's block is the shift row at every point. -/
theorem shift_blk_eq (c : Dev nD) (t : Fin cfg1.N) :
    (iblk1 V c 5 t : Vec Ideal S1x64 .f32) = (V c main_v18 : S1x64.Idx → EReal) := by
  obtain ⟨-, -, -, -, -, -, -, -, -, -, -, e0, e1, -⟩ := index_facts t
  unfold iblk1
  funext y
  rw [View.read_apply]
  show V c main_v18 _ = V c main_v18 y
  congr 1
  funext b
  apply Fin.ext
  match b with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-! ## From blocks to the array -/

/-- The whole result array: the clamped maximum at every pillar and channel. -/
abbrev result (c : Dev nD) : S40000x64.Idx → EReal := fun j =>
  affMax (vox3 (V c main_arg0)) (npt2 (V c main_v0)) (coo2 (V c main_arg2)) (wgt2 (V c main_arg3))
    (ch2 (V c main_v14)) (ch2 (V c main_v18)) (j 0) (j 1)

/-- What point `t` writes back is block `t` of the whole result array. -/
theorem flushed_eq (c : Dev nD) (t : Fin cfg1.N) :
    (dat1 (F := Ideal) V c).flushed 6 t = ((cfg1.win 6).blk t).view.read (Elt Ideal) (result V c) := by
  show (cfg1.win 6).cut (grid1.coords t) ((dat1 V c).after 6 t) = _
  rw [after1_6]
  obtain ⟨-, -, -, -, -, -, -, -, -, -, -, -, -, e0, e1⟩ := index_facts t
  funext j
  rw [View.read_apply]
  have ht : t.val < 50 := Nat.lt_of_lt_of_eq t.isLt N_1
  have hj0 : (j 0).val < 800 := (j 0).isLt
  have hj1 : (j 1).val < 64 := (j 1).isLt
  have hx : (cfg1.win 6).xinj (grid1.coords t) j = ix2 (⟨(j 0).val, hj0⟩ : Fin 800) (⟨(j 1).val, hj1⟩ : Fin 64) := by
    funext a
    match a with
    | ⟨0, _⟩ => rfl
    | ⟨1, _⟩ => rfl
  have hy : ((cfg1.win 6).blk t).view.emb j
      = ix2 (⟨800 * t.val + (j 0).val, by omega⟩ : Fin 40000) (⟨(j 1).val, hj1⟩ : Fin 64) := by
    funext a
    apply Fin.ext
    match a with
    | ⟨0, _⟩ => show win1_6.index t (0 : Fin 2) * 800 + 1 * (j 0).val = 800 * t.val + (j 0).val; rw [e0]; omega
    | ⟨1, _⟩ => show win1_6.index t (1 : Fin 2) * 64 + 1 * (j 1).val = (j 1).val; rw [e1]; omega
  rw [hy]
  show out1_6 (iblk1 V c 0 t) (iblk1 V c 1 t) (iblk1 V c 2 t) (iblk1 V c 3 t) (iblk1 V c 4 t) (iblk1 V c 5 t)
      ((cfg1.win 6).xinj (grid1.coords t) j) = _
  rw [hx]
  rw [block_apply (iblk1 V c 0 t) (iblk1 V c 1 t) (iblk1 V c 2 t) (iblk1 V c 3 t) (iblk1 V c 4 t) (iblk1 V c 5 t)
    (V c main_arg0) (V c main_arg2) (V c main_v0) ⟨(j 0).val, hj0⟩ ⟨800 * t.val + (j 0).val, by omega⟩ ⟨(j 1).val, hj1⟩
    (fun p k => points_blk_apply V c t _ p k _ rfl) (fun a => cells_blk_apply V c t _ a _ rfl)
    (counts_blk_apply V c t _ 0 _ rfl)]
  rw [weights_blk_eq, scale_blk_eq, shift_blk_eq]
  rfl

/-- An index of the array is in point `t`'s block iff each coordinate is in the block's range on its axis. -/
theorem mem_blk (t : Fin cfg1.N) (i : S40000x64.Idx) :
    i ∈ ((cfg1.win 6).blk t).view.set
      ↔ ∀ a : Fin 2, win1_6.index t a * S800x64.size a ≤ (i a).val ∧ (i a).val < win1_6.index t a * S800x64.size a + S800x64.size a := by
  show i ∈ ((View.whole main_v19).slice (win1_6.rect t)).set ↔ _
  rw [View.set_slice_whole, Rect.mem_set_unit]
  exact Iff.rfl

/-- Every pillar's row is in the block of the point that holds it: row `v` in the block of point `v / 800`. -/
theorem covered (i : S40000x64.Idx) :
    ∃ t : Fin cfg1.N, (cfg1.win 6).flush t = true ∧ i ∈ ((cfg1.win 6).blk t).view.set := by
  have hi0 : (i 0).val < 40000 := (i 0).isLt
  have hi1 : (i 1).val < 64 := (i 1).isLt
  obtain ⟨t, ht⟩ : ∃ t : Fin cfg1.N, t.val = (i 0).val / 800 :=
    ⟨⟨(i 0).val / 800, by rw [show cfg1.N = 50 from N_1]; omega⟩, rfl⟩
  obtain ⟨-, -, -, -, -, -, -, -, -, -, -, -, -, e0, e1⟩ := index_facts t
  refine ⟨t, flush1_6 t, ?_⟩
  rw [mem_blk]
  intro a
  match a with
  | ⟨0, _⟩ =>
    show win1_6.index t (0 : Fin 2) * 800 ≤ (i 0).val ∧ (i 0).val < win1_6.index t (0 : Fin 2) * 800 + 800
    rw [e0, ht]; omega
  | ⟨1, _⟩ =>
    show win1_6.index t (1 : Fin 2) * 64 ≤ (i 1).val ∧ (i 1).val < win1_6.index t (1 : Fin 2) * 64 + 64
    rw [e1]; omega

end Region1

variable (V : (c : Dev nD) → (b : Ref sig .tc) → Buf (Elt Ideal) ((c : Thread nD τ).loc b))

theorem final1 (c : Dev nD) :
    (dat1 (F := Ideal) V c).arrAt 6 cfg1.N
      = fun j => affMax (vox3 (V c main_arg0)) (npt2 (V c main_v0)) (coo2 (V c main_arg2)) (wgt2 (V c main_arg3))
          (ch2 (V c main_v14)) (ch2 (V c main_v18)) (j 0) (j 1) := by
  exact (dat1 (F := Ideal) V c).arrAt_eq_of_cover 6 (Region1.result V c) (fun t _ => Region1.flushed_eq V c t) Region1.covered

end Cert.KernelIdeal.KValue

end
-- ==== Proof.KGlue.lean ====
/-
  The kernel program's result as a function of its arguments.  Between its two regions the program forms, per
  channel, the mean and the variance from the two accumulated sums, the reciprocal deviation, and from them the
  scale and shift rows the second region applies; with the regions' values this makes the result the
  sum-of-squares arrangement `outK` of the arguments.
-/
import proofs.«172518_j14388140441772_1_alg».proof.Proof.KRegion0
import proofs.«172518_j14388140441772_1_alg».proof.Proof.KRegion1
import Idealize.ShloMosaic.Lib.StableHlo.Run
import Idealize.ShloMosaic.Lib.IdealHost

set_option maxRecDepth 16384

noncomputable section

namespace Cert.KernelIdeal.KValue

open Idealize.ShloMosaic Idealize.ShloMosaic.TcCoe Idealize.ShloMosaic.StableHlo Idealize.SL.Sem
open Idealize.ShloMosaic.Pipeline (Dat)
open Idealize.ShloMosaic.ValueIdx
open Cert.KernelIdeal Cert.KernelIdeal.Gen Cert.Pillar

variable (m : (ℓ : Loc nD τ sig) → Buf (Elt Ideal) ℓ) (ρ : Dev nD → PrngReg)

/-! ## The first region's entry: the arguments as launched, the counts as a column -/

theorem W1_arg0 (c : Dev nD) : W1 m ρ c (Proc.devRef .tc main_arg0) = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg3 (c : Dev nD) : W1 m ρ c (Proc.devRef .tc main_arg3) = m ((c : Thread nD τ).loc main_arg3) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg5 (c : Dev nD) : W1 m ρ c (Proc.devRef .tc main_arg5) = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The counts, reshaped to a column. -/
theorem W1_v0 (c : Dev nD) :
    W1 m ρ c (Proc.devRef .tc main_v0)
      = (shapeCast S40000x1 (m ((c : Thread nD τ).loc main_arg1)) shapeCasts_S40000_S40000x1 : IVec S40000x1 32) := by
  show StableHlo.after hostOps0 (W0 m ρ c) (Proc.devRef .tc main_v0) = _
  after_results
  rfl

/-- A vector cast to a column reads the vector's entry at the row. -/
theorem col_apply (a1 : IVec S40000 32) (v : Fin 40000) :
    shapeCast S40000x1 a1 shapeCasts_S40000_S40000x1 (ix2 v (0 : Fin 1)) = a1 (ix1 v) :=
  shapeCast_apply a1 _ _ _ (by rw [Shape.rowMajor_val_two, Shape.rowMajor_val_one]; show v.val = v.val * 1 + 0; omega)

/-! ## The first region's exit: its input arrays as entered, the two accumulators at the sums -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg2 (c : Dev nD) : W2 m ρ c (Proc.devRef .tc main_arg2) = m ((c : Thread nD τ).loc main_arg2) :=
  ((W2_arr m ρ c 1).trans (((dat0 (V1 m ρ) c).arrAt_in 1 rfl _).trans (A_eq0 (V1 m ρ) c 1))).trans (W1_arg2 m ρ c)
theorem W2_v0 (c : Dev nD) : W2 m ρ c (Proc.devRef .tc main_v0)
      = (shapeCast S40000x1 (m ((c : Thread nD τ).loc main_arg1)) shapeCasts_S40000_S40000x1 : IVec S40000x1 32) :=
  ((W2_arr m ρ c 2).trans (((dat0 (V1 m ρ) c).arrAt_in 2 rfl _).trans (A_eq0 (V1 m ρ) c 2))).trans (W1_v0 m ρ c)
theorem W2_arg3 (c : Dev nD) : W2 m ρ c (Proc.devRef .tc main_arg3) = m ((c : Thread nD τ).loc main_arg3) :=
  ((W2_arr m ρ c 3).trans (((dat0 (V1 m ρ) c).arrAt_in 3 rfl _).trans (A_eq0 (V1 m ρ) c 3))).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- The arguments read as plain index functions. -/
abbrev aVox (c : Dev nD) : Fin 40000 → Fin 32 → Fin 4 → EReal := vox3 (m ((c : Thread nD τ).loc main_arg0))
abbrev aNpt (c : Dev nD) : Fin 40000 → BitVec 32 := npt1 (m ((c : Thread nD τ).loc main_arg1))
abbrev aCoo (c : Dev nD) : Fin 40000 → Fin 2 → BitVec 32 := coo2 (m ((c : Thread nD τ).loc main_arg2))
abbrev aWgt (c : Dev nD) : Fin 64 → Fin 9 → EReal := wgt2 (m ((c : Thread nD τ).loc main_arg3))
abbrev aGam (c : Dev nD) : Fin 64 → EReal := ch1 (m ((c : Thread nD τ).loc main_arg4))
abbrev aBet (c : Dev nD) : Fin 64 → EReal := ch1 (m ((c : Thread nD τ).loc main_arg5))

/-- The counts' column read back as the counts. -/
theorem npt2_col (a1 : IVec S40000 32) :
    npt2 (shapeCast S40000x1 a1 shapeCasts_S40000_S40000x1 : IVec S40000x1 32) = npt1 a1 :=
  funext fun v => col_apply a1 v

/-- The sums read the same from equal arrays. -/
theorem S1_congr4 {n : Nat} {vox vox' : Fin n → Fin 32 → Fin 4 → EReal} {npt npt' : Fin n → BitVec 32}
    {coo coo' : Fin n → Fin 2 → BitVec 32} {wgt wgt' : Fin 64 → Fin 9 → EReal}
    (h0 : vox = vox') (h1 : npt = npt') (h2 : coo = coo') (h3 : wgt = wgt') (o : Fin 64) :
    S1 vox npt coo wgt o = S1 vox' npt' coo' wgt' o := by subst h0 h1 h2 h3; rfl
theorem S2_congr4 {n : Nat} {vox vox' : Fin n → Fin 32 → Fin 4 → EReal} {npt npt' : Fin n → BitVec 32}
    {coo coo' : Fin n → Fin 2 → BitVec 32} {wgt wgt' : Fin 64 → Fin 9 → EReal}
    (h0 : vox = vox') (h1 : npt = npt') (h2 : coo = coo') (h3 : wgt = wgt') (o : Fin 64) :
    S2 vox npt coo wgt o = S2 vox' npt' coo' wgt' o := by subst h0 h1 h2 h3; rfl

/-- The sum accumulator after the first region. -/
theorem W2_v1_0 (c : Dev nD) :
    W2 m ρ c (Proc.devRef .tc main_v1_0) = fun j => S1 (aVox m c) (aNpt m c) (aCoo m c) (aWgt m c) (j 1) := by
  refine ((W2_arr m ρ c 4).trans (final0_4 (V1 m ρ) c)).trans (funext fun j => ?_)
  exact S1_congr4 (congrArg vox3 (W1_arg0 m ρ c)) ((congrArg npt2 (W1_v0 m ρ c)).trans (npt2_col _))
    (congrArg coo2 (W1_arg2 m ρ c)) (congrArg wgt2 (W1_arg3 m ρ c)) (j 1)

/-- The sum-of-squares accumulator after the first region. -/
theorem W2_v1_1 (c : Dev nD) :
    W2 m ρ c (Proc.devRef .tc main_v1_1) = fun j => S2 (aVox m c) (aNpt m c) (aCoo m c) (aWgt m c) (j 1) := by
  refine ((W2_arr m ρ c 5).trans (final0_5 (V1 m ρ) c)).trans (funext fun j => ?_)
  exact S2_congr4 (congrArg vox3 (W1_arg0 m ρ c)) ((congrArg npt2 (W1_v0 m ρ c)).trans (npt2_col _))
    (congrArg coo2 (W1_arg2 m ρ c)) (congrArg wgt2 (W1_arg3 m ρ c)) (j 1)

/-! ## The host stretch between the regions -/

/-- The mean row from the sum accumulator. -/
def hMean (s1 : FVec Ideal S1x64 .f32) : FVec Ideal S64 .f32 :=
  Host.divf (shapeCast S64 s1 shapeCasts_S1x64_S64) (broadcastInDim S64 ![] bcast_S_S64 (constant S_ .f32 0x499C4000#32))

/-- The reciprocal deviation row from both accumulators. -/
def hInv (s1 s2 : FVec Ideal S1x64 .f32) : FVec Ideal S64 .f32 :=
  Host.rsqrt (addf (subf (Host.divf (shapeCast S64 s2 shapeCasts_S1x64_S64) (broadcastInDim S64 ![] bcast_S_S64 (constant S_ .f32 0x499C4000#32)))
                        (mulf (hMean s1) (hMean s1)))
                   (broadcastInDim S64 ![] bcast_S_S64 (constant S_ .f32 0x3727C5AC#32)))

/-- The scale row: the reciprocal deviation times gamma. -/
def hScale (s1 s2 : FVec Ideal S1x64 .f32) (g : FVec Ideal S64 .f32) : FVec Ideal S1x64 .f32 :=
  shapeCast S1x64 (mulf (hInv s1 s2) g) shapeCasts_S64_S1x64

/-- The shift row: beta less mean times reciprocal deviation times gamma. -/
def hShift (s1 s2 : FVec Ideal S1x64 .f32) (g b : FVec Ideal S64 .f32) : FVec Ideal S1x64 .f32 :=
  shapeCast S1x64 (subf b (mulf (mulf (hMean s1) (hInv s1 s2)) g)) shapeCasts_S64_S1x64

theorem W3_v14 (c : Dev nD) :
    W3 m ρ c (Proc.devRef .tc main_v14)
      = hScale (W2 m ρ c (Proc.devRef .tc main_v1_0)) (W2 m ρ c (Proc.devRef .tc main_v1_1)) (W2 m ρ c (Proc.devRef .tc main_arg4)) := by
  show StableHlo.after hostOps1 (W2 m ρ c) (Proc.devRef .tc main_v14) = _
  after_results
  rfl

theorem W3_v18 (c : Dev nD) :
    W3 m ρ c (Proc.devRef .tc main_v18)
      = hShift (W2 m ρ c (Proc.devRef .tc main_v1_0)) (W2 m ρ c (Proc.devRef .tc main_v1_1)) (W2 m ρ c (Proc.devRef .tc main_arg4))
          (W2 m ρ c (Proc.devRef .tc main_arg5)) := by
  show StableHlo.after hostOps1 (W2 m ρ c) (Proc.devRef .tc main_v18) = _
  after_results_simp
  rfl

theorem W3_arg0 (c : Dev nD) : W3 m ρ c (Proc.devRef .tc main_arg0) = m ((c : Thread nD τ).loc main_arg0) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg0 m ρ c)
theorem W3_arg2 (c : Dev nD) : W3 m ρ c (Proc.devRef .tc main_arg2) = m ((c : Thread nD τ).loc main_arg2) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)
theorem W3_arg3 (c : Dev nD) : W3 m ρ c (Proc.devRef .tc main_arg3) = m ((c : Thread nD τ).loc main_arg3) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)
theorem W3_v0 (c : Dev nD) : W3 m ρ c (Proc.devRef .tc main_v0)
      = (shapeCast S40000x1 (m ((c : Thread nD τ).loc main_arg1)) shapeCasts_S40000_S40000x1 : IVec S40000x1 32) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v0 m ρ c)

/-! ## The host rows read at a channel -/

theorem hMean_apply (s1 : FVec Ideal S1x64 .f32) (o : Fin 64) : hMean s1 (ix1 o) = Ideal.div (s1 (ix2 (0 : Fin 1) o)) cN := by
  unfold hMean Host.divf
  show Ideal.div (shapeCast S64 s1 shapeCasts_S1x64_S64 (ix1 o)) (broadcastInDim S64 ![] bcast_S_S64 (constant (F := Ideal) S_ .f32 0x499C4000#32) (ix1 o)) = _
  rw [shapeCast_1a_a_apply, broadcastInDim_scalar_apply]
  rfl

theorem hInv_apply (s1 s2 : FVec Ideal S1x64 .f32) (o : Fin 64) :
    hInv s1 s2 (ix1 o)
      = Ideal.rsqrt (Ideal.div (s2 (ix2 (0 : Fin 1) o)) cN - Ideal.div (s1 (ix2 (0 : Fin 1) o)) cN * Ideal.div (s1 (ix2 (0 : Fin 1) o)) cN + cEps) := by
  unfold hInv Host.rsqrt Host.divf
  show Ideal.rsqrt ((Ideal.div (shapeCast S64 s2 shapeCasts_S1x64_S64 (ix1 o)) (broadcastInDim S64 ![] bcast_S_S64 (constant (F := Ideal) S_ .f32 0x499C4000#32) (ix1 o))
      - hMean s1 (ix1 o) * hMean s1 (ix1 o))
      + broadcastInDim S64 ![] bcast_S_S64 (constant (F := Ideal) S_ .f32 0x3727C5AC#32) (ix1 o)) = _
  rw [shapeCast_1a_a_apply, broadcastInDim_scalar_apply, broadcastInDim_scalar_apply, hMean_apply]
  rfl

theorem hScale_apply (s1 s2 : FVec Ideal S1x64 .f32) (g : FVec Ideal S64 .f32) (o : Fin 64) :
    ch2 (hScale s1 s2 g) o = hInv s1 s2 (ix1 o) * g (ix1 o) := by
  show shapeCast S1x64 (mulf (hInv s1 s2) g) shapeCasts_S64_S1x64 (ix2 (0 : Fin 1) o) = _
  rw [shapeCast_a_1a_apply]
  rfl

theorem hShift_apply (s1 s2 : FVec Ideal S1x64 .f32) (g b : FVec Ideal S64 .f32) (o : Fin 64) :
    ch2 (hShift s1 s2 g b) o = b (ix1 o) - hMean s1 (ix1 o) * hInv s1 s2 (ix1 o) * g (ix1 o) := by
  show shapeCast S1x64 (subf b (mulf (mulf (hMean s1) (hInv s1 s2)) g)) shapeCasts_S64_S1x64 (ix2 (0 : Fin 1) o) = _
  rw [shapeCast_a_1a_apply]
  rfl

/-! ## The second region's entry rows are the folded scale and shift -/

theorem scale_eq (c : Dev nD) :
    ch2 (W3 m ρ c (Proc.devRef .tc main_v14)) = scaleK (aVox m c) (aNpt m c) (aCoo m c) (aWgt m c) (aGam m c) := by
  have e : W3 m ρ c (Proc.devRef .tc main_v14)
      = hScale (fun j => S1 (aVox m c) (aNpt m c) (aCoo m c) (aWgt m c) (j 1))
          (fun j => S2 (aVox m c) (aNpt m c) (aCoo m c) (aWgt m c) (j 1)) (m ((c : Thread nD τ).loc main_arg4)) := by
    rw [W3_v14, W2_v1_0, W2_v1_1, W2_arg4]
    rfl
  funext o
  rw [e, hScale_apply, hInv_apply]
  rfl

theorem shift_eq (c : Dev nD) :
    ch2 (W3 m ρ c (Proc.devRef .tc main_v18))
      = shiftK (aVox m c) (aNpt m c) (aCoo m c) (aWgt m c) (aGam m c) (aBet m c) := by
  have e : W3 m ρ c (Proc.devRef .tc main_v18)
      = hShift (fun j => S1 (aVox m c) (aNpt m c) (aCoo m c) (aWgt m c) (j 1))
          (fun j => S2 (aVox m c) (aNpt m c) (aCoo m c) (aWgt m c) (j 1)) (m ((c : Thread nD τ).loc main_arg4))
          (m ((c : Thread nD τ).loc main_arg5)) := by
    rw [W3_v18, W2_v1_0, W2_v1_1, W2_arg4, W2_arg5]
    rfl
  funext o
  rw [e, hShift_apply, hInv_apply, hMean_apply]
  rfl

/-! ## The result -/

theorem affMax_congr6 {vox vox' : Fin 40000 → Fin 32 → Fin 4 → EReal} {npt npt' : Fin 40000 → BitVec 32}
    {coo coo' : Fin 40000 → Fin 2 → BitVec 32} {wgt wgt' : Fin 64 → Fin 9 → EReal} {sc sc' sh sh' : Fin 64 → EReal}
    (h0 : vox = vox') (h1 : npt = npt') (h2 : coo = coo') (h3 : wgt = wgt') (h4 : sc = sc') (h5 : sh = sh')
    (v : Fin 40000) (o : Fin 64) :
    affMax vox npt coo wgt sc sh v o = affMax vox' npt' coo' wgt' sc' sh' v o := by
  subst h0 h1 h2 h3 h4 h5; rfl

/-- The kernel program's result array, after its last region, is the sum-of-squares arrangement of the arguments. -/
theorem result_eq (c : Dev nD) :
    W4 m ρ c (Proc.devRef .tc main_v19)
      = fun j => outK (aVox m c) (aNpt m c) (aCoo m c) (aWgt m c) (aGam m c) (aBet m c) (j 0) (j 1) := by
  refine ((W4_arr m ρ c 6).trans (final1 (V3 m ρ) c)).trans (funext fun j => ?_)
  exact affMax_congr6 (congrArg vox3 (W3_arg0 m ρ c)) ((congrArg npt2 (W3_v0 m ρ c)).trans (npt2_col _))
    (congrArg coo2 (W3_arg2 m ρ c)) (congrArg wgt2 (W3_arg3 m ρ c)) (scale_eq m ρ c) (shift_eq m ρ c) (j 0) (j 1)

end Cert.KernelIdeal.KValue

end
-- ==== Proof.RefTerm.lean ====
/-
  The reference's result as one pure term of its six arguments, built stage by stage from the vector
  operations its @main applies: the nine masked features, the linear layer, the batch mean, the batch
  variance (centred, with its guard on the divisor), the normalised and clamped activations, and the
  maximum over a pillar's points.
-/
import proofs.«172518_j14388140441772_1_alg».proof.ReferenceIdeal

noncomputable section

namespace Cert.ReferenceIdeal.RefValue

open Idealize.ShloMosaic Cert.ReferenceIdeal
open Cert.ReferenceIdeal.Facts₀ Cert.ReferenceIdeal.Facts

variable {F : FTy → Type} [FloatOps F] [Cert.ReferenceIdeal.Facts]

/-- A rank-zero float constant. -/
abbrev kf (b : BitVec 32) : FVec F S_ .f32 := constant S_ .f32 b

/-- The point counts as floats. -/
def rCnt (a1 : IVec S40000 32) : FVec F S40000 .f32 := sitofp .f32 a1

/-- The x, y, z channels. -/
def rXyz (a0 : FVec F S40000x32x4 .f32) : FVec F S40000x32x3 .f32 :=
  extractStridedSlice S40000x32x3 ![0, 0, 0] a0 slices_S40000x32x4_S40000x32x3_0_0_0

/-- Each pillar's channel sums over its rows, divided by its count (kept as a column of extent one). -/
def rMeanPts (a0 : FVec F S40000x32x4 .f32) (a1 : IVec S40000 32) : FVec F S40000x1x3 .f32 :=
  Host.divf
    (broadcastInDim S40000x1x3 ![0, 2] bcast_S40000x3_S40000x1x3_0_2
      (Host.reduceAdd (rXyz a0) (kf 0x00000000#32) reducesTo_S40000x32x3_S40000x3_d1 h_S_))
    (broadcastInDim S40000x1x3 ![0, 1, 2] bcast_S40000x1x1_S40000x1x3_0_1_2
      (broadcastInDim S40000x1x1 ![0] bcast_S40000_S40000x1x1_0 (rCnt a1)))

/-- The offsets from the pillar's mean. -/
def rCluster (a0 : FVec F S40000x32x4 .f32) (a1 : IVec S40000 32) : FVec F S40000x32x3 .f32 :=
  subf (rXyz a0) (broadcastInDim S40000x32x3 ![0, 1, 2] bcast_S40000x1x3_S40000x32x3_0_1_2 (rMeanPts a0 a1))

/-- The cell centre along x: the first cell coordinate times 0.16 plus 0.08. -/
def rCx (a2 : IVec S40000x2 32) : FVec F S40000 .f32 :=
  addf (mulf (sitofp .f32 (shapeCast S40000 (extractStridedSlice S40000x1 ![0, 0] a2 slices_S40000x2_S40000x1_0_0) shapeCasts_S40000x1_S40000))
          (broadcastInDim S40000 ![] bcast_S_S40000 (kf 0x3E23D70A#32)))
    (broadcastInDim S40000 ![] bcast_S_S40000 (kf 0x3DA3D70A#32))

/-- The cell centre along y: the second cell coordinate times 0.16 minus 39.6. -/
def rCy (a2 : IVec S40000x2 32) : FVec F S40000 .f32 :=
  addf (mulf (sitofp .f32 (shapeCast S40000 (extractStridedSlice S40000x1 ![0, 1] a2 slices_S40000x2_S40000x1_0_1) shapeCasts_S40000x1_S40000))
          (broadcastInDim S40000 ![] bcast_S_S40000 (kf 0x3E23D70A#32)))
    (broadcastInDim S40000 ![] bcast_S_S40000 (kf 0xC21E6666#32))

/-- The x offsets from the cell centre. -/
def rFx (a0 : FVec F S40000x32x4 .f32) (a2 : IVec S40000x2 32) : FVec F S40000x32 .f32 :=
  subf (shapeCast S40000x32 (extractStridedSlice S40000x32x1 ![0, 0, 0] a0 slices_S40000x32x4_S40000x32x1_0_0_0) shapeCasts_S40000x32x1_S40000x32)
    (broadcastInDim S40000x32 ![0, 1] bcast_S40000x1_S40000x32_0_1 (broadcastInDim S40000x1 ![0] bcast_S40000_S40000x1_0 (rCx a2)))

/-- The y offsets from the cell centre. -/
def rFy (a0 : FVec F S40000x32x4 .f32) (a2 : IVec S40000x2 32) : FVec F S40000x32 .f32 :=
  subf (shapeCast S40000x32 (extractStridedSlice S40000x32x1 ![0, 0, 1] a0 slices_S40000x32x4_S40000x32x1_0_0_1) shapeCasts_S40000x32x1_S40000x32)
    (broadcastInDim S40000x32 ![0, 1] bcast_S40000x1_S40000x32_0_1 (broadcastInDim S40000x1 ![0] bcast_S40000_S40000x1_0 (rCy a2)))

/-- The two centre offsets side by side. -/
def rCenter (a0 : FVec F S40000x32x4 .f32) (a2 : IVec S40000x2 32) : FVec F S40000x32x2 .f32 :=
  concatenate S40000x32x2 2
    [⟨S40000x32x1, broadcastInDim S40000x32x1 ![0, 1] bcast_S40000x32_S40000x32x1_0_1 (rFx a0 a2)⟩,
     ⟨S40000x32x1, broadcastInDim S40000x32x1 ![0, 1] bcast_S40000x32_S40000x32x1_0_1 (rFy a0 a2)⟩]
    concatenates_S40000x32x1_S40000x32x1_S40000x32x2_d2

/-- The nine features, unmasked: the four channels, the three mean offsets, the two centre offsets. -/
def rFeat9 (a0 : FVec F S40000x32x4 .f32) (a1 : IVec S40000 32) (a2 : IVec S40000x2 32) : FVec F S40000x32x9 .f32 :=
  concatenate S40000x32x9 2
    [⟨S40000x32x4, a0⟩, ⟨S40000x32x3, rCluster a0 a1⟩, ⟨S40000x32x2, rCenter a0 a2⟩]
    concatenates_S40000x32x4_S40000x32x3_S40000x32x2_S40000x32x9_d2

/-- The mask: one where the count exceeds the row number. -/
def rMask (a1 : IVec S40000 32) : FVec F S40000x32 .f32 :=
  uitofp .f32 (cmpi .sgt
    (broadcastInDim S40000x32 ![0, 1] bcast_S40000x1_S40000x32_0_1 (broadcastInDim S40000x1 ![0] bcast_S40000_S40000x1_0 a1))
    (broadcastInDim S40000x32 ![0, 1] bcast_S1x32_S40000x32_0_1 (broadcastInDim S1x32 ![1] bcast_S32_S1x32_1 (iotaInDim S32 32 0))))

/-- The masked features. -/
def rFeat (a0 : FVec F S40000x32x4 .f32) (a1 : IVec S40000 32) (a2 : IVec S40000x2 32) : FVec F S40000x32x9 .f32 :=
  mulf (rFeat9 a0 a1 a2)
    (broadcastInDim S40000x32x9 ![0, 1, 2] bcast_S40000x32x1_S40000x32x9_0_1_2
      (broadcastInDim S40000x32x1 ![0, 1] bcast_S40000x32_S40000x32x1_0_1 (rMask a1)))

/-- The linear layer. -/
def rX (a0 : FVec F S40000x32x4 .f32) (a1 : IVec S40000 32) (a2 : IVec S40000x2 32) (a3 : FVec F S64x9 .f32) :
    FVec F S40000x32x64 .f32 :=
  Host.dotGeneral dot_S40000x32x9_S64x9_S40000x32x64_2_1_01_0_n_n none (rFeat a0 a1 a2) a3

/-- A per-channel row spread over every pillar and point. -/
abbrev spread (r : FVec F S64 .f32) : FVec F S40000x32x64 .f32 :=
  broadcastInDim S40000x32x64 ![0, 1, 2] bcast_S1x1x64_S40000x32x64_0_1_2 (broadcastInDim S1x1x64 ![2] bcast_S64_S1x1x64_2 r)

/-- The batch mean per channel. -/
def rMean (x : FVec F S40000x32x64 .f32) : FVec F S64 .f32 :=
  Host.divf (Host.reduceAdd x (kf 0x00000000#32) reducesTo_S40000x32x64_S64_d0_1 h_S_)
    (broadcastInDim S64 ![] bcast_S_S64 (kf 0x499C4000#32))

/-- The divisor of the variance: the number of points less the (zero) correction. -/
def rDen : FVec F S_ .f32 := subf (kf 0x499C4000#32) (sitofp .f32 (constantI S_ 32 0#32))

/-- The centred activations inside the variance (the mean there is formed through a [1,1,64] row). -/
def rCentred (x : FVec F S40000x32x64 .f32) : FVec F S40000x32x64 .f32 :=
  subf x (broadcastInDim S40000x32x64 ![0, 1, 2] bcast_S1x1x64_S40000x32x64_0_1_2
    (Host.divf (broadcastInDim S1x1x64 ![2] bcast_S64_S1x1x64_2 (Host.reduceAdd x (kf 0x00000000#32) reducesTo_S40000x32x64_S64_d0_1 h_S_))
      (broadcastInDim S1x1x64 ![] bcast_S_S1x1x64 (kf 0x499C4000#32))))

/-- The batch variance per channel: the centred sum of squares over the divisor, kept where the divisor
    is positive and a not-a-number word otherwise. -/
def rVar (x : FVec F S40000x32x64 .f32) : FVec F S64 .f32 :=
  select (broadcastInDim S64 ![] bcast_S_S64 (cmpf .ogt (rDen (F := F)) (kf 0x00000000#32)))
    (Host.divf (Host.reduceAdd (mulf (rCentred x) (rCentred x)) (kf 0x00000000#32) reducesTo_S40000x32x64_S64_d0_1 h_S_)
      (broadcastInDim S64 ![] bcast_S_S64 (rDen (F := F))))
    (broadcastInDim S64 ![] bcast_S_S64 (id (kf 0x7FC00000#32)))

/-- Normalised, scaled, shifted and clamped at zero. -/
def rAct (x : FVec F S40000x32x64 .f32) (a4 a5 : FVec F S64 .f32) : FVec F S40000x32x64 .f32 :=
  maximumf
    (addf (mulf (mulf (subf x (spread (rMean x)))
                      (spread (Host.rsqrt (addf (rVar x) (broadcastInDim S64 ![] bcast_S_S64 (kf 0x3727C5AC#32))))))
                (spread a4))
          (spread a5))
    (broadcastInDim S40000x32x64 ![] bcast_S_S40000x32x64 (kf 0x00000000#32))

/-- The reference's result: the maximum over each pillar's points. -/
def refTerm (a0 : FVec F S40000x32x4 .f32) (a1 : IVec S40000 32) (a2 : IVec S40000x2 32) (a3 : FVec F S64x9 .f32)
    (a4 a5 : FVec F S64 .f32) : FVec F S40000x64 .f32 :=
  Host.reduce FloatOps.maximumf (rAct (rX a0 a1 a2 a3) a4 a5) (kf 0xFF800000#32) reducesTo_S40000x32x64_S40000x64_d1 h_S_

end Cert.ReferenceIdeal.RefValue

end
-- ==== Proof.RefRun.lean ====
/-
  The reference's run: every weakly fair execution of its @main ends with the result buffer at `refTerm` of the
  arguments' launch contents and the arguments unchanged.
-/
import proofs.«172518_j14388140441772_1_alg».proof.Proof.RefTerm
import proofs.«172518_j14388140441772_1_alg».proof.Proof.Gen.ReferenceIdeal
import Idealize.ShloMosaic.Lib.StableHlo.Run

noncomputable section

namespace Cert.ReferenceIdeal.RefValue

open Idealize.ShloMosaic Idealize.ShloMosaic.TcCoe Idealize.ShloMosaic.StableHlo Idealize.SL.Sem
open Cert.ReferenceIdeal Cert.ReferenceIdeal.Gen

variable {F : FTy → Type} [FloatOps F]

/-! ## The operations, in order

The program is one straight line of host operations; the three local functions it calls (the variance, the
selection inside it, the clamp at zero) are written out at their call sites over the buffers of each call. The
line is cut in three stretches: up to the linear layer's output, the batch statistics, the normalisation and the
maximum over points. -/

/-- From the arguments to the linear layer's output: the counts as floats, the mean offsets, the cell-centre
    offsets, the nine features side by side, the mask, the masked features, the contraction with the weights. -/
abbrev segA : List (HloOp τ sig (Elt F)) :=
  [ StableHlo.unary main_arg1 main_v0 (sitofp .f32 : (⟨S40000, .i32⟩ : BufTy).Contents (Elt F) → (⟨S40000, .f32⟩ : BufTy).Contents (Elt F)),
    StableHlo.unary main_arg0 main_v1 ((extractStridedSlice S40000x32x3 ![0, 0, 0] · slices_S40000x32x4_S40000x32x3_0_0_0) : (⟨S40000x32x4, .f32⟩ : BufTy).Contents (Elt F) → (⟨S40000x32x3, .f32⟩ : BufTy).Contents (Elt F)),
    StableHlo.nullary main_cst (constant S_ .f32 0x00000000#32),
    StableHlo.binary main_v1 main_cst main_v2 ((fun x v => Host.reduceAdd x v reducesTo_S40000x32x3_S40000x3_d1 h_S_) : (⟨S40000x32x3, .f32⟩ : BufTy).Contents (Elt F) → (⟨S_, .f32⟩ : BufTy).Contents (Elt F) → (⟨S40000x3, .f32⟩ : BufTy).Contents (Elt F)),
    StableHlo.unary main_v2 main_v3 (broadcastInDim S40000x1x3 ![0, 2] bcast_S40000x3_S40000x1x3_0_2 : (⟨S40000x3, .f32⟩ : BufTy).Contents (Elt F) → (⟨S40000x1x3, .f32⟩ : BufTy).Contents (Elt F)),
    StableHlo.unary main_v0 main_v4 (broadcastInDim S40000x1x1 ![0] bcast_S40000_S40000x1x1_0 : (⟨S40000, .f32⟩ : BufTy).Contents (Elt F) → (⟨S40000x1x1, .f32⟩ : BufTy).Contents (Elt F)),
    StableHlo.unary main_v4 main_v5 (broadcastInDim S40000x1x3 ![0, 1, 2] bcast_S40000x1x1_S40000x1x3_0_1_2 : (⟨S40000x1x1, .f32⟩ : BufTy).Contents (Elt F) → (⟨S40000x1x3, .f32⟩ : BufTy).Contents (Elt F)),
    StableHlo.binary main_v3 main_v5 main_v6 (Host.divf : (⟨S40000x1x3, .f32⟩ : BufTy).Contents (Elt F) → (⟨S40000x1x3, .f32⟩ : BufTy).Contents (Elt F) → (⟨S40000x1x3, .f32⟩ : BufTy).Contents (Elt F)),
    StableHlo.unary main_v6 main_v7 (broadcastInDim S40000x32x3 ![0, 1, 2] bcast_S40000x1x3_S40000x32x3_0_1_2 : (⟨S40000x1x3, .f32⟩ : BufTy).Contents (Elt F) → (⟨S40000x32x3, .f32⟩ : BufTy).Contents (Elt F)),
    StableHlo.binary main_v1 main_v7 main_v8 (subf : (⟨S40000x32x3, .f32⟩ : BufTy).Contents (Elt F) → (⟨S40000x32x3, .f32⟩ : BufTy).Contents (Elt F) → (⟨S40000x32x3, .f32⟩ : BufTy).Contents (Elt F)),
    StableHlo.unary main_arg2 main_v9 ((extractStridedSlice S40000x1 ![0, 0] · slices_S40000x2_S40000x1_0_0) : (⟨S40000x2, .i32⟩ : BufTy).Contents (Elt F) → (⟨S40000x1, .i32⟩ : BufTy).Contents (Elt F)),
    StableHlo.reshape main_v9 main_v10 rfl shapeCasts_S40000x1_S40000,
    StableHlo.unary main_v10 main_v11 (sitofp .f32 : (⟨S40000, .i32⟩ : BufTy).Contents (Elt F) → (⟨S40000, .f32⟩ : BufTy).Contents (Elt F)),
    StableHlo.nullary main_cst_0 (constant S_ .f32 0x3E23D70A#32),
    StableHlo.unary main_cst_0 main_v12 (broadcastInDim S40000 ![] bcast_S_S40000 : (⟨S_, .f32⟩ : BufTy).Contents (Elt F) → (⟨S40000, .f32⟩ : BufTy).Contents (Elt F)),
    StableHlo.binary main_v11 main_v12 main_v13 (mulf : (⟨S40000, .f32⟩ : BufTy).Contents (Elt F) → (⟨S40000, .f32⟩ : BufTy).Contents (Elt F) → (⟨S40000, .f32⟩ : BufTy).Contents (Elt F)),
    StableHlo.nullary main_cst_1 (constant S_ .f32 0x3DA3D70A#32),
    StableHlo.unary main_cst_1 main_v14 (broadcastInDim S40000 ![] bcast_S_S40000 : (⟨S_, .f32⟩ : BufTy).Contents (Elt F) → (⟨S40000, .f32⟩ : BufTy).Contents (Elt F)),
    StableHlo.binary main_v13 main_v14 main_v15 (addf : (⟨S40000, .f32⟩ : BufTy).Contents (Elt F) → (⟨S40000, .f32⟩ : BufTy).Contents (Elt F) → (⟨S40000, .f32⟩ : BufTy).Contents (Elt F)),
    StableHlo.unary main_arg2 main_v16 ((extractStridedSlice S40000x1 ![0, 1] · slices_S40000x2_S40000x1_0_1) : (⟨S40000x2, .i32⟩ : BufTy).Contents (Elt F) → (⟨S40000x1, .i32⟩ : BufTy).Contents (Elt F)),
    StableHlo.reshape main_v16 main_v17 rfl shapeCasts_S40000x1_S40000,
    StableHlo.unary main_v17 main_v18 (sitofp .f32 : (⟨S40000, .i32⟩ : BufTy).Contents (Elt F) → (⟨S40000, .f32⟩ : BufTy).Contents (Elt F)),
    StableHlo.nullary main_cst_2 (constant S_ .f32 0x3E23D70A#32),
    StableHlo.unary main_cst_2 main_v19 (broadcastInDim S40000 ![] bcast_S_S40000 : (⟨S_, .f32⟩ : BufTy).Contents (Elt F) → (⟨S40000, .f32⟩ : BufTy).Contents (Elt F)),
    StableHlo.binary main_v18 main_v19 main_v20 (mulf : (⟨S40000, .f32⟩ : BufTy).Contents (Elt F) → (⟨S40000, .f32⟩ : BufTy).Contents (Elt F) → (⟨S40000, .f32⟩ : BufTy).Contents (Elt F)),
    StableHlo.nullary main_cst_3 (constant S_ .f32 0xC21E6666#32),
    StableHlo.unary main_cst_3 main_v21 (broadcastInDim S40000 ![] bcast_S_S40000 : (⟨S_, .f32⟩ : BufTy).Contents (Elt F) → (⟨S40000, .f32⟩ : BufTy).Contents (Elt F)),
    StableHlo.binary main_v20 main_v21 main_v22 (addf : (⟨S40000, .f32⟩ : BufTy).Contents (Elt F) → (⟨S40000, .f32⟩ : BufTy).Contents (Elt F) → (⟨S40000, .f32⟩ : BufTy).Contents (Elt F)),
    StableHlo.unary main_arg0 main_v23 ((extractStridedSlice S40000x32x1 ![0, 0, 0] · slices_S40000x32x4_S40000x32x1_0_0_0) : (⟨S40000x32x4, .f32⟩ : BufTy).Contents (Elt F) → (⟨S40000x32x1, .f32⟩ : BufTy).Contents (Elt F)),
    StableHlo.reshape main_v23 main_v24 rfl shapeCasts_S40000x32x1_S40000x32,
    StableHlo.unary main_v15 main_v25 (broadcastInDim S40000x1 ![0] bcast_S40000_S40000x1_0 : (⟨S40000, .f32⟩ : BufTy).Contents (Elt F) → (⟨S40000x1, .f32⟩ : BufTy).Contents (Elt F)),
    StableHlo.unary main_v25 main_v26 (broadcastInDim S40000x32 ![0, 1] bcast_S40000x1_S40000x32_0_1 : (⟨S40000x1, .f32⟩ : BufTy).Contents (Elt F) → (⟨S40000x32, .f32⟩ : BufTy).Contents (Elt F)),
    StableHlo.binary main_v24 main_v26 main_v27 (subf : (⟨S40000x32, .f32⟩ : BufTy).Contents (Elt F) → (⟨S40000x32, .f32⟩ : BufTy).Contents (Elt F) → (⟨S40000x32, .f32⟩ : BufTy).Contents (Elt F)),
    StableHlo.unary main_arg0 main_v28 ((extractStridedSlice S40000x32x1 ![0, 0, 1] · slices_S40000x32x4_S40000x32x1_0_0_1) : (⟨S40000x32x4, .f32⟩ : BufTy).Contents (Elt F) → (⟨S40000x32x1, .f32⟩ : BufTy).Contents (Elt F)),
    StableHlo.reshape main_v28 main_v29 rfl shapeCasts_S40000x32x1_S40000x32,
    StableHlo.unary main_v22 main_v30 (broadcastInDim S40000x1 ![0] bcast_S40000_S40000x1_0 : (⟨S40000, .f32⟩ : BufTy).Contents (Elt F) → (⟨S40000x1, .f32⟩ : BufTy).Contents (Elt F)),
    StableHlo.unary main_v30 main_v31 (broadcastInDim S40000x32 ![0, 1] bcast_S40000x1_S40000x32_0_1 : (⟨S40000x1, .f32⟩ : BufTy).Contents (Elt F) → (⟨S40000x32, .f32⟩ : BufTy).Contents (Elt F)),
    StableHlo.binary main_v29 main_v31 main_v32 (subf : (⟨S40000x32, .f32⟩ : BufTy).Contents (Elt F) → (⟨S40000x32, .f32⟩ : BufTy).Contents (Elt F) → (⟨S40000x32, .f32⟩ : BufTy).Contents (Elt F)),
    StableHlo.unary main_v27 main_v33 (broadcastInDim S40000x32x1 ![0, 1] bcast_S40000x32_S40000x32x1_0_1 : (⟨S40000x32, .f32⟩ : BufTy).Contents (Elt F) → (⟨S40000x32x1, .f32⟩ : BufTy).Contents (Elt F)),
    StableHlo.unary main_v32 main_v34 (broadcastInDim S40000x32x1 ![0, 1] bcast_S40000x32_S40000x32x1_0_1 : (⟨S40000x32, .f32⟩ : BufTy).Contents (Elt F) → (⟨S40000x32x1, .f32⟩ : BufTy).Contents (Elt F)),
    StableHlo.binary main_v33 main_v34 main_v35 ((fun a b => concatenate S40000x32x2 2 [⟨S40000x32x1, a⟩, ⟨S40000x32x1, b⟩] concatenates_S40000x32x1_S40000x32x1_S40000x32x2_d2) : (⟨S40000x32x1, .f32⟩ : BufTy).Contents (Elt F) → (⟨S40000x32x1, .f32⟩ : BufTy).Contents (Elt F) → (⟨S40000x32x2, .f32⟩ : BufTy).Contents (Elt F)),
    StableHlo.nary ![main_arg0, main_v8, main_v35] main_v36 (fun u => concatenate S40000x32x9 2 [⟨S40000x32x4, u 0⟩, ⟨S40000x32x3, u 1⟩, ⟨S40000x32x2, u 2⟩] concatenates_S40000x32x4_S40000x32x3_S40000x32x2_S40000x32x9_d2),
    StableHlo.nullary main_v37 (iotaInDim S32 32 0),
    StableHlo.unary main_v37 main_v38 (broadcastInDim S1x32 ![1] bcast_S32_S1x32_1 : (⟨S32, .i32⟩ : BufTy).Contents (Elt F) → (⟨S1x32, .i32⟩ : BufTy).Contents (Elt F)),
    StableHlo.unary main_arg1 main_v39 (broadcastInDim S40000x1 ![0] bcast_S40000_S40000x1_0 : (⟨S40000, .i32⟩ : BufTy).Contents (Elt F) → (⟨S40000x1, .i32⟩ : BufTy).Contents (Elt F)),
    StableHlo.unary main_v39 main_v40 (broadcastInDim S40000x32 ![0, 1] bcast_S40000x1_S40000x32_0_1 : (⟨S40000x1, .i32⟩ : BufTy).Contents (Elt F) → (⟨S40000x32, .i32⟩ : BufTy).Contents (Elt F)),
    StableHlo.unary main_v38 main_v41 (broadcastInDim S40000x32 ![0, 1] bcast_S1x32_S40000x32_0_1 : (⟨S1x32, .i32⟩ : BufTy).Contents (Elt F) → (⟨S40000x32, .i32⟩ : BufTy).Contents (Elt F)),
    StableHlo.binary main_v40 main_v41 main_v42 (cmpi .sgt : (⟨S40000x32, .i32⟩ : BufTy).Contents (Elt F) → (⟨S40000x32, .i32⟩ : BufTy).Contents (Elt F) → (⟨S40000x32, .i1⟩ : BufTy).Contents (Elt F)),
    StableHlo.unary main_v42 main_v43 (uitofp .f32 : (⟨S40000x32, .i1⟩ : BufTy).Contents (Elt F) → (⟨S40000x32, .f32⟩ : BufTy).Contents (Elt F)),
    StableHlo.unary main_v43 main_v44 (broadcastInDim S40000x32x1 ![0, 1] bcast_S40000x32_S40000x32x1_0_1 : (⟨S40000x32, .f32⟩ : BufTy).Contents (Elt F) → (⟨S40000x32x1, .f32⟩ : BufTy).Contents (Elt F)),
    StableHlo.unary main_v44 main_v45 (broadcastInDim S40000x32x9 ![0, 1, 2] bcast_S40000x32x1_S40000x32x9_0_1_2 : (⟨S40000x32x1, .f32⟩ : BufTy).Contents (Elt F) → (⟨S40000x32x9, .f32⟩ : BufTy).Contents (Elt F)),
    StableHlo.binary main_v36 main_v45 main_v46 (mulf : (⟨S40000x32x9, .f32⟩ : BufTy).Contents (Elt F) → (⟨S40000x32x9, .f32⟩ : BufTy).Contents (Elt F) → (⟨S40000x32x9, .f32⟩ : BufTy).Contents (Elt F)),
    StableHlo.binary main_v46 main_arg3 main_v47 ((fun l r => Host.dotGeneral dot_S40000x32x9_S64x9_S40000x32x64_2_1_01_0_n_n none l r) : (⟨S40000x32x9, .f32⟩ : BufTy).Contents (Elt F) → (⟨S64x9, .f32⟩ : BufTy).Contents (Elt F) → (⟨S40000x32x64, .f32⟩ : BufTy).Contents (Elt F)) ]

/-- The batch statistics of the linear layer's output: the mean per channel, then the variance per channel
    (the centred sum of squares over its divisor, selected against the divisor's sign). -/
abbrev segB : List (HloOp τ sig (Elt F)) :=
  [ StableHlo.nullary main_cst_4 (constant S_ .f32 0x00000000#32),
    StableHlo.binary main_v47 main_cst_4 main_v48 ((fun x v => Host.reduceAdd x v reducesTo_S40000x32x64_S64_d0_1 h_S_) : (⟨S40000x32x64, .f32⟩ : BufTy).Contents (Elt F) → (⟨S_, .f32⟩ : BufTy).Contents (Elt F) → (⟨S64, .f32⟩ : BufTy).Contents (Elt F)),
    StableHlo.nullary main_cst_5 (constant S_ .f32 0x499C4000#32),
    StableHlo.unary main_cst_5 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v47 : TRef sig ⟨S40000x32x64, .f32⟩) main_call0.cst main_call0.v0 (fun x v => Host.reduceAdd x v reducesTo_S40000x32x64_S64_d0_1 h_S_),
    StableHlo.TRef.unary main_call0.v0 main_call0.v1 (broadcastInDim S1x1x64 ![2] bcast_S64_S1x1x64_2),
    StableHlo.TRef.nullary main_call0.cst_0 (constant S_ .f32 0x499C4000#32),
    StableHlo.TRef.unary main_call0.cst_0 main_call0.v2 (broadcastInDim S1x1x64 ![] bcast_S_S1x1x64),
    StableHlo.TRef.binary main_call0.v1 main_call0.v2 main_call0.v3 Host.divf,
    StableHlo.TRef.unary main_call0.v3 main_call0.v4 (broadcastInDim S40000x32x64 ![0, 1, 2] bcast_S1x1x64_S40000x32x64_0_1_2),
    StableHlo.TRef.binary (.of main_v47 : TRef sig ⟨S40000x32x64, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x499C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x32x64_S64_d0_1 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]

/-- The normalisation by the batch statistics, the scale and the shift, the clamp at zero, and the maximum over
    each pillar's points. -/
abbrev segC : List (HloOp τ sig (Elt F)) :=
  [ StableHlo.unary main_v50 main_v52 (broadcastInDim S1x1x64 ![2] bcast_S64_S1x1x64_2 : (⟨S64, .f32⟩ : BufTy).Contents (Elt F) → (⟨S1x1x64, .f32⟩ : BufTy).Contents (Elt F)),
    StableHlo.unary main_v52 main_v53 (broadcastInDim S40000x32x64 ![0, 1, 2] bcast_S1x1x64_S40000x32x64_0_1_2 : (⟨S1x1x64, .f32⟩ : BufTy).Contents (Elt F) → (⟨S40000x32x64, .f32⟩ : BufTy).Contents (Elt F)),
    StableHlo.binary main_v47 main_v53 main_v54 (subf : (⟨S40000x32x64, .f32⟩ : BufTy).Contents (Elt F) → (⟨S40000x32x64, .f32⟩ : BufTy).Contents (Elt F) → (⟨S40000x32x64, .f32⟩ : BufTy).Contents (Elt F)),
    StableHlo.nullary main_cst_6 (constant S_ .f32 0x3727C5AC#32),
    StableHlo.unary main_cst_6 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.rsqrt : (⟨S64, .f32⟩ : BufTy).Contents (Elt F) → (⟨S64, .f32⟩ : BufTy).Contents (Elt F)),
    StableHlo.unary main_v57 main_v58 (broadcastInDim S1x1x64 ![2] bcast_S64_S1x1x64_2 : (⟨S64, .f32⟩ : BufTy).Contents (Elt F) → (⟨S1x1x64, .f32⟩ : BufTy).Contents (Elt F)),
    StableHlo.unary main_v58 main_v59 (broadcastInDim S40000x32x64 ![0, 1, 2] bcast_S1x1x64_S40000x32x64_0_1_2 : (⟨S1x1x64, .f32⟩ : BufTy).Contents (Elt F) → (⟨S40000x32x64, .f32⟩ : BufTy).Contents (Elt F)),
    StableHlo.binary main_v54 main_v59 main_v60 (mulf : (⟨S40000x32x64, .f32⟩ : BufTy).Contents (Elt F) → (⟨S40000x32x64, .f32⟩ : BufTy).Contents (Elt F) → (⟨S40000x32x64, .f32⟩ : BufTy).Contents (Elt F)),
    StableHlo.unary main_arg4 main_v61 (broadcastInDim S1x1x64 ![2] bcast_S64_S1x1x64_2 : (⟨S64, .f32⟩ : BufTy).Contents (Elt F) → (⟨S1x1x64, .f32⟩ : BufTy).Contents (Elt F)),
    StableHlo.unary main_v61 main_v62 (broadcastInDim S40000x32x64 ![0, 1, 2] bcast_S1x1x64_S40000x32x64_0_1_2 : (⟨S1x1x64, .f32⟩ : BufTy).Contents (Elt F) → (⟨S40000x32x64, .f32⟩ : BufTy).Contents (Elt F)),
    StableHlo.binary main_v60 main_v62 main_v63 (mulf : (⟨S40000x32x64, .f32⟩ : BufTy).Contents (Elt F) → (⟨S40000x32x64, .f32⟩ : BufTy).Contents (Elt F) → (⟨S40000x32x64, .f32⟩ : BufTy).Contents (Elt F)),
    StableHlo.unary main_arg5 main_v64 (broadcastInDim S1x1x64 ![2] bcast_S64_S1x1x64_2 : (⟨S64, .f32⟩ : BufTy).Contents (Elt F) → (⟨S1x1x64, .f32⟩ : BufTy).Contents (Elt F)),
    StableHlo.unary main_v64 main_v65 (broadcastInDim S40000x32x64 ![0, 1, 2] bcast_S1x1x64_S40000x32x64_0_1_2 : (⟨S1x1x64, .f32⟩ : BufTy).Contents (Elt F) → (⟨S40000x32x64, .f32⟩ : BufTy).Contents (Elt F)),
    StableHlo.binary main_v63 main_v65 main_v66 (addf : (⟨S40000x32x64, .f32⟩ : BufTy).Contents (Elt F) → (⟨S40000x32x64, .f32⟩ : BufTy).Contents (Elt F) → (⟨S40000x32x64, .f32⟩ : BufTy).Contents (Elt F)),
    StableHlo.TRef.nullary main_call1.cst (constant S_ .f32 0x00000000#32),
    StableHlo.TRef.unary main_call1.cst main_call1.v0 (broadcastInDim S40000x32x64 ![] bcast_S_S40000x32x64),
    StableHlo.TRef.binary (.of main_v66 : TRef sig ⟨S40000x32x64, .f32⟩) main_call1.v0 main_call1.v1 maximumf,
    StableHlo.nullary main_cst_7 (constant S_ .f32 0xFF800000#32),
    StableHlo.binary main_v67 main_cst_7 main_v68 ((fun x v => Host.reduce FloatOps.maximumf x v reducesTo_S40000x32x64_S40000x64_d1 h_S_) : (⟨S40000x32x64, .f32⟩ : BufTy).Contents (Elt F) → (⟨S_, .f32⟩ : BufTy).Contents (Elt F) → (⟨S40000x64, .f32⟩ : BufTy).Contents (Elt F)) ]

/-- The first window of the program: the first two stretches. -/
abbrev ops0 : List (HloOp τ sig (Elt F)) := segA ++ segB

/-- The whole program's operations. -/
abbrev ops : List (HloOp τ sig (Elt F)) := ops0 ++ segC

/-! ## The program is that line -/

set_option maxRecDepth 8192 in
set_option maxHeartbeats 4000000 in
/-- The first window is its operations in sequence: the local functions unfolded at their calls, sequencing
    reassociated. -/
theorem part0_eq (c : Dev nD) : main_part0 (F := F) c = seq ops0 := by
  simp only [main_part0, fn_var.body, fn_where.body, seq, bind_assoc, pure_bind]
  rfl

set_option maxRecDepth 8192 in
set_option maxHeartbeats 4000000 in
/-- The second window is the last stretch in sequence. -/
theorem part1_eq (c : Dev nD) : main_part1 (F := F) c = seq segC := by
  simp only [main_part1, fn_relu.body, seq, bind_assoc, pure_bind]

/-- The program is the sequence of all its operations: two lines run one after the other are their concatenation. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines what it writes -/

theorem segA_sub : (segA : List (HloOp τ sig (Elt F))).Forall fun op => op.bufs ⊆ tcRefs τ sig :=
  ⟨unary_bufs_sub .., unary_bufs_sub .., nullary_bufs_sub .., binary_bufs_sub .., unary_bufs_sub .., unary_bufs_sub .., unary_bufs_sub .., binary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., unary_bufs_sub .., binary_bufs_sub .., nary_bufs_sub .., nullary_bufs_sub .., unary_bufs_sub .., unary_bufs_sub .., unary_bufs_sub .., unary_bufs_sub .., binary_bufs_sub .., unary_bufs_sub .., unary_bufs_sub .., unary_bufs_sub .., binary_bufs_sub .., binary_bufs_sub ..⟩

theorem segB_sub : (segB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem segC_sub : (segC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

theorem ops_sub : (ops : List (HloOp τ sig (Elt F))).Forall fun op => op.bufs ⊆ tcRefs τ sig :=
  List.forall_append.mpr ⟨List.forall_append.mpr ⟨segA_sub, segB_sub⟩, segC_sub⟩

theorem segA_fresh : (segA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem segB_fresh : (segB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem segC_fresh : (segC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ :=
  List.forall_iff_forall_mem.mp (List.forall_append.mpr ⟨List.forall_append.mpr ⟨segA_fresh, segB_fresh⟩, segC_fresh⟩)

/-! ## The contents after a stretch, from any contents before it -/

/-- The contents after two lines run one after the other are the second line's, started from the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

attribute [local irreducible] Host.reduce Host.reduceAdd concatenate Host.rsqrt Host.divf in
set_option maxRecDepth 8192 in
set_option maxHeartbeats 1000000 in
/-- After the first stretch the linear layer's output holds the linear layer of the masked features of the
    arguments: each operation's value at the buffer it writes, every other buffer as it was. -/
theorem segA_v47 (W : Valuation τ sig (Elt F)) :
    after segA W (main_v47 : DevRef τ sig) = rX (W (main_arg0 : DevRef τ sig)) (W (main_arg1 : DevRef τ sig)) (W (main_arg2 : DevRef τ sig)) (W (main_arg3 : DevRef τ sig)) := by
  simp only [after_cons, after_nil]
  rfl

attribute [local irreducible] Host.reduce Host.reduceAdd concatenate Host.rsqrt Host.divf in
set_option maxRecDepth 8192 in
set_option maxHeartbeats 1000000 in
/-- After the second stretch the mean's buffer holds the batch mean of the linear layer's output. -/
theorem segB_v50 (W : Valuation τ sig (Elt F)) :
    after segB W (main_v50 : DevRef τ sig) = rMean (W (main_v47 : DevRef τ sig)) := by
  simp only [after_cons, after_nil]
  rfl

attribute [local irreducible] Host.reduce Host.reduceAdd concatenate Host.rsqrt Host.divf in
set_option maxRecDepth 8192 in
set_option maxHeartbeats 1000000 in
/-- After the second stretch the variance's buffer holds the batch variance of the linear layer's output. -/
theorem segB_v51 (W : Valuation τ sig (Elt F)) :
    after segB W (main_v51 : DevRef τ sig) = rVar (W (main_v47 : DevRef τ sig)) := by
  simp only [after_cons, after_nil]
  rfl

attribute [local irreducible] Host.reduce Host.reduceAdd concatenate Host.rsqrt Host.divf in
set_option maxRecDepth 8192 in
set_option maxHeartbeats 1000000 in
/-- The second stretch leaves the linear layer's output as it was. -/
theorem segB_v47 (W : Valuation τ sig (Elt F)) :
    after segB W (main_v47 : DevRef τ sig) = (W (main_v47 : DevRef τ sig)) := by
  simp only [after_cons, after_nil]
  rfl

attribute [local irreducible] Host.reduce Host.reduceAdd concatenate Host.rsqrt Host.divf in
set_option maxRecDepth 8192 in
set_option maxHeartbeats 1000000 in
/-- After the last stretch the result holds the maximum over points of the normalised, scaled, shifted and clamped
    activations, formed from the linear layer's output, the mean, the variance, the scale and the shift. -/
theorem segC_v68 (W : Valuation τ sig (Elt F)) :
    after segC W (main_v68 : DevRef τ sig)
      = Host.reduce FloatOps.maximumf
          (maximumf
            (addf (mulf (mulf (subf (W (main_v47 : DevRef τ sig)) (spread (W (main_v50 : DevRef τ sig))))
                              (spread (Host.rsqrt (addf (W (main_v51 : DevRef τ sig)) (broadcastInDim S64 ![] bcast_S_S64 (kf 0x3727C5AC#32))))))
                        (spread (W (main_arg4 : DevRef τ sig))))
                  (spread (W (main_arg5 : DevRef τ sig))))
            (broadcastInDim S40000x32x64 ![] bcast_S_S40000x32x64 (kf 0x00000000#32)))
          (kf 0xFF800000#32) reducesTo_S40000x32x64_S40000x64_d1 h_S_ := by
  simp only [after_cons, after_nil]
  rfl

/-! ## No stretch writes an argument -/

attribute [local irreducible] Host.reduce Host.reduceAdd concatenate Host.rsqrt Host.divf in
set_option maxRecDepth 8192 in
set_option maxHeartbeats 1000000 in
theorem segA_arg0 (W : Valuation τ sig (Elt F)) :
    after segA W (main_arg0 : DevRef τ sig) = W (main_arg0 : DevRef τ sig) := by
  simp only [after_cons, after_nil]
  rfl

attribute [local irreducible] Host.reduce Host.reduceAdd concatenate Host.rsqrt Host.divf in
set_option maxRecDepth 8192 in
set_option maxHeartbeats 1000000 in
theorem segA_arg1 (W : Valuation τ sig (Elt F)) :
    after segA W (main_arg1 : DevRef τ sig) = W (main_arg1 : DevRef τ sig) := by
  simp only [after_cons, after_nil]
  rfl

attribute [local irreducible] Host.reduce Host.reduceAdd concatenate Host.rsqrt Host.divf in
set_option maxRecDepth 8192 in
set_option maxHeartbeats 1000000 in
theorem segA_arg2 (W : Valuation τ sig (Elt F)) :
    after segA W (main_arg2 : DevRef τ sig) = W (main_arg2 : DevRef τ sig) := by
  simp only [after_cons, after_nil]
  rfl

attribute [local irreducible] Host.reduce Host.reduceAdd concatenate Host.rsqrt Host.divf in
set_option maxRecDepth 8192 in
set_option maxHeartbeats 1000000 in
theorem segA_arg3 (W : Valuation τ sig (Elt F)) :
    after segA W (main_arg3 : DevRef τ sig) = W (main_arg3 : DevRef τ sig) := by
  simp only [after_cons, after_nil]
  rfl

attribute [local irreducible] Host.reduce Host.reduceAdd concatenate Host.rsqrt Host.divf in
set_option maxRecDepth 8192 in
set_option maxHeartbeats 1000000 in
theorem segA_arg4 (W : Valuation τ sig (Elt F)) :
    after segA W (main_arg4 : DevRef τ sig) = W (main_arg4 : DevRef τ sig) := by
  simp only [after_cons, after_nil]
  rfl

attribute [local irreducible] Host.reduce Host.reduceAdd concatenate Host.rsqrt Host.divf in
set_option maxRecDepth 8192 in
set_option maxHeartbeats 1000000 in
theorem segA_arg5 (W : Valuation τ sig (Elt F)) :
    after segA W (main_arg5 : DevRef τ sig) = W (main_arg5 : DevRef τ sig) := by
  simp only [after_cons, after_nil]
  rfl

attribute [local irreducible] Host.reduce Host.reduceAdd concatenate Host.rsqrt Host.divf in
set_option maxRecDepth 8192 in
set_option maxHeartbeats 1000000 in
theorem segB_arg0 (W : Valuation τ sig (Elt F)) :
    after segB W (main_arg0 : DevRef τ sig) = W (main_arg0 : DevRef τ sig) := by
  simp only [after_cons, after_nil]
  rfl

attribute [local irreducible] Host.reduce Host.reduceAdd concatenate Host.rsqrt Host.divf in
set_option maxRecDepth 8192 in
set_option maxHeartbeats 1000000 in
theorem segB_arg1 (W : Valuation τ sig (Elt F)) :
    after segB W (main_arg1 : DevRef τ sig) = W (main_arg1 : DevRef τ sig) := by
  simp only [after_cons, after_nil]
  rfl

attribute [local irreducible] Host.reduce Host.reduceAdd concatenate Host.rsqrt Host.divf in
set_option maxRecDepth 8192 in
set_option maxHeartbeats 1000000 in
theorem segB_arg2 (W : Valuation τ sig (Elt F)) :
    after segB W (main_arg2 : DevRef τ sig) = W (main_arg2 : DevRef τ sig) := by
  simp only [after_cons, after_nil]
  rfl

attribute [local irreducible] Host.reduce Host.reduceAdd concatenate Host.rsqrt Host.divf in
set_option maxRecDepth 8192 in
set_option maxHeartbeats 1000000 in
theorem segB_arg3 (W : Valuation τ sig (Elt F)) :
    after segB W (main_arg3 : DevRef τ sig) = W (main_arg3 : DevRef τ sig) := by
  simp only [after_cons, after_nil]
  rfl

attribute [local irreducible] Host.reduce Host.reduceAdd concatenate Host.rsqrt Host.divf in
set_option maxRecDepth 8192 in
set_option maxHeartbeats 1000000 in
theorem segB_arg4 (W : Valuation τ sig (Elt F)) :
    after segB W (main_arg4 : DevRef τ sig) = W (main_arg4 : DevRef τ sig) := by
  simp only [after_cons, after_nil]
  rfl

attribute [local irreducible] Host.reduce Host.reduceAdd concatenate Host.rsqrt Host.divf in
set_option maxRecDepth 8192 in
set_option maxHeartbeats 1000000 in
theorem segB_arg5 (W : Valuation τ sig (Elt F)) :
    after segB W (main_arg5 : DevRef τ sig) = W (main_arg5 : DevRef τ sig) := by
  simp only [after_cons, after_nil]
  rfl

attribute [local irreducible] Host.reduce Host.reduceAdd concatenate Host.rsqrt Host.divf in
set_option maxRecDepth 8192 in
set_option maxHeartbeats 1000000 in
theorem segC_arg0 (W : Valuation τ sig (Elt F)) :
    after segC W (main_arg0 : DevRef τ sig) = W (main_arg0 : DevRef τ sig) := by
  simp only [after_cons, after_nil]
  rfl

attribute [local irreducible] Host.reduce Host.reduceAdd concatenate Host.rsqrt Host.divf in
set_option maxRecDepth 8192 in
set_option maxHeartbeats 1000000 in
theorem segC_arg1 (W : Valuation τ sig (Elt F)) :
    after segC W (main_arg1 : DevRef τ sig) = W (main_arg1 : DevRef τ sig) := by
  simp only [after_cons, after_nil]
  rfl

attribute [local irreducible] Host.reduce Host.reduceAdd concatenate Host.rsqrt Host.divf in
set_option maxRecDepth 8192 in
set_option maxHeartbeats 1000000 in
theorem segC_arg2 (W : Valuation τ sig (Elt F)) :
    after segC W (main_arg2 : DevRef τ sig) = W (main_arg2 : DevRef τ sig) := by
  simp only [after_cons, after_nil]
  rfl

attribute [local irreducible] Host.reduce Host.reduceAdd concatenate Host.rsqrt Host.divf in
set_option maxRecDepth 8192 in
set_option maxHeartbeats 1000000 in
theorem segC_arg3 (W : Valuation τ sig (Elt F)) :
    after segC W (main_arg3 : DevRef τ sig) = W (main_arg3 : DevRef τ sig) := by
  simp only [after_cons, after_nil]
  rfl

attribute [local irreducible] Host.reduce Host.reduceAdd concatenate Host.rsqrt Host.divf in
set_option maxRecDepth 8192 in
set_option maxHeartbeats 1000000 in
theorem segC_arg4 (W : Valuation τ sig (Elt F)) :
    after segC W (main_arg4 : DevRef τ sig) = W (main_arg4 : DevRef τ sig) := by
  simp only [after_cons, after_nil]
  rfl

attribute [local irreducible] Host.reduce Host.reduceAdd concatenate Host.rsqrt Host.divf in
set_option maxRecDepth 8192 in
set_option maxHeartbeats 1000000 in
theorem segC_arg5 (W : Valuation τ sig (Elt F)) :
    after segC W (main_arg5 : DevRef τ sig) = W (main_arg5 : DevRef τ sig) := by
  simp only [after_cons, after_nil]
  rfl

/-! ## The whole line -/

/-- After the whole line the result buffer holds the reference's term of the six arguments: the three stretches
    composed, the mean and the variance read where the second stretch left them. -/
theorem result_eq (V : Valuation τ sig (Elt F)) :
    after ops V (main_v68 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_app, after_app, segC_v68, segB_v47, segB_v50, segB_v51, segB_arg4, segB_arg5, segA_v47, segA_arg4, segA_arg5]
  rfl

theorem arg0_eq (V : Valuation τ sig (Elt F)) :
    after ops V (main_arg0 : DevRef τ sig) = V (main_arg0 : DevRef τ sig) := by
  rw [after_app, after_app, segC_arg0, segB_arg0, segA_arg0]

theorem arg1_eq (V : Valuation τ sig (Elt F)) :
    after ops V (main_arg1 : DevRef τ sig) = V (main_arg1 : DevRef τ sig) := by
  rw [after_app, after_app, segC_arg1, segB_arg1, segA_arg1]

theorem arg2_eq (V : Valuation τ sig (Elt F)) :
    after ops V (main_arg2 : DevRef τ sig) = V (main_arg2 : DevRef τ sig) := by
  rw [after_app, after_app, segC_arg2, segB_arg2, segA_arg2]

theorem arg3_eq (V : Valuation τ sig (Elt F)) :
    after ops V (main_arg3 : DevRef τ sig) = V (main_arg3 : DevRef τ sig) := by
  rw [after_app, after_app, segC_arg3, segB_arg3, segA_arg3]

theorem arg4_eq (V : Valuation τ sig (Elt F)) :
    after ops V (main_arg4 : DevRef τ sig) = V (main_arg4 : DevRef τ sig) := by
  rw [after_app, after_app, segC_arg4, segB_arg4, segA_arg4]

theorem arg5_eq (V : Valuation τ sig (Elt F)) :
    after ops V (main_arg5 : DevRef τ sig) = V (main_arg5 : DevRef τ sig) := by
  rw [after_app, after_app, segC_arg5, segB_arg5, segA_arg5]

/-- From any memory with zero counters every weakly fair execution of the program terminates with every TensorCore
    buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v68).trans (result_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_main m ρ)

end Cert.ReferenceIdeal.RefValue

end
-- ==== Proof.RefValue.lean ====
/-
  The reference's term read index by index at the ideal instance: it is the centre-first arrangement.
-/
import proofs.«172518_j14388140441772_1_alg».proof.Proof.RefTerm
import proofs.«172518_j14388140441772_1_alg».proof.Proof.Gen.ReferenceIdeal
import proofs.«172518_j14388140441772_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Cert.ReferenceIdeal Cert.ReferenceIdeal.Gen Cert.Pillar
open Idealize.ShloMosaic.ValueIdx

/-! ### The nine masked features, stage by stage, at explicit coordinates -/

/-- The count as a float is the signed count as a real. -/
theorem rCnt_apply (a1 : IVec S40000 32) (v : Fin 40000) :
    rCnt (F := Ideal) a1 (ix1 v) = cnt (npt1 a1) v := rfl

/-- The first three channels. -/
theorem rXyz_apply (a0 : FVec Ideal S40000x32x4 .f32) (v : Fin 40000) (p : Fin 32) (k : Fin 3) :
    rXyz (F := Ideal) a0 (ix3 v p k) = a0 (ix3 v p (Fin.castLE (by omega) k)) := by
  unfold rXyz
  refine extractStridedSlice_apply _ _ _ _ _ (fun ax => ?_)
  match ax with
  | ⟨0, _⟩ => exact (Nat.zero_add _).symm
  | ⟨1, _⟩ => exact (Nat.zero_add _).symm
  | ⟨2, _⟩ => exact (Nat.zero_add _).symm

/-- A sum over the 32 rows of a [40000, 32, 3] array, from zero. -/
theorem rowSum3_apply (x : FVec Ideal S40000x32x3 .f32) (h' : S40000x32x3.ReducesTo [1] S40000x3) (hu : 0 < S_.numel)
    (v : Fin 40000) (k : Fin 3) :
    Host.reduceAdd x (kf (F := Ideal) 0x00000000#32) h' hu (ix2 v k) = ∑ q : Fin 32, x (ix3 v q k) := by
  have h : S40000x32x3.Reduces [1] S40000x3 := by decide
  show Ideal.hostReduceAdd h' x (Ideal.ofBits .f32 0x00000000#32) (ix2 v k) = _
  rw [Ideal.hostReduceAdd_single h' h, Ideal.ofBits_zero_f32, zero_add]
  refine Finset.sum_congr rfl fun q _ => congrArg x ?_
  funext ax
  match ax with
  | ⟨0, _⟩ => rfl
  | ⟨1, _⟩ => rfl
  | ⟨2, _⟩ => rfl

/-- Each pillar's channel sums divided by its count. -/
theorem rMeanPts_apply (a0 : FVec Ideal S40000x32x4 .f32) (a1 : IVec S40000 32) (v : Fin 40000) (u : Fin 1) (k : Fin 3) :
    rMeanPts (F := Ideal) a0 a1 (ix3 v u k)
      = Ideal.div (∑ q : Fin 32, a0 (ix3 v q (Fin.castLE (by omega) k))) (cnt (npt1 a1) v) := by
  unfold rMeanPts
  show Ideal.div _ _ = _
  refine congrArg₂ Ideal.div ?_ ?_
  · refine (broadcastInDim_apply _ _ _ (ix3 v u k) (ix2 v k) (fun ax => ?_)).trans ?_
    · match ax with
      | ⟨0, _⟩ => rfl
      | ⟨1, _⟩ => rfl
    · rw [rowSum3_apply]
      exact Finset.sum_congr rfl fun q _ => rXyz_apply a0 v q k
  · refine (broadcastInDim_apply _ _ _ (ix3 v u k) (ix3 v (0 : Fin 1) (0 : Fin 1)) (fun ax => ?_)).trans ?_
    · match ax with
      | ⟨0, _⟩ => rfl
      | ⟨1, _⟩ => rfl
      | ⟨2, _⟩ => rfl
    · refine (broadcastInDim_apply _ _ _ (ix3 v (0 : Fin 1) (0 : Fin 1)) (ix1 v) (fun ax => ?_)).trans ?_
      · match ax with
        | ⟨0, _⟩ => rfl
      · exact rCnt_apply a1 v

/-- The offsets from the pillar's mean. -/
theorem rCluster_apply (a0 : FVec Ideal S40000x32x4 .f32) (a1 : IVec S40000 32) (v : Fin 40000) (p : Fin 32) (k : Fin 3) :
    rCluster (F := Ideal) a0 a1 (ix3 v p k)
      = a0 (ix3 v p (Fin.castLE (by omega) k))
        - Ideal.div (∑ q : Fin 32, a0 (ix3 v q (Fin.castLE (by omega) k))) (cnt (npt1 a1) v) := by
  unfold rCluster
  show _ - _ = _
  refine congrArg₂ (· - ·) ?_ ?_
  · exact rXyz_apply a0 v p k
  · refine (broadcastInDim_apply _ _ _ (ix3 v p k) (ix3 v (0 : Fin 1) k) (fun ax => ?_)).trans ?_
    · match ax with
      | ⟨0, _⟩ => rfl
      | ⟨1, _⟩ => rfl
      | ⟨2, _⟩ => rfl
    · exact rMeanPts_apply a0 a1 v 0 k

/-- A cell coordinate read through the slice and the reshape. -/
theorem cellCoord_apply (a2 : IVec S40000x2 32) (o : Nat) (e : Fin 2) (he : e.val = o) (hs : S40000x2.Slices ![0, o] S40000x1)
    (hc : S40000x1.ShapeCasts S40000) (v : Fin 40000) :
    shapeCast S40000 (extractStridedSlice S40000x1 ![0, o] a2 hs) hc (ix1 v) = a2 (ix2 v e) := by
  refine (shapeCast_apply _ hc (ix1 v) (ix2 v (0 : Fin 1)) ?_).trans ?_
  · rw [Shape.rowMajor_val_two, Shape.rowMajor_val_one]
    show v.val * 1 + 0 = v.val
    omega
  · refine extractStridedSlice_apply _ _ _ _ _ (fun ax => ?_)
    match ax with
    | ⟨0, _⟩ => exact (Nat.zero_add _).symm
    | ⟨1, _⟩ => exact he.trans (Nat.add_zero _).symm

/-- The cell centre along x. -/
theorem rCx_apply (a2 : IVec S40000x2 32) (v : Fin 40000) :
    rCx (F := Ideal) a2 (ix1 v) = cell (coo2 a2) v 0 * cVX + cXoff := by
  unfold rCx
  show ((((shapeCast S40000 _ _ (ix1 v) : BitVec 32).toInt : ℝ) : EReal)) * _ + _ = _
  exact congrArg₂ (· + ·) (congrArg₂ (· * ·) (congrArg (fun b : BitVec 32 => ((b.toInt : ℝ) : EReal))
    (cellCoord_apply a2 0 0 rfl _ _ v)) rfl) rfl

/-- The cell centre along y. -/
theorem rCy_apply (a2 : IVec S40000x2 32) (v : Fin 40000) :
    rCy (F := Ideal) a2 (ix1 v) = cell (coo2 a2) v 1 * cVX + cYoff := by
  unfold rCy
  show ((((shapeCast S40000 _ _ (ix1 v) : BitVec 32).toInt : ℝ) : EReal)) * _ + _ = _
  exact congrArg₂ (· + ·) (congrArg₂ (· * ·) (congrArg (fun b : BitVec 32 => ((b.toInt : ℝ) : EReal))
    (cellCoord_apply a2 1 1 rfl _ _ v)) rfl) rfl

/-- One channel read through the slice and the reshape. -/
theorem chan_apply (a0 : FVec Ideal S40000x32x4 .f32) (o : Nat) (e : Fin 4) (he : e.val = o) (hs : S40000x32x4.Slices ![0, 0, o] S40000x32x1)
    (hc : S40000x32x1.ShapeCasts S40000x32) (v : Fin 40000) (p : Fin 32) :
    shapeCast S40000x32 (extractStridedSlice S40000x32x1 ![0, 0, o] a0 hs) hc (ix2 v p) = a0 (ix3 v p e) := by
  refine (shapeCast_apply _ hc (ix2 v p) (ix3 v p (0 : Fin 1)) ?_).trans ?_
  · rw [Shape.rowMajor_val_three, Shape.rowMajor_val_two]
    show (v.val * 32 + p.val) * 1 + 0 = v.val * 32 + p.val
    omega
  · refine extractStridedSlice_apply _ _ _ _ _ (fun ax => ?_)
    match ax with
    | ⟨0, _⟩ => exact (Nat.zero_add _).symm
    | ⟨1, _⟩ => exact (Nat.zero_add _).symm
    | ⟨2, _⟩ => exact he.trans (Nat.add_zero _).symm

/-- A per-pillar value spread over the pillar's rows. -/
theorem spreadRows_apply {α : Type} (x : S40000.Idx → α) (h1 : S40000.BroadcastsInDim S40000x1 (![0] : Fin 1 → Fin S40000x1.rank))
    (h2 : S40000x1.BroadcastsInDim S40000x32 (![0, 1] : Fin 2 → Fin S40000x32.rank)) (v : Fin 40000) (p : Fin 32) :
    broadcastInDim S40000x32 ![0, 1] h2 (broadcastInDim S40000x1 ![0] h1 x) (ix2 v p) = x (ix1 v) := by
  refine (broadcastInDim_apply _ _ _ (ix2 v p) (ix2 v (0 : Fin 1)) (fun ax => ?_)).trans ?_
  · match ax with
    | ⟨0, _⟩ => rfl
    | ⟨1, _⟩ => rfl
  · refine broadcastInDim_apply _ _ _ (ix2 v (0 : Fin 1)) (ix1 v) (fun ax => ?_)
    match ax with
    | ⟨0, _⟩ => rfl

/-- The x offsets from the cell centre. -/
theorem rFx_apply (a0 : FVec Ideal S40000x32x4 .f32) (a2 : IVec S40000x2 32) (v : Fin 40000) (p : Fin 32) :
    rFx (F := Ideal) a0 a2 (ix2 v p) = a0 (ix3 v p 0) - (cell (coo2 a2) v 0 * cVX + cXoff) := by
  unfold rFx
  show _ - _ = _
  refine congrArg₂ (· - ·) ?_ ?_
  · exact chan_apply a0 0 0 rfl _ _ v p
  · exact (spreadRows_apply _ _ _ v p).trans (rCx_apply a2 v)

/-- The y offsets from the cell centre. -/
theorem rFy_apply (a0 : FVec Ideal S40000x32x4 .f32) (a2 : IVec S40000x2 32) (v : Fin 40000) (p : Fin 32) :
    rFy (F := Ideal) a0 a2 (ix2 v p) = a0 (ix3 v p 1) - (cell (coo2 a2) v 1 * cVX + cYoff) := by
  unfold rFy
  show _ - _ = _
  refine congrArg₂ (· - ·) ?_ ?_
  · exact chan_apply a0 1 1 rfl _ _ v p
  · exact (spreadRows_apply _ _ _ v p).trans (rCy_apply a2 v)

/-- A [40000, 32] array given a trailing unit axis. -/
theorem addUnit_apply {α : Type} (x : S40000x32.Idx → α) (h : S40000x32.BroadcastsInDim S40000x32x1 (![0, 1] : Fin 2 → Fin S40000x32x1.rank))
    (v : Fin 40000) (p : Fin 32) (u : Fin 1) :
    broadcastInDim S40000x32x1 ![0, 1] h x (ix3 v p u) = x (ix2 v p) := by
  refine broadcastInDim_apply _ _ _ (ix3 v p u) (ix2 v p) (fun ax => ?_)
  match ax with
  | ⟨0, _⟩ => rfl
  | ⟨1, _⟩ => rfl

/-- The two centre offsets side by side. -/
theorem rCenter_apply0 (a0 : FVec Ideal S40000x32x4 .f32) (a2 : IVec S40000x2 32) (v : Fin 40000) (p : Fin 32) :
    rCenter (F := Ideal) a0 a2 (ix3 v p 0) = a0 (ix3 v p 0) - (cell (coo2 a2) v 0 * cVX + cXoff) := by
  unfold rCenter
  refine (concatenate_pair_apply_left (t := S40000x32x2) (s₁ := S40000x32x1) (s₂ := S40000x32x1) (2 : Fin 3) _ _ _ (ix3 v p (0 : Fin 2)) rfl (ix3 v p (0 : Fin 1)) (fun b => ?_)).trans ?_
  · match b with
    | ⟨0, _⟩ => rfl
    | ⟨1, _⟩ => rfl
    | ⟨2, _⟩ => rfl
  · exact (addUnit_apply _ _ v p 0).trans (rFx_apply a0 a2 v p)

theorem rCenter_apply1 (a0 : FVec Ideal S40000x32x4 .f32) (a2 : IVec S40000x2 32) (v : Fin 40000) (p : Fin 32) :
    rCenter (F := Ideal) a0 a2 (ix3 v p 1) = a0 (ix3 v p 1) - (cell (coo2 a2) v 1 * cVX + cYoff) := by
  unfold rCenter
  refine (concatenate_pair_apply_right (t := S40000x32x2) (s₁ := S40000x32x1) (s₂ := S40000x32x1) (2 : Fin 3) _ _ _ (ix3 v p (1 : Fin 2)) rfl rfl (ix3 v p (0 : Fin 1)) (fun b hb => ?_) rfl).trans ?_
  · match b with
    | ⟨0, _⟩ => rfl
    | ⟨1, _⟩ => rfl
    | ⟨2, _⟩ => exact absurd rfl hb
  · exact (addUnit_apply _ _ v p 0).trans (rFy_apply a0 a2 v p)

/-- The nine features: the first four are the channels. -/
theorem rFeat9_chan (a0 : FVec Ideal S40000x32x4 .f32) (a1 : IVec S40000 32) (a2 : IVec S40000x2 32) (v : Fin 40000) (p : Fin 32)
    (c : Fin 9) (k : Fin 4) (hk : c.val = k.val) :
    rFeat9 (F := Ideal) a0 a1 a2 (ix3 v p c) = a0 (ix3 v p k) := by
  unfold rFeat9
  refine concatenate_apply_piece (t := S40000x32x9) (2 : Fin 3) [⟨S40000x32x4, a0⟩, ⟨S40000x32x3, rCluster a0 a1⟩, ⟨S40000x32x2, rCenter a0 a2⟩] _ (ix3 v p c) 0 (by simp) S40000x32x4 a0 rfl rfl 0 rfl (ix3 v p k) (fun b hb => ?_) ?_
  · match b with
    | ⟨0, _⟩ => rfl
    | ⟨1, _⟩ => rfl
    | ⟨2, _⟩ => exact absurd rfl hb
  · show 0 + k.val = c.val
    omega

/-- The next three are the offsets from the pillar's mean. -/
theorem rFeat9_cluster (a0 : FVec Ideal S40000x32x4 .f32) (a1 : IVec S40000 32) (a2 : IVec S40000x2 32) (v : Fin 40000) (p : Fin 32)
    (c : Fin 9) (k : Fin 3) (hk : c.val = 4 + k.val) :
    rFeat9 (F := Ideal) a0 a1 a2 (ix3 v p c) = rCluster (F := Ideal) a0 a1 (ix3 v p k) := by
  unfold rFeat9
  refine concatenate_apply_piece (t := S40000x32x9) (2 : Fin 3) [⟨S40000x32x4, a0⟩, ⟨S40000x32x3, rCluster a0 a1⟩, ⟨S40000x32x2, rCenter a0 a2⟩] _ (ix3 v p c) 1 (by simp) S40000x32x3 (rCluster a0 a1) rfl rfl 4 rfl (ix3 v p k) (fun b hb => ?_) ?_
  · match b with
    | ⟨0, _⟩ => rfl
    | ⟨1, _⟩ => rfl
    | ⟨2, _⟩ => exact absurd rfl hb
  · show 4 + k.val = c.val
    omega

/-- The last two are the offsets from the cell's centre. -/
theorem rFeat9_center (a0 : FVec Ideal S40000x32x4 .f32) (a1 : IVec S40000 32) (a2 : IVec S40000x2 32) (v : Fin 40000) (p : Fin 32)
    (c : Fin 9) (k : Fin 2) (hk : c.val = 7 + k.val) :
    rFeat9 (F := Ideal) a0 a1 a2 (ix3 v p c) = rCenter (F := Ideal) a0 a2 (ix3 v p k) := by
  unfold rFeat9
  refine concatenate_apply_piece (t := S40000x32x9) (2 : Fin 3) [⟨S40000x32x4, a0⟩, ⟨S40000x32x3, rCluster a0 a1⟩, ⟨S40000x32x2, rCenter a0 a2⟩] _ (ix3 v p c) 2 (by simp) S40000x32x2 (rCenter a0 a2) rfl rfl 7 rfl (ix3 v p k) (fun b hb => ?_) ?_
  · match b with
    | ⟨0, _⟩ => rfl
    | ⟨1, _⟩ => rfl
    | ⟨2, _⟩ => exact absurd rfl hb
  · show 7 + k.val = c.val
    omega

/-- The mask: one where the count exceeds the row number. -/
theorem rMask_apply (a1 : IVec S40000 32) (v : Fin 40000) (p : Fin 32) :
    rMask (F := Ideal) a1 (ix2 v p) = msk (npt1 a1) v p := by
  unfold rMask msk
  show (((IntOp.cmpi .sgt _ _).toNat : ℝ) : EReal) = _
  refine congrArg (fun b : BitVec 1 => ((b.toNat : ℝ) : EReal)) (congrArg₂ (IntOp.cmpi .sgt) ?_ ?_)
  · exact spreadRows_apply a1 _ _ v p
  · refine (broadcastInDim_apply _ _ _ (ix2 v p) (ix2 (0 : Fin 1) p) (fun ax => ?_)).trans ?_
    · match ax with
      | ⟨0, _⟩ => rfl
      | ⟨1, _⟩ => rfl
    · refine (broadcastInDim_apply _ _ _ (ix2 (0 : Fin 1) p) (ix1 p) (fun ax => ?_)).trans ?_
      · match ax with
        | ⟨0, _⟩ => rfl
      · rfl

/-- The masked features in terms of the unmasked ones. -/
theorem rFeat_apply (a0 : FVec Ideal S40000x32x4 .f32) (a1 : IVec S40000 32) (a2 : IVec S40000x2 32) (v : Fin 40000) (p : Fin 32)
    (c : Fin 9) :
    rFeat (F := Ideal) a0 a1 a2 (ix3 v p c) = rFeat9 (F := Ideal) a0 a1 a2 (ix3 v p c) * msk (npt1 a1) v p := by
  unfold rFeat
  show _ * _ = _
  refine congrArg₂ (· * ·) rfl ?_
  refine (broadcastInDim_apply _ _ _ (ix3 v p c) (ix3 v p (0 : Fin 1)) (fun ax => ?_)).trans ?_
  · match ax with
    | ⟨0, _⟩ => rfl
    | ⟨1, _⟩ => rfl
    | ⟨2, _⟩ => rfl
  · exact (addUnit_apply _ _ v p 0).trans (rMask_apply a1 v p)

/-- The nine unmasked features are the specification's. -/
theorem rFeat9_eq_feat (a0 : FVec Ideal S40000x32x4 .f32) (a1 : IVec S40000 32) (a2 : IVec S40000x2 32) (v : Fin 40000) (p : Fin 32)
    (c : Fin 9) :
    rFeat9 (F := Ideal) a0 a1 a2 (ix3 v p c) = feat (vox3 a0) (npt1 a1) (coo2 a2) v p c := by
  fin_cases c
  · exact rFeat9_chan a0 a1 a2 v p 0 0 rfl
  · exact rFeat9_chan a0 a1 a2 v p 1 1 rfl
  · exact rFeat9_chan a0 a1 a2 v p 2 2 rfl
  · exact rFeat9_chan a0 a1 a2 v p 3 3 rfl
  · exact (rFeat9_cluster a0 a1 a2 v p 4 0 rfl).trans (rCluster_apply a0 a1 v p 0)
  · exact (rFeat9_cluster a0 a1 a2 v p 5 1 rfl).trans (rCluster_apply a0 a1 v p 1)
  · exact (rFeat9_cluster a0 a1 a2 v p 6 2 rfl).trans (rCluster_apply a0 a1 v p 2)
  · exact (rFeat9_center a0 a1 a2 v p 7 0 rfl).trans (rCenter_apply0 a0 a2 v p)
  · exact (rFeat9_center a0 a1 a2 v p 8 1 rfl).trans (rCenter_apply1 a0 a2 v p)

/-- The masked features are the specification's. -/
theorem rFeat_eq (a0 : FVec Ideal S40000x32x4 .f32) (a1 : IVec S40000 32) (a2 : IVec S40000x2 32) (v : Fin 40000) (p : Fin 32)
    (c : Fin 9) :
    rFeat (F := Ideal) a0 a1 a2 (ix3 v p c) = feat (vox3 a0) (npt1 a1) (coo2 a2) v p c * msk (npt1 a1) v p := by
  rw [rFeat_apply, rFeat9_eq_feat]

/-! ### The linear layer -/

/-- The linear layer: at (v, p, o) the sum over the nine features of the masked feature times the weight. -/
theorem rX_apply (a0 : FVec Ideal S40000x32x4 .f32) (a1 : IVec S40000 32) (a2 : IVec S40000x2 32) (a3 : FVec Ideal S64x9 .f32)
    (v : Fin 40000) (p : Fin 32) (o : Fin 64) :
    rX (F := Ideal) a0 a1 a2 a3 (ix3 v p o) = X (vox3 a0) (npt1 a1) (coo2 a2) (wgt2 a3) v p o := by
  unfold rX X
  show FloatOps.dotGeneral _ none _ (rFeat (F := Ideal) a0 a1 a2) a3 (ix3 v p o) = _
  rw [Ideal.dotGeneral_apply,
    ← Equiv.sum_comp (contrEquiv1 dot_S40000x32x9_S64x9_S40000x32x64_2_1_01_0_n_n 9 rfl rfl).symm]
  refine Finset.sum_congr rfl fun c _ => ?_
  have c1 := contrEquiv1_symm_val dot_S40000x32x9_S64x9_S40000x32x64_2_1_01_0_n_n 9 rfl rfl c
  have hl : dot_S40000x32x9_S64x9_S40000x32x64_2_1_01_0_n_n.lhsIdx (ix3 v p o)
      ((contrEquiv1 dot_S40000x32x9_S64x9_S40000x32x64_2_1_01_0_n_n 9 rfl rfl).symm c) = ix3 v p c := by
    funext ax; apply Fin.ext
    match ax with
    | ⟨0, _⟩ => simp [DotDims.lhsIdx, dot_S40000x32x9_S64x9_S40000x32x64_2_1_01_0_n_n]; rfl
    | ⟨1, _⟩ => simp [DotDims.lhsIdx, dot_S40000x32x9_S64x9_S40000x32x64_2_1_01_0_n_n]; rfl
    | ⟨2, _⟩ => simp [DotDims.lhsIdx, dot_S40000x32x9_S64x9_S40000x32x64_2_1_01_0_n_n]; exact c1
  have hr : dot_S40000x32x9_S64x9_S40000x32x64_2_1_01_0_n_n.rhsIdx (ix3 v p o)
      ((contrEquiv1 dot_S40000x32x9_S64x9_S40000x32x64_2_1_01_0_n_n 9 rfl rfl).symm c) = ix2 o c := by
    funext ax; apply Fin.ext
    match ax with
    | ⟨0, _⟩ => simp [DotDims.rhsIdx, dot_S40000x32x9_S64x9_S40000x32x64_2_1_01_0_n_n]; rfl
    | ⟨1, _⟩ => simp [DotDims.rhsIdx, dot_S40000x32x9_S64x9_S40000x32x64_2_1_01_0_n_n]; exact c1
  rw [hl, hr, rFeat_eq]

/-! ### Sums over pillars and points -/

section Rank3Sums
variable {M : Type*} [AddCommMonoid M] {n0 n1 n2 : Nat}

/-- A rank-3 index set is the product of its three coordinate ranges. -/
def idxEquiv3 : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- So a sum over it is the triple sum over the coordinates. -/
theorem sum_idx3 (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the indices whose last coordinate is o is the double sum over the first two coordinates. -/
theorem sum_filter_last3 (f : (⟨3, ![n0, n1, n2]⟩ : Shape).Idx → M) (o : Fin n2) :
    ∑ i ∈ Finset.univ.filter (fun i : (⟨3, ![n0, n1, n2]⟩ : Shape).Idx => (i 2).val = o.val), f i
      = ∑ a : Fin n0, ∑ b : Fin n1, f (ix3 a b o) := by
  rw [Finset.sum_filter, sum_idx3]
  refine Finset.sum_congr rfl fun a _ => Finset.sum_congr rfl fun b _ => ?_
  show ∑ c : Fin n2, (if c.val = o.val then f (ix3 a b c) else 0) = _
  rw [Finset.sum_eq_single o (fun c _ hc => if_neg fun e => hc (Fin.ext e)) (fun h => absurd (Finset.mem_univ _) h)]
  exact if_pos rfl

end Rank3Sums

/-- A sum over the first two axes of a [40000, 32, 64] array, from zero: at channel o the double sum over
    pillars and points. The indices that drop to o are those whose last coordinate is o. -/
theorem sum01_apply (x : FVec Ideal S40000x32x64 .f32) (h' : S40000x32x64.ReducesTo [0, 1] S64) (hu : 0 < S_.numel)
    (o : Fin 64) :
    Host.reduceAdd x (kf (F := Ideal) 0x00000000#32) h' hu (ix1 o) = ∑ v : Fin 40000, ∑ p : Fin 32, x (ix3 v p o) := by
  show Ideal.hostReduceAdd h' x (Ideal.ofBits .f32 0x00000000#32) (ix1 o) = _
  unfold Ideal.hostReduceAdd
  rw [Ideal.ofBits_zero_f32, zero_add]
  have hdrop : ∀ i : S40000x32x64.Idx, (h'.drop i = ix1 o) ↔ (i 2).val = o.val := by
    intro i
    constructor
    · intro e
      exact congrArg Fin.val (congrFun e (0 : Fin 1))
    · intro e
      funext b
      match b with
      | ⟨0, _⟩ => exact Fin.ext e
  refine (Finset.sum_congr (Finset.filter_congr fun i _ => hdrop i) fun _ _ => rfl).trans ?_
  exact sum_filter_last3 x o

/-! ### Mean, centred activations, variance -/

/-- A per-channel row spread over every pillar and point reads the row at the channel. -/
theorem spread_apply (r : FVec Ideal S64 .f32) (v : Fin 40000) (p : Fin 32) (o : Fin 64) :
    spread (F := Ideal) r (ix3 v p o) = r (ix1 o) := by
  refine (broadcastInDim_apply _ _ _ (ix3 v p o) (ix3 (0 : Fin 1) (0 : Fin 1) o) (fun ax => ?_)).trans ?_
  · match ax with
    | ⟨0, _⟩ => rfl
    | ⟨1, _⟩ => rfl
    | ⟨2, _⟩ => rfl
  · refine broadcastInDim_apply _ _ _ (ix3 (0 : Fin 1) (0 : Fin 1) o) (ix1 o) (fun ax => ?_)
    match ax with
    | ⟨0, _⟩ => rfl

/-- The batch mean per channel. -/
theorem rMean_apply (x : FVec Ideal S40000x32x64 .f32) (o : Fin 64) :
    rMean (F := Ideal) x (ix1 o) = Ideal.div (∑ v : Fin 40000, ∑ p : Fin 32, x (ix3 v p o)) cN := by
  unfold rMean
  show Ideal.div _ _ = _
  exact congrArg₂ Ideal.div (sum01_apply x _ _ o) rfl

/-- The centred activations: the mean inside the variance is the same quotient. -/
theorem rCentred_apply (x : FVec Ideal S40000x32x64 .f32) (v : Fin 40000) (p : Fin 32) (o : Fin 64) :
    rCentred (F := Ideal) x (ix3 v p o)
      = x (ix3 v p o) - Ideal.div (∑ v : Fin 40000, ∑ p : Fin 32, x (ix3 v p o)) cN := by
  unfold rCentred
  show _ - _ = _
  refine congrArg₂ (· - ·) rfl ?_
  refine (broadcastInDim_apply _ _ _ (ix3 v p o) (ix3 (0 : Fin 1) (0 : Fin 1) o) (fun ax => ?_)).trans ?_
  · match ax with
    | ⟨0, _⟩ => rfl
    | ⟨1, _⟩ => rfl
    | ⟨2, _⟩ => rfl
  · show Ideal.div _ _ = _
    refine congrArg₂ Ideal.div ?_ rfl
    refine (broadcastInDim_apply _ _ _ (ix3 (0 : Fin 1) (0 : Fin 1) o) (ix1 o) (fun ax => ?_)).trans ?_
    · match ax with
      | ⟨0, _⟩ => rfl
    · exact sum01_apply x _ _ o

/-- The number of points, 1 280 000, as the real its word denotes. -/
theorem cN_eq : cN = ((1280000 : ℝ) : EReal) := by
  simp [cN, Ideal.ofBits, Ideal.ieee]
  rw [← EReal.coe_mul]
  norm_num

/-- The divisor of the variance at its one index. -/
theorem rDen_apply (i : S_.Idx) : rDen (F := Ideal) i = cN - (((0#32 : BitVec 32).toInt : ℝ) : EReal) := rfl

/-- The divisor is positive. -/
theorem rDen_pos : (0 : EReal) < cN - (((0#32 : BitVec 32).toInt : ℝ) : EReal) := by
  rw [cN_eq]
  simp

/-- The guard on the divisor holds: the comparison's bit is one. -/
theorem cmp_den : Ideal.cmp .ogt (cN - (((0#32 : BitVec 32).toInt : ℝ) : EReal)) (Ideal.ofBits .f32 0x00000000#32) = 1#1 := by
  rw [Ideal.ofBits_zero_f32]
  show BitVec.ofBool (decide ((0 : EReal) < cN - (((0#32 : BitVec 32).toInt : ℝ) : EReal))) = 1#1
  rw [decide_eq_true rDen_pos]
  rfl

/-- The word 0xFF800000 denotes -∞. -/
theorem negInf_eq : Ideal.ofBits .f32 0xFF800000#32 = ⊥ := by
  simp [Ideal.ofBits, Ideal.ieee]

/-- The batch variance per channel: the guard picks the quotient of the centred sum of squares by the divisor. -/
theorem rVar_apply (x : FVec Ideal S40000x32x64 .f32) (o : Fin 64) :
    rVar (F := Ideal) x (ix1 o)
      = Ideal.div (∑ v : Fin 40000, ∑ p : Fin 32,
          (x (ix3 v p o) - Ideal.div (∑ v : Fin 40000, ∑ p : Fin 32, x (ix3 v p o)) cN)
            * (x (ix3 v p o) - Ideal.div (∑ v : Fin 40000, ∑ p : Fin 32, x (ix3 v p o)) cN))
          (cN - (((0#32 : BitVec 32).toInt : ℝ) : EReal)) := by
  unfold rVar
  rw [select_apply]
  have hc : broadcastInDim S64 ![] Facts₀.bcast_S_S64 (cmpf .ogt (rDen (F := Ideal)) (kf 0x00000000#32)) (ix1 o) = 1#1 := cmp_den
  rw [hc, select_one]
  show Ideal.div _ _ = _
  refine congrArg₂ Ideal.div ?_ rfl
  rw [sum01_apply]
  refine Finset.sum_congr rfl fun v _ => Finset.sum_congr rfl fun p _ => ?_
  show rCentred (F := Ideal) x (ix3 v p o) * rCentred (F := Ideal) x (ix3 v p o) = _
  rw [rCentred_apply]

/-- Normalised, scaled, shifted and clamped at zero, at one index. -/
theorem rAct_apply (x : FVec Ideal S40000x32x64 .f32) (a4 a5 : FVec Ideal S64 .f32) (v : Fin 40000) (p : Fin 32) (o : Fin 64) :
    rAct (F := Ideal) x a4 a5 (ix3 v p o)
      = max ((x (ix3 v p o) - rMean (F := Ideal) x (ix1 o)) * Ideal.rsqrt (rVar (F := Ideal) x (ix1 o) + cEps) * a4 (ix1 o) + a5 (ix1 o)) 0 := by
  unfold rAct
  show max ((_ - _) * _ * _ + _) _ = _
  rw [spread_apply, spread_apply, spread_apply, spread_apply]
  refine congrArg₂ max rfl ?_
  exact Ideal.ofBits_zero_f32

/-! ### The whole term -/

/-- The batch mean of the linear layer's output is the specification's mean. -/
theorem rMean_rX (a0 : FVec Ideal S40000x32x4 .f32) (a1 : IVec S40000 32) (a2 : IVec S40000x2 32) (a3 : FVec Ideal S64x9 .f32)
    (o : Fin 64) :
    rMean (F := Ideal) (rX (F := Ideal) a0 a1 a2 a3) (ix1 o) = mean (vox3 a0) (npt1 a1) (coo2 a2) (wgt2 a3) o := by
  rw [rMean_apply]
  unfold mean S1
  simp only [rX_apply]

/-- The batch variance of the linear layer's output is the specification's centred variance. -/
theorem rVar_rX (a0 : FVec Ideal S40000x32x4 .f32) (a1 : IVec S40000 32) (a2 : IVec S40000x2 32) (a3 : FVec Ideal S64x9 .f32)
    (o : Fin 64) :
    rVar (F := Ideal) (rX (F := Ideal) a0 a1 a2 a3) (ix1 o) = varR (vox3 a0) (npt1 a1) (coo2 a2) (wgt2 a3) o := by
  rw [rVar_apply]
  unfold varR mean S1
  simp only [rX_apply]

theorem refTerm_eq (a0 : FVec Ideal S40000x32x4 .f32) (a1 : IVec S40000 32) (a2 : IVec S40000x2 32) (a3 : FVec Ideal S64x9 .f32)
    (a4 a5 : FVec Ideal S64 .f32) :
    refTerm (F := Ideal) a0 a1 a2 a3 a4 a5
      = fun j => outR (vox3 a0) (npt1 a1) (coo2 a2) (wgt2 a3) (ch1 a4) (ch1 a5) (j 0) (j 1) := by
  funext j
  obtain ⟨v, o, rfl⟩ : ∃ (v : Fin 40000) (o : Fin 64), j = ix2 v o := ⟨j 0, j 1, eq_ix2 j⟩
  show refTerm (F := Ideal) a0 a1 a2 a3 a4 a5 (ix2 v o) = outR (vox3 a0) (npt1 a1) (coo2 a2) (wgt2 a3) (ch1 a4) (ch1 a5) v o
  unfold refTerm outR rowMax
  have h : S40000x32x64.Reduces [1] S40000x64 := by decide
  refine (Host.reduce_eq_fold_single (FloatOps.maximumf (F := Ideal) (φ := .f32)) _ _ _ h _ (ix2 v o)).trans ?_
  show Finset.univ.fold max (Ideal.ofBits .f32 0xFF800000#32)
      (fun p : Fin 32 => rAct (F := Ideal) (rX (F := Ideal) a0 a1 a2 a3) a4 a5 (h.lift (ix2 v o) p)) = _
  rw [negInf_eq]
  refine Finset.fold_congr fun p _ => ?_
  have hl : h.lift (ix2 v o) p = ix3 v p o := by
    funext ax
    match ax with
    | ⟨0, _⟩ => rfl
    | ⟨1, _⟩ => rfl
    | ⟨2, _⟩ => rfl
  rw [hl, rAct_apply, rX_apply, rMean_rX, rVar_rX]

end Cert.ReferenceIdeal.RefValue

end
-- ==== Proof.Algebra.lean ====
/-
  The two arrangements of the normalisation agree on finite inputs.
-/
import proofs.«172518_j14388140441772_1_alg».proof.Proof.Spec

noncomputable section

namespace Cert.Pillar

open Idealize.ShloMosaic

/-! ### Extended reals that are real numbers -/

theorem fin'_coe (r : ℝ) : Fin' (r : EReal) := ⟨EReal.coe_ne_top r, EReal.coe_ne_bot r⟩

theorem fin'_exists {x : EReal} (h : Fin' x) : ∃ r : ℝ, x = (r : EReal) := by
  obtain ⟨h1, h2⟩ := h
  lift x to ℝ using ⟨h1, h2⟩
  exact ⟨x, rfl⟩

theorem fin'_zero : Fin' (0 : EReal) := by
  rw [← EReal.coe_zero]; exact fin'_coe 0

theorem fin'_add {x y : EReal} (hx : Fin' x) (hy : Fin' y) : Fin' (x + y) := by
  obtain ⟨a, rfl⟩ := fin'_exists hx
  obtain ⟨b, rfl⟩ := fin'_exists hy
  rw [← EReal.coe_add]; exact fin'_coe _

theorem fin'_sub {x y : EReal} (hx : Fin' x) (hy : Fin' y) : Fin' (x - y) := by
  obtain ⟨a, rfl⟩ := fin'_exists hx
  obtain ⟨b, rfl⟩ := fin'_exists hy
  rw [← EReal.coe_sub]; exact fin'_coe _

theorem fin'_mul {x y : EReal} (hx : Fin' x) (hy : Fin' y) : Fin' (x * y) := by
  obtain ⟨a, rfl⟩ := fin'_exists hx
  obtain ⟨b, rfl⟩ := fin'_exists hy
  rw [← EReal.coe_mul]; exact fin'_coe _

/-- A finite sum of real numbers is a real number. -/
theorem fin'_sum {ι : Type} (s : Finset ι) (f : ι → EReal) (h : ∀ i ∈ s, Fin' (f i)) :
    Fin' (∑ i ∈ s, f i) := by
  classical
  induction s using Finset.induction_on with
  | empty => rw [Finset.sum_empty]; exact fin'_zero
  | insert a s ha ih =>
    rw [Finset.sum_insert ha]
    exact fin'_add (h _ (Finset.mem_insert_self _ _)) (ih fun i hi => h i (Finset.mem_insert_of_mem hi))

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- Division by a nonzero real keeps a real number real. -/
theorem fin'_div_coe {x : EReal} (hx : Fin' x) {y : ℝ} (hy : y ≠ 0) : Fin' (Ideal.div x (y : EReal)) := by
  rw [Ideal.div_coe hy]; exact fin'_mul hx (fin'_coe _)

/-! ### The five constants -/

theorem cN_eq : cN = ((1280000 : ℝ) : EReal) := by
  simp [cN, Ideal.ofBits, Ideal.ieee]
  rw [← EReal.coe_mul]
  norm_num

theorem cEps_eq : ∃ e : ℝ, 0 < e ∧ cEps = (e : EReal) := by
  simp [cEps, Ideal.ofBits, Ideal.ieee]
  exact ⟨_, by positivity, (EReal.coe_mul _ _).symm⟩

theorem fin'_cVX : Fin' cVX := by
  have h : ∃ e : ℝ, cVX = (e : EReal) := by
    simp [cVX, Ideal.ofBits, Ideal.ieee]
    exact ⟨_, (EReal.coe_mul _ _).symm⟩
  obtain ⟨e, h⟩ := h
  rw [h]; exact fin'_coe _

theorem fin'_cXoff : Fin' cXoff := by
  have h : ∃ e : ℝ, cXoff = (e : EReal) := by
    simp [cXoff, Ideal.ofBits, Ideal.ieee]
    exact ⟨_, (EReal.coe_mul _ _).symm⟩
  obtain ⟨e, h⟩ := h
  rw [h]; exact fin'_coe _

theorem fin'_cYoff : Fin' cYoff := by
  have h : ∃ e : ℝ, cYoff = (e : EReal) := by
    simp [cYoff, Ideal.ofBits, Ideal.ieee]
    exact ⟨_, by rw [EReal.coe_neg, EReal.coe_mul]⟩
  obtain ⟨e, h⟩ := h
  rw [h]; exact fin'_coe _

/-- Division by the number of points, on a real number. -/
theorem div_cN (a : ℝ) : Ideal.div (a : EReal) cN = ((a / 1280000 : ℝ) : EReal) := by
  rw [cN_eq, Ideal.div_coe (by norm_num), ← EReal.coe_mul, mul_one_div]

/-! ### The mask and the features -/

/-- A row number below 32 is its own signed reading. -/
theorem toInt_ofNat_row (p : Fin 32) : (BitVec.ofNat 32 p.val).toInt = (p.val : Int) := by
  have hp := p.isLt
  have h1 : (BitVec.ofNat 32 p.val).toNat = p.val := by
    rw [BitVec.toNat_ofNat]; omega
  rw [BitVec.toInt_eq_toNat_of_lt (by rw [h1]; omega), h1]

/-- The mask is zero, or it is one and then the count is a nonzero integer. -/
theorem msk_cases {n : Nat} (npt : Fin n → BitVec 32) (v : Fin n) (p : Fin 32) :
    msk npt v p = 0 ∨ (msk npt v p = 1 ∧ (npt v).toInt ≠ 0) := by
  unfold msk IntOp.cmpi
  simp only
  cases h : (BitVec.ofNat 32 p.val).slt (npt v)
  · left; simp
  · right
    refine ⟨by simp, ?_⟩
    rw [BitVec.slt_iff_toInt_lt, toInt_ofNat_row] at h
    omega

theorem fin'_vec9 {a0 a1 a2 a3 a4 a5 a6 a7 a8 : EReal} (h0 : Fin' a0) (h1 : Fin' a1) (h2 : Fin' a2)
    (h3 : Fin' a3) (h4 : Fin' a4) (h5 : Fin' a5) (h6 : Fin' a6) (h7 : Fin' a7) (h8 : Fin' a8) (c : Fin 9) :
    Fin' (![a0, a1, a2, a3, a4, a5, a6, a7, a8] c) := by
  fin_cases c
  exacts [h0, h1, h2, h3, h4, h5, h6, h7, h8]

/-- With a nonzero count every feature of a point is a real number. -/
theorem fin'_feat {n : Nat} (vox : Fin n → Fin 32 → Fin 4 → EReal) (npt : Fin n → BitVec 32)
    (coo : Fin n → Fin 2 → BitVec 32) (hvox : ∀ v p k, Fin' (vox v p k)) (v : Fin n) (p : Fin 32)
    (hc : (npt v).toInt ≠ 0) (c : Fin 9) : Fin' (feat vox npt coo v p c) := by
  have hcnt : ((npt v).toInt : ℝ) ≠ 0 := by exact_mod_cast hc
  have hdiv : ∀ k, Fin' (Ideal.div (rowSum vox v k) (cnt npt v)) := fun k => by
    unfold cnt rowSum
    exact fin'_div_coe (fin'_sum _ _ fun q _ => hvox v q k) hcnt
  have hcell : ∀ a, Fin' (cell coo v a) := fun a => by unfold cell; exact fin'_coe _
  unfold feat
  exact fin'_vec9 (hvox v p 0) (hvox v p 1) (hvox v p 2) (hvox v p 3)
    (fin'_sub (hvox v p 0) (hdiv 0)) (fin'_sub (hvox v p 1) (hdiv 1)) (fin'_sub (hvox v p 2) (hdiv 2))
    (fin'_sub (hvox v p 0) (fin'_add (fin'_mul (hcell 0) fin'_cVX) fin'_cXoff))
    (fin'_sub (hvox v p 1) (fin'_add (fin'_mul (hcell 1) fin'_cVX) fin'_cYoff)) c

/-- The linear layer's output is a real number: a masked point contributes zero whatever its features are. -/
theorem fin'_X {n : Nat} (vox : Fin n → Fin 32 → Fin 4 → EReal) (npt : Fin n → BitVec 32)
    (coo : Fin n → Fin 2 → BitVec 32) (wgt : Fin 64 → Fin 9 → EReal)
    (hvox : ∀ v p k, Fin' (vox v p k)) (hwgt : ∀ o c, Fin' (wgt o c)) (v : Fin n) (p : Fin 32) (o : Fin 64) :
    Fin' (X vox npt coo wgt v p o) := by
  unfold X
  apply fin'_sum
  intro c _
  rcases msk_cases npt v p with h | ⟨h, hc⟩
  · rw [h, mul_zero, zero_mul]; exact fin'_zero
  · rw [h, mul_one]; exact fin'_mul (fin'_feat vox npt coo hvox v p hc c) (hwgt o c)

/-! ### The two variances over the reals -/

/-- The mean of the squares less the square of the mean is the mean of the centred squares. -/
theorem var_identity (x : Fin 40000 → Fin 32 → ℝ) :
    (∑ v, ∑ p, x v p * x v p) / 1280000 - ((∑ v, ∑ p, x v p) / 1280000) * ((∑ v, ∑ p, x v p) / 1280000)
      = (∑ v, ∑ p, (x v p - (∑ v, ∑ p, x v p) / 1280000) * (x v p - (∑ v, ∑ p, x v p) / 1280000)) / 1280000 := by
  generalize hμ : (∑ v, ∑ p, x v p) / 1280000 = μ
  have h2 : (∑ v, ∑ p, x v p) = 1280000 * μ := by rw [← hμ]; ring
  have h1 : ∑ v : Fin 40000, ∑ p : Fin 32, (x v p - μ) * (x v p - μ)
      = (∑ v, ∑ p, x v p * x v p) - 2 * μ * (∑ v, ∑ p, x v p) + 1280000 * (μ * μ) := by
    have h : ∀ v p, (x v p - μ) * (x v p - μ) = x v p * x v p - 2 * μ * x v p + μ * μ := by intros; ring
    simp only [h, Finset.sum_add_distrib, Finset.sum_sub_distrib, ← Finset.mul_sum, Finset.sum_const,
      Finset.card_univ, Fintype.card_fin, nsmul_eq_mul]
    norm_num
    ring
  rw [h1, h2]
  ring

/-! ### The theorem -/

/-- With every float input a real number, the arrangement through the sum of squares with a folded scale and
    shift and the arrangement that centres first give the same result. -/
theorem outK_eq_outR (vox : Fin 40000 → Fin 32 → Fin 4 → EReal) (npt : Fin 40000 → BitVec 32) (coo : Fin 40000 → Fin 2 → BitVec 32)
    (wgt : Fin 64 → Fin 9 → EReal) (gam bet : Fin 64 → EReal)
    (hvox : ∀ v p k, Fin' (vox v p k)) (hwgt : ∀ o c, Fin' (wgt o c)) (hgam : ∀ o, Fin' (gam o)) (hbet : ∀ o, Fin' (bet o)) :
    outK vox npt coo wgt gam bet = outR vox npt coo wgt gam bet := by
  choose x hx using fun v p o => fin'_exists (fin'_X vox npt coo wgt hvox hwgt v p o)
  choose g hg using fun o => fin'_exists (hgam o)
  choose b hb using fun o => fin'_exists (hbet o)
  obtain ⟨e, he0, he⟩ := cEps_eq
  funext v o
  -- the sums, the mean and the two variances are real numbers
  have hS1 : S1 vox npt coo wgt o = ((∑ v, ∑ p, x v p o : ℝ) : EReal) := by
    unfold S1; simp only [hx, coe_sum]
  have hS2 : S2 vox npt coo wgt o = ((∑ v, ∑ p, x v p o * x v p o : ℝ) : EReal) := by
    unfold S2; simp only [hx, coe_sum, EReal.coe_mul]
  have hmean : mean vox npt coo wgt o = (((∑ v, ∑ p, x v p o) / 1280000 : ℝ) : EReal) := by
    unfold mean
    rw [hS1, div_cN]
  generalize hμ : (∑ v, ∑ p, x v p o) / 1280000 = μ at hmean
  have hvarK : varK vox npt coo wgt o = (((∑ v, ∑ p, x v p o * x v p o) / 1280000 - μ * μ : ℝ) : EReal) := by
    unfold varK
    rw [hmean, hS2, div_cN, ← EReal.coe_mul, ← EReal.coe_sub]
  have hvarR : varR vox npt coo wgt o = (((∑ v, ∑ p, (x v p o - μ) * (x v p o - μ)) / 1280000 : ℝ) : EReal) := by
    unfold varR
    have h0 : (((0#32 : BitVec 32).toInt : ℝ) : EReal) = 0 := by simp
    rw [h0, sub_zero, hmean]
    simp only [hx, ← EReal.coe_sub, ← EReal.coe_mul, ← coe_sum]
    rw [div_cN]
  have hvar : (∑ v, ∑ p, x v p o * x v p o) / 1280000 - μ * μ
      = (∑ v, ∑ p, (x v p o - μ) * (x v p o - μ)) / 1280000 := by
    have := var_identity fun v p => x v p o
    simp only [hμ] at this
    exact this
  rw [hvar] at hvarK
  generalize hs : (∑ v, ∑ p, (x v p o - μ) * (x v p o - μ)) / 1280000 = s at hvarK hvarR
  have hs0 : 0 ≤ s := by
    rw [← hs]
    exact div_nonneg (Finset.sum_nonneg fun v _ => Finset.sum_nonneg fun p _ => mul_self_nonneg _) (by norm_num)
  -- the reciprocal root of a positive real
  have hinv : Ideal.rsqrt (((s + e : ℝ)) : EReal) = (((Real.sqrt (s + e))⁻¹ : ℝ) : EReal) := by
    have hpos : 0 < s + e := by linarith
    rw [Ideal.rsqrt_coe, if_neg (not_lt.mpr hpos.le), if_neg hpos.ne']
  unfold outK outR affMax
  refine congrArg rowMax (funext fun p => ?_)
  refine congrArg (fun t => max t 0) ?_
  unfold scaleK shiftK invK
  rw [hvarK, hvarR, hmean, hx, hg, hb, he, ← EReal.coe_add, hinv]
  simp only [← EReal.coe_mul, ← EReal.coe_add, ← EReal.coe_sub]
  exact EReal.coe_eq_coe_iff.mpr (by ring)

end Cert.Pillar

end
-- ==== Proof.Finite.lean ====
/-
  The precondition read: every float input is a real number at every index.
-/
import proofs.«172518_j14388140441772_1_alg».proof.Pre_finite_inputs
import proofs.«172518_j14388140441772_1_alg».proof.Proof.Gen.Pre_finite_inputs
import proofs.«172518_j14388140441772_1_alg».proof.Proof.Spec
import Idealize.ShloMosaic.PureOps.Ideal
import Idealize.ShloMosaic.Lib.ReduceAll

noncomputable section

namespace Cert.Pillar

open Idealize.ShloMosaic Cert.Pre_finite_inputs

variable [Cert.Pre_finite_inputs.Facts]

/-- On the extended reals, |x| = max x (-x) lies strictly below +∞ only when x is a real number:
    at x = +∞ the maximum is +∞ itself, at x = -∞ its negation is. The word 0x7F800000 denotes +∞. -/
theorem finite_of_abs_lt_top (x : EReal)
    (h : Ideal.cmp .olt (max x (-x)) (Ideal.ofBits .f32 0x7F800000#32) = 1#1) : Fin' x := by
  have hT : Ideal.ofBits .f32 0x7F800000#32 = ⊤ := by simp [Ideal.ofBits, Ideal.ieee]
  rw [hT] at h
  unfold Ideal.cmp at h
  induction x using EReal.rec with
  | bot => simp at h
  | top => simp at h
  | coe r => exact ⟨EReal.coe_ne_top r, EReal.coe_ne_bot r⟩

/-- One conjunct of the predicate: the conjunction over ALL indices of |x i| < +∞, folded from 1 into the
    single scalar cell, is 1 only if every comparison is 1; so every entry is a real number. -/
theorem finite_of_all_abs_lt_top {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant (F := Ideal) S_ .f32 0x7F800000#32)))
        (constantI S_ 1 1#1) hr hu ValueIdx.ix0 = 1#1) (i : s.Idx) : Fin' (x i) := by
  -- a shape of rank zero has exactly one index
  haveI : Subsingleton S_.Idx := ⟨fun a b => funext fun d => d.elim0⟩
  exact finite_of_abs_lt_top (x i) (Host.reduce_andi_all _ _ hr hu ValueIdx.ix0 e i)

/-- The printed predicate is all ones exactly when each of the four float arrays is finite everywhere; this is
    the direction the proof uses. -/
theorem finite_of_pre (a0 : FVec Ideal S40000x32x4 .f32) (a1 : IVec S40000 32) (a2 : IVec S40000x2 32) (a3 : FVec Ideal S64x9 .f32)
    (a4 a5 : FVec Ideal S64 .f32)
    (h : Cert.Pre_finite_inputs.fn (F := Ideal) a0 a1 a2 a3 a4 a5 = fun _ => 1#1) :
    (∀ i, Fin' (a0 i)) ∧ (∀ i, Fin' (a3 i)) ∧ (∀ i, Fin' (a4 i)) ∧ (∀ i, Fin' (a5 i)) := by
  -- the predicate at its one index: ((all₀ ∧ all₃) ∧ all₄) ∧ all₅ = 1
  have h0 := congrFun h ValueIdx.ix0
  dsimp only [Cert.Pre_finite_inputs.fn, Cert.Pre_finite_inputs.fn_part1] at h0
  -- a conjunction of one-bit words is 1 exactly when both are
  obtain ⟨h012, h3⟩ := IntOp.andi_eq_one.1 (show IntOp.andi _ _ = 1#1 from h0)
  obtain ⟨h01, h2⟩ := IntOp.andi_eq_one.1 (show IntOp.andi _ _ = 1#1 from h012)
  obtain ⟨hA, hB⟩ := IntOp.andi_eq_one.1 (show IntOp.andi _ _ = 1#1 from h01)
  exact ⟨finite_of_all_abs_lt_top a0 _ _ _ hA, finite_of_all_abs_lt_top a3 _ _ _ hB,
    finite_of_all_abs_lt_top a4 _ _ _ h2, finite_of_all_abs_lt_top a5 _ _ _ h3⟩

end Cert.Pillar

end
-- ==== Proof.lean ====
/-
  The certificate's five claims.  The three frames are the generated frame runs (the reference's is its run with the
  result dropped).  The ideal pass rewrote nothing, so `preserves` is trivial.  For `algebraic`: the kernel program's
  result is the arrangement that accumulates the sum and the sum of squares of the linear layer's outputs over all
  points and folds mean and deviation into a scale and a shift; the reference's result is the arrangement that
  centres first; on finite inputs (the precondition) the two are one function, because every masked feature is a
  real number, so the variance identity  E[x²] − E[x]² = E[(x − E x)²]  and the affine identity
  x·(r·γ) + (β − μ·r·γ) = (x − μ)·r·γ + β  hold over the reals.
-/
import proofs.«172518_j14388140441772_1_alg».proof.Defs
import proofs.«172518_j14388140441772_1_alg».proof.Proof.Gen.Kernel
import proofs.«172518_j14388140441772_1_alg».proof.Proof.Gen.Kernel.Skeleton
import proofs.«172518_j14388140441772_1_alg».proof.Proof.Gen.Kernel.Launch
import proofs.«172518_j14388140441772_1_alg».proof.Proof.Gen.Kernel.Points
import proofs.«172518_j14388140441772_1_alg».proof.Proof.Gen.Kernel.Frame
import proofs.«172518_j14388140441772_1_alg».proof.Proof.Gen.KernelIdeal
import proofs.«172518_j14388140441772_1_alg».proof.Proof.Gen.KernelIdeal.Skeleton
import proofs.«172518_j14388140441772_1_alg».proof.Proof.Gen.KernelIdeal.Launch
import proofs.«172518_j14388140441772_1_alg».proof.Proof.Gen.KernelIdeal.Points
import proofs.«172518_j14388140441772_1_alg».proof.Proof.Gen.KernelIdeal.Frame
import proofs.«172518_j14388140441772_1_alg».proof.Proof.Gen.ReferenceIdeal
import proofs.«172518_j14388140441772_1_alg».proof.Proof.Gen.Pre_finite_inputs
import proofs.«172518_j14388140441772_1_alg».proof.Proof.KernelRun
import proofs.«172518_j14388140441772_1_alg».proof.Proof.KGlue
import proofs.«172518_j14388140441772_1_alg».proof.Proof.RefRun
import proofs.«172518_j14388140441772_1_alg».proof.Proof.RefValue
import proofs.«172518_j14388140441772_1_alg».proof.Proof.Algebra
import proofs.«172518_j14388140441772_1_alg».proof.Proof.Finite
import Idealize.ShloMosaic.Adequacy
import Idealize.ShloMosaic.Init

noncomputable section

namespace Cert.Proof

open Idealize.ShloMosaic Idealize.SL.Sem Cert.Pillar

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end at the same function of the arguments: the kernel's sum-of-squares arrangement is the
    reference's centre-first arrangement once every float input is a real number. -/
theorem algebraic : Cert.algebraic_KernelIdeal_ReferenceIdeal := by
  intro m ρ m' ρ' hpre hagree
  refine ⟨fun c j => outK (Cert.KernelIdeal.KValue.aVox m c) (Cert.KernelIdeal.KValue.aNpt m c) (Cert.KernelIdeal.KValue.aCoo m c)
      (Cert.KernelIdeal.KValue.aWgt m c) (Cert.KernelIdeal.KValue.aGam m c) (Cert.KernelIdeal.KValue.aBet m c) (j 0) (j 1), ?_, ?_⟩
  · exact (θ_run Cert.KernelIdeal.defs _ _).mono
      (fun _ h c => ⟨(h c).1.trans (Cert.KernelIdeal.KValue.result_eq m ρ c), (h c).2⟩)
      (Cert.KernelIdeal.GenP.run_val (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5⟩ := hagree c
    rw [e0, e1, e2, e3, e4, e5, Cert.ReferenceIdeal.RefValue.refTerm_eq]
    obtain ⟨f0, f3, f4, f5⟩ := finite_of_pre _ _ _ _ _ _ (hpre c)
    funext j
    exact (congrFun (congrFun (outK_eq_outR _ _ _ _ _ _ (fun v p k => f0 _) (fun o c' => f3 _) (fun o => f4 _) (fun o => f5 _)) (j 0)) (j 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
